-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S512x512 : Shape := ⟨2, ![512, 512]⟩
abbrev S2x512 : Shape := ⟨2, ![2, 512]⟩
abbrev S2 : Shape := ⟨1, ![2]⟩
abbrev S_ : Shape := ⟨0, ![]⟩
abbrev S1 : Shape := ⟨1, ![1]⟩
abbrev S1x512 : Shape := ⟨2, ![1, 512]⟩
abbrev S511x512 : Shape := ⟨2, ![511, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v11 : BitVec 32 := Scalar.extui v8
  let c0_i32_5 : BitVec 32 := 0#32
  let v12 : BitVec 1 := Scalar.cmpi .ne v11 c0_i32_5
  v12

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_36 : BitVec 32 := 1#32
  let v60 : BitVec 32 := Scalar.muli v5 c1_i32_36
  let v61 : BitVec 32 := Scalar.addi c0_i32_37 v60
  v61.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .slt v2 c31_i32
  let v13 : BitVec 32 := Scalar.extui v9
  let c0_i32_6 : BitVec 32 := 0#32
  let v14 : BitVec 1 := Scalar.cmpi .ne v13 c0_i32_6
  v14

def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_36 : BitVec 32 := 1#32
  let v60 : BitVec 32 := Scalar.muli v7 c1_i32_36
  let v61 : BitVec 32 := Scalar.addi c0_i32_37 v60
  v61.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v9 : BitVec 1 := Scalar.cmpi .slt v2 c31_i32
  let v15 : BitVec 32 := Scalar.extui v9
  let c0_i32_9 : BitVec 32 := 0#32
  let v16 : BitVec 1 := Scalar.cmpi .ne v15 c0_i32_9
  v16

def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_35 : BitVec 32 := 1#32
  let v60 : BitVec 32 := Scalar.muli v7 c1_i32_35
  let v61 : BitVec 32 := Scalar.addi c0_i32_36 v60
  v61.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v17 : BitVec 32 := Scalar.extui v8
  let c0_i32_12 : BitVec 32 := 0#32
  let v18 : BitVec 1 := Scalar.cmpi .ne v17 c0_i32_12
  v18

def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_35 : BitVec 32 := 1#32
  let v60 : BitVec 32 := Scalar.muli v5 c1_i32_35
  let v61 : BitVec 32 := Scalar.addi c0_i32_36 v60
  v61.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S2x512_S1x512_0_0 : ∀ a, (![0, 0] : Fin 2 → Nat) a + S1x512.size a ≤ S2x512.size a
  inb_S512x512_S1x512_511_0 : ∀ a, (![511, 0] : Fin 2 → Nat) a + S1x512.size a ≤ S512x512.size a
  inb_S2_S1_1 : ∀ a, (![1] : Fin 1 → Nat) a + S1.size a ≤ S2.size a
  inb_S2x512_S1x512_1_0 : ∀ a, (![1, 0] : Fin 2 → Nat) a + S1x512.size a ≤ S2x512.size a
  inb_S512x512_S1x512_0_0 : ∀ a, (![0, 0] : Fin 2 → Nat) a + S1x512.size a ≤ S512x512.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S512x512_o0_0_S1x512 : S512x512.Slices ![0, 0] S1x512
  slices_S512x512_o0_0_S511x512 : S512x512.Slices ![0, 0] S511x512
  concatenates_S1x512_S511x512_S512x512_d0 : Shape.Concatenates [S1x512, S511x512] S512x512 0
  slices_S512x512_o1_0_S511x512 : S512x512.Slices ![1, 0] S511x512
  slices_S512x512_o511_0_S1x512 : S512x512.Slices ![511, 0] S1x512
  concatenates_S511x512_S1x512_S512x512_d0 : Shape.Concatenates [S511x512, S1x512] S512x512 0
  slices_S512x512_o1_0_S1x512 : S512x512.Slices ![1, 0] S1x512
  slices_S512x512_o510_0_S1x512 : S512x512.Slices ![510, 0] S1x512
  h_S1x512 : 0 < S1x512.numel
  hcc0_scratch1 : 2 + S2.numel ≤ 6
  hcc0_scratch2 : 4 + S2.numel ≤ 6
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  k0_dev3_lt : ∀ d0 : Dev nD, ∀ (k0_h3 : k0_cond3 d0 = 1#1), (k0_dev3 d0) < nD
  k0_dev4_lt : ∀ d0 : Dev nD, ∀ (k0_h4 : k0_cond4 d0 = 1#1), (k0_dev4 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x512 : Shape := ⟨2, ![16384, 512]⟩
abbrev S1x512 : Shape := ⟨2, ![1, 512]⟩
abbrev S512 : Shape := ⟨1, ![512]⟩
abbrev S_ : Shape := ⟨0, ![]⟩
abbrev S1 : Shape := ⟨1, ![1]⟩
abbrev S16382x512 : Shape := ⟨2, ![16382, 512]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S512, .f32⟩
  | .hbm, ⟨4, _⟩ => ⟨S_, .i32⟩
  | .hbm, ⟨5, _⟩ => ⟨S1, .i32⟩
  | .hbm, ⟨6, _⟩ => ⟨S16384x512, .f32⟩
  | .hbm, ⟨7, _⟩ => ⟨S1x512, .f32⟩
  | .hbm, ⟨8, _⟩ => ⟨S512, .f32⟩
  | .hbm, ⟨9, _⟩ => ⟨S_, .i32⟩
  | .hbm, ⟨10, _⟩ => ⟨S1, .i32⟩
  | .hbm, ⟨11, _⟩ => ⟨S16384x512, .f32⟩
  | .hbm, ⟨12, _⟩ => ⟨S16382x512, .f32⟩
  | .hbm, ⟨13, _⟩ => ⟨S_, .f32⟩
  | .hbm, ⟨14, _⟩ => ⟨S16382x512, .f32⟩
  | .hbm, ⟨15, _⟩ => ⟨S16382x512, .f32⟩
  | .hbm, ⟨16, _⟩ => ⟨S16382x512, .f32⟩
  | .hbm, ⟨17, _⟩ => ⟨S_, .f32⟩
  | .hbm, ⟨18, _⟩ => ⟨S16382x512, .f32⟩
  | .hbm, ⟨19, _⟩ => ⟨S16382x512, .f32⟩
  | .hbm, ⟨20, _⟩ => ⟨S16382x512, .f32⟩
  | .hbm, ⟨21, _⟩ => ⟨S16382x512, .f32⟩
  | .hbm, ⟨22, _⟩ => ⟨S_, .f32⟩
  | .hbm, ⟨23, _⟩ => ⟨S16382x512, .f32⟩
  | .hbm, ⟨24, _⟩ => ⟨S16382x512, .f32⟩
  | .hbm, ⟨25, _⟩ => ⟨S16382x512, .f32⟩
  | .hbm, ⟨26, _⟩ => ⟨S_, .i32⟩
  | .hbm, ⟨27, _⟩ => ⟨S1, .i32⟩
  | .hbm, ⟨28, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S16384x512_S1x512_0_0 : S16384x512.Slices ![0, 0] S1x512
  shapeCasts_S1x512_S512 : S1x512.ShapeCasts S512
  bcast_S_S1 : S_.BroadcastsInDim S1 (![] : Fin 0 → Fin S1.rank)
  slices_S16384x512_S1x512_16383_0 : S16384x512.Slices ![16383, 0] S1x512
  slices_S16384x512_S16382x512_0_0 : S16384x512.Slices ![0, 0] S16382x512
  bcast_S_S16382x512 : S_.BroadcastsInDim S16382x512 (![] : Fin 0 → Fin S16382x512.rank)
  slices_S16384x512_S16382x512_1_0 : S16384x512.Slices ![1, 0] S16382x512
  slices_S16384x512_S16382x512_2_0 : S16384x512.Slices ![2, 0] S16382x512
  scatter_S16384x512_S1_S512_0_0_0_0_wf : ScatterDims.WF S16384x512 S1 S512 [0] [0] [0] 0
  scatter_S16384x512_S1_S16382x512_01_n_0_0_wf : ScatterDims.WF S16384x512 S1 S16382x512 [0, 1] [] [0] 0

variable [Facts₀]

def scatter_S16384x512_S1_S512_0_0_0_0 : ScatterDims S16384x512 S1 S512 where
  updateWindowDims := [0]
  insertedWindowDims := [0]
  scatterDimsToOperandDims := [0]
  indexVectorDim := 0
  wf := scatter_S16384x512_S1_S512_0_0_0_0_wf
def scatter_S16384x512_S1_S16382x512_01_n_0_0 : ScatterDims S16384x512 S1 S16382x512 where
  updateWindowDims := [0, 1]
  insertedWindowDims := []
  scatterDimsToOperandDims := [0]
  indexVectorDim := 0
  wf := scatter_S16384x512_S1_S16382x512_01_n_0_0_wf

class Facts : Prop extends Facts₀ where

variable [Facts]
-- ==== Proof.Mesh.lean ====
/-
  The 32 devices stand in a line: device c holds rows 512c … 512c + 511 of the array, has a neighbour before it when
  c > 0 and one after it when c < 31. The neighbour functions wrap around (so that they are inverse bijections of the
  mesh), but a device only ever addresses the neighbour on a side where it has one. Here: the two neighbour
  functions, the kernel's four guards read as "has a neighbour before" / "has a neighbour after", and the devices its
  signals and copies address read as those neighbours.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The device before `c` and the device after it (wrapping around the mesh). -/
def lft (c : Dev nD) : Dev nD := ⟨(c.val + 31) % 32, Nat.mod_lt _ (by decide)⟩
def rgt (c : Dev nD) : Dev nD := ⟨(c.val + 1) % 32, Nat.mod_lt _ (by decide)⟩

/-- Device `c` has a neighbour before it; after it. -/
abbrev hasL (c : Dev nD) : Prop := 0 < c.val
abbrev hasR (c : Dev nD) : Prop := c.val < 31

theorem lft_rgt (c : Dev nD) : lft (rgt c) = c := by revert c; decide +kernel
theorem rgt_lft (c : Dev nD) : rgt (lft c) = c := by revert c; decide +kernel
theorem hasR_lft {c : Dev nD} (h : hasL c) : hasR (lft c) := by revert c; decide +kernel
theorem hasL_rgt {c : Dev nD} (h : hasR c) : hasL (rgt c) := by revert c; decide +kernel
theorem hasL_lft_iff (c : Dev nD) : hasR (lft c) ↔ hasL c := by revert c; decide +kernel
theorem hasR_rgt_iff (c : Dev nD) : hasL (rgt c) ↔ hasR c := by revert c; decide +kernel
theorem lft_ne_rgt (c : Dev nD) : lft c ≠ rgt c := by revert c; decide +kernel
theorem lft_ne_self (c : Dev nD) : lft c ≠ c := by revert c; decide +kernel
theorem rgt_ne_self (c : Dev nD) : rgt c ≠ c := by revert c; decide +kernel
theorem lft_val {c : Dev nD} (h : hasL c) : (lft c).val = c.val - 1 := by revert c; decide +kernel
theorem rgt_val {c : Dev nD} (h : hasR c) : (rgt c).val = c.val + 1 := by revert c; decide +kernel
theorem has_one (c : Dev nD) : hasL c ∨ hasR c := by revert c; decide +kernel

/-- The neighbour functions as a permutation of the mesh and its inverse. -/
def shift : Dev nD ≃ Dev nD := ⟨rgt, lft, lft_rgt, rgt_lft⟩

/-- The kernel's four guards: the first and the fourth ask for a neighbour before, the second and the third for one after. -/
theorem cond1_eq (c : Dev nD) : (k0_cond1 c = 1#1) = hasL c := by revert c; decide +kernel
theorem cond2_eq (c : Dev nD) : (k0_cond2 c = 1#1) = hasR c := by revert c; decide +kernel
theorem cond3_eq (c : Dev nD) : (k0_cond3 c = 1#1) = hasR c := by revert c; decide +kernel
theorem cond4_eq (c : Dev nD) : (k0_cond4 c = 1#1) = hasL c := by revert c; decide +kernel

/-- The devices the kernel addresses: its first signal and its second copy go to the device before, its second signal
    and its first copy to the device after. -/
theorem dev1_eq (c : Dev nD) (h : k0_cond1 c = 1#1) : (⟨k0_dev1 c, k0_dev1_lt c h⟩ : Dev nD) = lft c := Fin.ext (k0_dev1_eq c)
theorem dev2_eq (c : Dev nD) (h : k0_cond2 c = 1#1) : (⟨k0_dev2 c, k0_dev2_lt c h⟩ : Dev nD) = rgt c := Fin.ext (k0_dev2_eq c)
theorem dev3_eq (c : Dev nD) (h : k0_cond3 c = 1#1) : (⟨k0_dev3 c, k0_dev3_lt c h⟩ : Dev nD) = rgt c := Fin.ext (k0_dev3_eq c)
theorem dev4_eq (c : Dev nD) (h : k0_cond4 c = 1#1) : (⟨k0_dev4 c, k0_dev4_lt c h⟩ : Dev nD) = lft c := Fin.ext (k0_dev4_eq c)

end Cert.KernelIdeal.Halo

end
-- ==== Proof.Sched.lean ====
/-
  The halo exchange as a schedule of semaphore rounds. Every device has five cells: the barrier semaphore, a send and
  a receive semaphore for the copy that goes to the device after it, and a send and a receive semaphore for the copy
  that goes to the device before it. Each cell has one round.

  * The barrier cell of device c is paid one unit by the device before c and one unit by the device after c (each
    where it exists). The unit from the device before carries that device's second halo row — the row c's copy to it
    will overwrite; the unit from the device after carries its first halo row. So once a device has consumed its
    barrier round it holds exactly the two destinations its copies write: rows their owners gave up inside the kernel.
  * A receive cell's round is the landing of the neighbour's copy; what lands is named: the halo row holding the
    neighbour's boundary row.
  * A send cell's round returns the half share of the source row lent to the copy; the other half stays with the
    device, which reads its whole block while the copies are in flight.

  A device waits on its barrier cell while it still owes the barrier cell of the device after it, so barrier cells
  are levelled by position, c + 1; receive cells sit above all of them; everything else is at level 0.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.Mesh
import Idealize.ShloMosaic.Lib.Pipeline.Launch
import Idealize.ShloMosaic.Lib.ValueIdx
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the schedule's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and cells -/

abbrev xM : Memref sig .tc .vmem S512x512 .f32 := Memref.whole cc0_stg0_0
abbrev oM : Memref sig .tc .vmem S512x512 .f32 := Memref.whole cc0_stg1_0
abbrev hM : Memref sig .tc .vmem S2x512 .f32 := Memref.whole cc0_scratch0

/-- The first and the last row of a block; the two rows of the halo buffer. -/
abbrev rX0 : Rect S512x512 := Rect.unit (s := S512x512) ![0, 0] S1x512.size inb_S512x512_S1x512_0_0
abbrev rX511 : Rect S512x512 := Rect.unit (s := S512x512) ![511, 0] S1x512.size inb_S512x512_S1x512_511_0
abbrev rH0 : Rect S2x512 := Rect.unit (s := S2x512) ![0, 0] S1x512.size inb_S2x512_S1x512_0_0
abbrev rH1 : Rect S2x512 := Rect.unit (s := S2x512) ![1, 0] S1x512.size inb_S2x512_S1x512_1_0

abbrev x0M : Memref sig .tc .vmem S1x512 .f32 := (xM : Memref sig .tc .vmem S512x512 .f32).slice rX0 (fun _ => rfl)
abbrev x511M : Memref sig .tc .vmem S1x512 .f32 := (xM : Memref sig .tc .vmem S512x512 .f32).slice rX511 (fun _ => rfl)
abbrev h0M : Memref sig .tc .vmem S1x512 .f32 := (hM : Memref sig .tc .vmem S2x512 .f32).slice rH0 (fun _ => rfl)
abbrev h1M : Memref sig .tc .vmem S1x512 .f32 := (hM : Memref sig .tc .vmem S2x512 .f32).slice rH1 (fun _ => rfl)

/-- The barrier semaphore; the send semaphores of the copy to the device after and of the copy to the device before;
    the receive semaphores of the copy from the device before and of the copy from the device after. -/
abbrev barS : Sem sig := 0
abbrev snd0S : DmaSem sig := 2
abbrev snd1S : DmaSem sig := 3
abbrev rcv0S : DmaSem sig := 4
abbrev rcv1S : DmaSem sig := 5

abbrev barCell (c : Dev nD) : GSem nD τ sig := ((c : Thread nD τ), .reg barS)
abbrev snd0Cell (c : Dev nD) : GSem nD τ sig := ((c : Thread nD τ), .dma snd0S)
abbrev snd1Cell (c : Dev nD) : GSem nD τ sig := ((c : Thread nD τ), .dma snd1S)
abbrev rcv0Cell (c : Dev nD) : GSem nD τ sig := ((c : Thread nD τ), .dma rcv0S)
abbrev rcv1Cell (c : Dev nD) : GSem nD τ sig := ((c : Thread nD τ), .dma rcv1S)

/-- The kernel's own (scoped) semaphores, as the launch indexes them; all five of the schedule's, as this proof does. -/
abbrev osem : Fin 4 → SemLoc sig := fun | 0 => .dma snd0S | 1 => .dma snd1S | 2 => .dma rcv0S | 3 => .dma rcv1S
abbrev csem : Fin 5 → SemLoc sig := fun | 0 => .reg barS | 1 => .dma snd0S | 2 => .dma snd1S | 3 => .dma rcv0S | 4 => .dma rcv1S
abbrev kcell (ck : Dev nD × Fin 5) : GSem nD τ sig := ((ck.1 : Thread nD τ), csem ck.2)

/-- One row's credit on a DMA semaphore. -/
abbrev N : ℕ := (h0M : Memref sig .tc .vmem S1x512 .f32).view.dmaCredit
theorem N_pos : 0 < N := by decide

/-! ## Contents -/

/-- Device `c`'s block as its staging buffer holds it. -/
def xstg (c : Dev nD) : (cc0_stg0_0 : Ref sig .tc).ty.Contents (Elt F) :=
  (win0_0.blk (0 : Fin 1)).view.read (Elt F) (m ((c : Thread nD τ).loc main_arg0))

/-- What device `c`'s halo buffer holds once both copies have landed: row 0 the last row of the block before, row 1 the
    first row of the block after. (Of a device at an end of the line only one row is ever written or read.) -/
def haloVal (c : Dev nD) : (cc0_scratch0 : Ref sig .tc).ty.Contents (Elt F) := fun i =>
  if (i 0).val = 0 then xstg m (lft c) (ValueIdx.ix2 (n0 := 512) (n1 := 512) ⟨511, by decide⟩ ⟨(i 1).val, (i 1).isLt⟩)
  else xstg m (rgt c) (ValueIdx.ix2 (n0 := 512) (n1 := 512) ⟨0, by decide⟩ ⟨(i 1).val, (i 1).isLt⟩)

/-- A row of a buffer on device `c`, held outright at contents `f`; at share `q`. -/
abbrev rowPts (c : Dev nD) {sp : Space} {s : Shape} (M : Memref sig .tc sp s .f32) (q : PosShare TreeShare)
    (f : Buf (Elt F) (M.view.loc (c : Thread nD τ))) : sProp 𝕄 :=
  M.view.loc (c : Thread nD τ) ↦[M.view.set]{q} f

/-! ## The schedule -/

/-- What the device before `c` hands `c` with its barrier unit: its second halo row, at whatever it holds. What the device
    after `c` hands it: its first halo row. -/
def barPayL (c : Dev nD) : sProp 𝕄 :=
  iprop(∃ f, (h1M : Memref sig .tc .vmem S1x512 .f32).view.loc (lft c : Thread nD τ) ↦[(h1M : Memref sig .tc .vmem S1x512 .f32).view.set]{fullShare} f)
def barPayR (c : Dev nD) : sProp 𝕄 :=
  iprop(∃ f, (h0M : Memref sig .tc .vmem S1x512 .f32).view.loc (rgt c : Thread nD τ) ↦[(h0M : Memref sig .tc .vmem S1x512 .f32).view.set]{fullShare} f)
/-- What lands on a receive cell: the halo row at its named contents. What a send cell returns: the lent half of the source row. -/
def rcv0Pay (c : Dev nD) : sProp 𝕄 :=
  (h0M : Memref sig .tc .vmem S1x512 .f32).view.loc (c : Thread nD τ) ↦[(h0M : Memref sig .tc .vmem S1x512 .f32).view.set]{fullShare} haloVal m c
def rcv1Pay (c : Dev nD) : sProp 𝕄 :=
  (h1M : Memref sig .tc .vmem S1x512 .f32).view.loc (c : Thread nD τ) ↦[(h1M : Memref sig .tc .vmem S1x512 .f32).view.set]{fullShare} haloVal m c
def snd0Pay (c : Dev nD) : sProp 𝕄 :=
  (x511M : Memref sig .tc .vmem S1x512 .f32).view.loc (c : Thread nD τ) ↦[(x511M : Memref sig .tc .vmem S1x512 .f32).view.set]{fullShare.right} xstg m c
def snd1Pay (c : Dev nD) : sProp 𝕄 :=
  (x0M : Memref sig .tc .vmem S1x512 .f32).view.loc (c : Thread nD τ) ↦[(x0M : Memref sig .tc .vmem S1x512 .f32).view.set]{fullShare.right} xstg m c

/-- The duties of a cell's one round, by the cell's semaphore and its device's place in the line. -/
def dutiesOf (g : GSem nD τ sig) : Finset Bool :=
  if g.1.2 = .tc then
    if g.2 = .reg barS then (if hasL g.1.1 then {false} else ∅) ∪ (if hasR g.1.1 then {true} else ∅)
    else if g.2 = .dma snd0S ∨ g.2 = .dma rcv1S then (if hasR g.1.1 then {false} else ∅)
    else if g.2 = .dma snd1S ∨ g.2 = .dma rcv0S then (if hasL g.1.1 then {false} else ∅)
    else ∅
  else ∅

def haloRd : Rounds.Schedule (GSem nD τ sig) Bool 𝕄 where
  duties g r := if r = 0 then dutiesOf g else ∅
  unitless _ := False
  amount g _ _ := if g.2 = .reg barS then 1 else N
  payload g _ d :=
    if g.2 = .reg barS then (if d then barPayR g.1.1 else barPayL g.1.1)
    else if g.2 = .dma snd0S then snd0Pay m g.1.1
    else if g.2 = .dma snd1S then snd1Pay m g.1.1
    else if g.2 = .dma rcv0S then rcv0Pay m g.1.1
    else if g.2 = .dma rcv1S then rcv1Pay m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayR g.1.1 else barPayL g.1.1)
    else if g.2 = .dma snd0S then snd0Pay m g.1.1 else if g.2 = .dma snd1S then snd1Pay m g.1.1
    else if g.2 = .dma rcv0S then rcv0Pay m g.1.1 else if g.2 = .dma rcv1S then rcv1Pay m g.1.1 else iprop(emp))
  unfold barPayL barPayR snd0Pay snd1Pay rcv0Pay rcv1Pay
  (repeat' split) <;> infer_instance

/-! ## The schedule's tables, cell by cell -/

section Tables
variable (c : Dev nD)

theorem snd0_ne_bar : (SemLoc.dma snd0S : SemLoc sig) ≠ .reg barS := fun h => by cases h
theorem snd1_ne_bar : (SemLoc.dma snd1S : SemLoc sig) ≠ .reg barS := fun h => by cases h
theorem rcv0_ne_bar : (SemLoc.dma rcv0S : SemLoc sig) ≠ .reg barS := fun h => by cases h
theorem rcv1_ne_bar : (SemLoc.dma rcv1S : SemLoc sig) ≠ .reg barS := fun h => by cases h
theorem snd1_ne_snd0 : (SemLoc.dma snd1S : SemLoc sig) ≠ .dma snd0S := by decide
theorem rcv0_ne_snd0 : (SemLoc.dma rcv0S : SemLoc sig) ≠ .dma snd0S := by decide
theorem rcv1_ne_snd0 : (SemLoc.dma rcv1S : SemLoc sig) ≠ .dma snd0S := by decide
theorem rcv0_ne_snd1 : (SemLoc.dma rcv0S : SemLoc sig) ≠ .dma snd1S := by decide
theorem rcv1_ne_snd1 : (SemLoc.dma rcv1S : SemLoc sig) ≠ .dma snd1S := by decide
theorem rcv1_ne_rcv0 : (SemLoc.dma rcv1S : SemLoc sig) ≠ .dma rcv0S := by decide
theorem snd0_ne_rcv1 : (SemLoc.dma snd0S : SemLoc sig) ≠ .dma rcv1S := by decide
theorem snd1_ne_rcv1 : (SemLoc.dma snd1S : SemLoc sig) ≠ .dma rcv1S := by decide
theorem snd1_ne_rcv0 : (SemLoc.dma snd1S : SemLoc sig) ≠ .dma rcv0S := by decide

theorem dutiesOf_bar : dutiesOf (barCell c) = (if hasL c then {false} else ∅) ∪ (if hasR c then {true} else ∅) := by
  unfold dutiesOf; rw [if_pos rfl, if_pos rfl]
theorem dutiesOf_snd0 : dutiesOf (snd0Cell c) = if hasR c then {false} else ∅ := by
  unfold dutiesOf; rw [if_pos rfl, if_neg snd0_ne_bar, if_pos (.inl rfl)]
theorem dutiesOf_rcv1 : dutiesOf (rcv1Cell c) = if hasR c then {false} else ∅ := by
  unfold dutiesOf; rw [if_pos rfl, if_neg rcv1_ne_bar, if_pos (.inr rfl)]
theorem dutiesOf_snd1 : dutiesOf (snd1Cell c) = if hasL c then {false} else ∅ := by
  unfold dutiesOf; rw [if_pos rfl, if_neg snd1_ne_bar, if_neg (fun h => h.elim snd1_ne_snd0 snd1_ne_rcv1), if_pos (.inl rfl)]
theorem dutiesOf_rcv0 : dutiesOf (rcv0Cell c) = if hasL c then {false} else ∅ := by
  unfold dutiesOf; rw [if_pos rfl, if_neg rcv0_ne_bar, if_neg (fun h => h.elim rcv0_ne_snd0 (fun h' => rcv1_ne_rcv0 h'.symm)), if_pos (.inr rfl)]

omit [FloatOps F] in
theorem duties_zero (g : GSem nD τ sig) : (haloRd (F := F) m).duties g 0 = dutiesOf g := by dsimp only [haloRd]; exact if_pos rfl
omit [FloatOps F] in
theorem duties_later (g : GSem nD τ sig) : ∀ r, 1 ≤ r → (haloRd (F := F) m).duties g r = ∅ :=
  fun r hr => by dsimp only [haloRd]; exact if_neg (by omega)

omit [FloatOps F] in
theorem duties_bar_both (hl : hasL c) (hr : hasR c) : (haloRd (F := F) m).duties (barCell c) 0 = Finset.univ := by
  rw [duties_zero, dutiesOf_bar, if_pos hl, if_pos hr]; decide
omit [FloatOps F] in
theorem duties_bar_first (hl : ¬ hasL c) (hr : hasR c) : (haloRd (F := F) m).duties (barCell c) 0 = {true} := by
  rw [duties_zero, dutiesOf_bar, if_neg hl, if_pos hr]; decide
omit [FloatOps F] in
theorem duties_bar_last (hl : hasL c) (hr : ¬ hasR c) : (haloRd (F := F) m).duties (barCell c) 0 = {false} := by
  rw [duties_zero, dutiesOf_bar, if_pos hl, if_neg hr]; decide
omit [FloatOps F] in
theorem duties_snd0 (hr : hasR c) : (haloRd (F := F) m).duties (snd0Cell c) 0 = {false} := by rw [duties_zero, dutiesOf_snd0, if_pos hr]
omit [FloatOps F] in
theorem duties_rcv1 (hr : hasR c) : (haloRd (F := F) m).duties (rcv1Cell c) 0 = {false} := by rw [duties_zero, dutiesOf_rcv1, if_pos hr]
omit [FloatOps F] in
theorem duties_snd1 (hl : hasL c) : (haloRd (F := F) m).duties (snd1Cell c) 0 = {false} := by rw [duties_zero, dutiesOf_snd1, if_pos hl]
omit [FloatOps F] in
theorem duties_rcv0 (hl : hasL c) : (haloRd (F := F) m).duties (rcv0Cell c) 0 = {false} := by rw [duties_zero, dutiesOf_rcv0, if_pos hl]
omit [FloatOps F] in
theorem duties_snd0_none (hr : ¬ hasR c) : ∀ r, (haloRd (F := F) m).duties (snd0Cell c) r = ∅ := fun r => by
  rcases r with _ | r
  · rw [duties_zero, dutiesOf_snd0, if_neg hr]
  · exact duties_later m _ _ (by omega)
omit [FloatOps F] in
theorem duties_rcv1_none (hr : ¬ hasR c) : ∀ r, (haloRd (F := F) m).duties (rcv1Cell c) r = ∅ := fun r => by
  rcases r with _ | r
  · rw [duties_zero, dutiesOf_rcv1, if_neg hr]
  · exact duties_later m _ _ (by omega)
omit [FloatOps F] in
theorem duties_snd1_none (hl : ¬ hasL c) : ∀ r, (haloRd (F := F) m).duties (snd1Cell c) r = ∅ := fun r => by
  rcases r with _ | r
  · rw [duties_zero, dutiesOf_snd1, if_neg hl]
  · exact duties_later m _ _ (by omega)
omit [FloatOps F] in
theorem duties_rcv0_none (hl : ¬ hasL c) : ∀ r, (haloRd (F := F) m).duties (rcv0Cell c) r = ∅ := fun r => by
  rcases r with _ | r
  · rw [duties_zero, dutiesOf_rcv0, if_neg hl]
  · exact duties_later m _ _ (by omega)

omit [FloatOps F] in
theorem amount_bar (d : Bool) : (haloRd (F := F) m).amount (barCell c) 0 d = 1 := by dsimp only [haloRd]; exact if_pos rfl
omit [FloatOps F] in
theorem amount_snd0 (d : Bool) : (haloRd (F := F) m).amount (snd0Cell c) 0 d = N := by dsimp only [haloRd]; exact if_neg snd0_ne_bar
omit [FloatOps F] in
theorem amount_snd1 (d : Bool) : (haloRd (F := F) m).amount (snd1Cell c) 0 d = N := by dsimp only [haloRd]; exact if_neg snd1_ne_bar
omit [FloatOps F] in
theorem amount_rcv0 (d : Bool) : (haloRd (F := F) m).amount (rcv0Cell c) 0 d = N := by dsimp only [haloRd]; exact if_neg rcv0_ne_bar
omit [FloatOps F] in
theorem amount_rcv1 (d : Bool) : (haloRd (F := F) m).amount (rcv1Cell c) 0 d = N := by dsimp only [haloRd]; exact if_neg rcv1_ne_bar

omit [FloatOps F] in
theorem expect_bar_both (hl : hasL c) (hr : hasR c) : (haloRd (F := F) m).expect (barCell c) 0 = 2 := by
  unfold Schedule.expect Schedule.amountOf
  rw [duties_bar_both m c hl hr, Finset.sum_congr rfl fun d _ => amount_bar m c d, Finset.sum_const, Finset.card_univ, Fintype.card_bool, smul_eq_mul]
omit [FloatOps F] in
theorem expect_bar_first (hl : ¬ hasL c) (hr : hasR c) : (haloRd (F := F) m).expect (barCell c) 0 = 1 := by
  unfold Schedule.expect Schedule.amountOf; rw [duties_bar_first m c hl hr, Finset.sum_singleton, amount_bar]
omit [FloatOps F] in
theorem expect_bar_last (hl : hasL c) (hr : ¬ hasR c) : (haloRd (F := F) m).expect (barCell c) 0 = 1 := by
  unfold Schedule.expect Schedule.amountOf; rw [duties_bar_last m c hl hr, Finset.sum_singleton, amount_bar]
omit [FloatOps F] in
theorem expect_snd0 (hr : hasR c) : (haloRd (F := F) m).expect (snd0Cell c) 0 = N := by
  unfold Schedule.expect Schedule.amountOf; rw [duties_snd0 m c hr, Finset.sum_singleton, amount_snd0]
omit [FloatOps F] in
theorem expect_snd1 (hl : hasL c) : (haloRd (F := F) m).expect (snd1Cell c) 0 = N := by
  unfold Schedule.expect Schedule.amountOf; rw [duties_snd1 m c hl, Finset.sum_singleton, amount_snd1]
omit [FloatOps F] in
theorem expect_rcv0 (hl : hasL c) : (haloRd (F := F) m).expect (rcv0Cell c) 0 = N := by
  unfold Schedule.expect Schedule.amountOf; rw [duties_rcv0 m c hl, Finset.sum_singleton, amount_rcv0]
omit [FloatOps F] in
theorem expect_rcv1 (hr : hasR c) : (haloRd (F := F) m).expect (rcv1Cell c) 0 = N := by
  unfold Schedule.expect Schedule.amountOf; rw [duties_rcv1 m c hr, Finset.sum_singleton, amount_rcv1]

omit [FloatOps F] in
theorem payload_bar_true : (haloRd (F := F) m).payload (barCell c) 0 true = barPayR c := by dsimp only [haloRd]; rw [if_pos rfl, if_pos rfl]
omit [FloatOps F] in
theorem payload_bar_false : (haloRd (F := F) m).payload (barCell c) 0 false = barPayL c := by
  dsimp only [haloRd]; rw [if_pos rfl]; exact if_neg Bool.false_ne_true
omit [FloatOps F] in
theorem payload_snd0 (d : Bool) : (haloRd (F := F) m).payload (snd0Cell c) 0 d = snd0Pay m c := by
  dsimp only [haloRd]; rw [if_neg snd0_ne_bar, if_pos rfl]
omit [FloatOps F] in
theorem payload_snd1 (d : Bool) : (haloRd (F := F) m).payload (snd1Cell c) 0 d = snd1Pay m c := by
  dsimp only [haloRd]; rw [if_neg snd1_ne_bar, if_neg snd1_ne_snd0, if_pos rfl]
omit [FloatOps F] in
theorem payload_rcv0 (d : Bool) : (haloRd (F := F) m).payload (rcv0Cell c) 0 d = rcv0Pay m c := by
  dsimp only [haloRd]; rw [if_neg rcv0_ne_bar, if_neg rcv0_ne_snd0, if_neg rcv0_ne_snd1, if_pos rfl]
omit [FloatOps F] in
theorem payload_rcv1 (d : Bool) : (haloRd (F := F) m).payload (rcv1Cell c) 0 d = rcv1Pay m c := by
  dsimp only [haloRd]; rw [if_neg rcv1_ne_bar, if_neg rcv1_ne_snd0, if_neg rcv1_ne_snd1, if_neg rcv1_ne_rcv0, if_pos rfl]

end Tables

/-! ## What each device owes at launch; the levels -/

/-- Device `c` owes the receive cell on each neighbour's halo row one row's credit, and each neighbour's barrier cell one unit. -/
def O₀ (c : Dev nD) : CellTallies nD τ sig Unit :=
  (if hasR c then tallyAt (rcv0Cell (rgt c)) () N else 0) + (if hasL c then tallyAt (rcv1Cell (lft c)) () N else 0)
    + (if hasR c then tallyAt (barCell (rgt c)) () 1 else 0) + (if hasL c then tallyAt (barCell (lft c)) () 1 else 0)

def L (g : GSem nD τ sig) : Finset Unit := if g.1.2 = .tc then {()} else ∅
/-- Barrier cells by position, receive cells above them all, everything else (staging, send) at 0. -/
def lv (g : GSem nD τ sig) (_ : Unit) : ℕ :=
  if g.2 = .reg barS then g.1.1.val + 1 else if g.2 = .dma rcv0S ∨ g.2 = .dma rcv1S then 100 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = c.val + 1 := if_pos rfl
theorem lv_rcv0 (c : Dev nD) : lv (rcv0Cell c) () = 100 := by unfold lv; rw [if_neg rcv0_ne_bar, if_pos (.inl rfl)]
theorem lv_rcv1 (c : Dev nD) : lv (rcv1Cell c) () = 100 := by unfold lv; rw [if_neg rcv1_ne_bar, if_pos (.inr rfl)]

end Cert.KernelIdeal.Halo

end
-- ==== Proof.Data.lean ====
/-
  The proof data of the one launch: what each output buffer holds after the body, the resources a device's body starts
  from and ends with, and the evidence that each of its waits sits below everything it still owes.

  The result block is named as the body writes it: the stencil of the device's own block stored whole, then its first
  row overwritten — with the sum that takes in the halo's first row when there is a device before, with the block's
  own first row when there is none — and its last row likewise from the halo's second row.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.Sched
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The result block -/

/-- The two halo rows as the body loads them. -/
def halo0 (c : Dev nD) : Vec F S1x512 .f32 := (hM : Memref sig .tc .vmem S2x512 .f32).view.readAt (Elt F) rH0.toLoadRect (haloVal m c)
def halo1 (c : Dev nD) : Vec F S1x512 .f32 := (hM : Memref sig .tc .vmem S2x512 .f32).view.readAt (Elt F) rH1.toLoadRect (haloVal m c)

/-- The stencil of the device's own block, its first and last rows still to be corrected. -/
def outBase (c : Dev nD) : (cc0_stg1_0 : Ref sig .tc).ty.Contents (Elt F) :=
  k0_pay1 (k0_pay7 (xstg m c)) (k0_pay8 (xstg m c)) k0_pay9
/-- The corrected first row and last row. -/
def outRow0 (c : Dev nD) : FVec F S1x512 .f32 :=
  if hasL c then k0_pay2 (k0_pay6 (xstg m c)) (halo0 m c) else k0_pay3 (k0_pay6 (xstg m c))
def outRow511 (c : Dev nD) : FVec F S1x512 .f32 :=
  if hasR c then k0_pay4 (k0_pay6 (xstg m c)) (halo1 m c) else k0_pay5 (k0_pay6 (xstg m c))
/-- The result block: the base with both rows written over it, in the body's order. -/
def outAt (c : Dev nD) : (cc0_stg1_0 : Ref sig .tc).ty.Contents (Elt F) :=
  ((oM : Memref sig .tc .vmem S512x512 .f32).access rX511 : View sig .tc _ _ _).write (Elt F)
    (((oM : Memref sig .tc .vmem S512x512 .f32).access rX0 : View sig .tc _ _ _).write (Elt F) (outBase m c) (outRow0 m c) Finset.univ)
    (outRow511 m c) Finset.univ

/-! ## What a device's body starts from -/

/-- The invariants of the cells device `c`'s body opens, under the names `K` they were allocated at: its own five, both
    neighbours' barrier cells (its signals) and the receive cells its two copies credit. -/
def invs (K : Dev nD × Fin 5 → ℕ) (c : Dev nD) : sProp 𝕄 :=
  iprop(cellInv ER (haloRd m) (K (c, 0)) (barCell c) ∗ cellInv ER (haloRd m) (K (c, 1)) (snd0Cell c) ∗ cellInv ER (haloRd m) (K (c, 2)) (snd1Cell c)
    ∗ cellInv ER (haloRd m) (K (c, 3)) (rcv0Cell c) ∗ cellInv ER (haloRd m) (K (c, 4)) (rcv1Cell c)
    ∗ cellInv ER (haloRd m) (K (lft c, 0)) (barCell (lft c)) ∗ cellInv ER (haloRd m) (K (rgt c, 0)) (barCell (rgt c))
    ∗ cellInv ER (haloRd m) (K (rgt c, 3)) (rcv0Cell (rgt c)) ∗ cellInv ER (haloRd m) (K (lft c, 4)) (rcv1Cell (lft c)))

instance invs_persistent (K : Dev nD × Fin 5 → ℕ) (c : Dev nD) : BI.Persistent (invs m K c) := by unfold invs; infer_instance

/-- That round 0 is open: of the cells device `c` pays and of its own send cells. -/
def opened (c : Dev nD) : sProp 𝕄 :=
  iprop(reached ER (barCell (lft c)) 0 ∗ reached ER (barCell (rgt c)) 0 ∗ reached ER (rcv0Cell (rgt c)) 0 ∗ reached ER (rcv1Cell (lft c)) 0
    ∗ reached ER (snd0Cell c) 0 ∗ reached ER (snd1Cell c) 0)

instance opened_persistent (c : Dev nD) : BI.Persistent (opened (F := F) c) := by unfold opened; infer_instance

/-- Device `c`'s positions on its five cells, none opened yet. -/
def posns (c : Dev nD) : sProp 𝕄 :=
  iprop(atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)

/-- The tokens of the duties device `c` pays: on the barrier cell before it the duty of "the device after", on the
    barrier cell after it the duty of "the device before", the landing duties of its two copies, its two send duties.
    (A device at an end of the line holds two tokens of duties that do not exist and never uses them.) -/
def payToks (c : Dev nD) : sProp 𝕄 :=
  iprop(dutyTok ER (barCell (lft c)) 0 true ∗ dutyTok ER (barCell (rgt c)) 0 false ∗ dutyTok ER (rcv0Cell (rgt c)) 0 false ∗ dutyTok ER (rcv1Cell (lft c)) 0 false
    ∗ dutyTok ER (snd0Cell c) 0 false ∗ dutyTok ER (snd1Cell c) 0 false)

def ghost (K : Dev nD × Fin 5 → ℕ) (c : Dev nD) : sProp 𝕄 := iprop(invs m K c ∗ opened c ∗ posns c ∗ payToks c)

/-- What the neighbours owe device `c`'s cells: a row's credit on each receive cell, a unit each on its barrier cell. -/
def T₀ (c : Dev nD) : CellTallies nD τ sig Unit :=
  (if hasL c then tallyAt (rcv0Cell c) () N else 0) + (if hasR c then tallyAt (rcv1Cell c) () N else 0)
    + (if hasL c then tallyAt (barCell c) () 1 else 0) + (if hasR c then tallyAt (barCell c) () 1 else 0)

/-- What device `c`'s body starts from: its ghost state at some names, the credit for its own waits, the level facts. -/
def start (c : Dev nD) : sProp 𝕄 := iprop((∃ K, ghost m K c) ∗ cred (T₀ c) ∗ levAts L lv)

/-- The halo buffer whole, at some contents. -/
def scrSome (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrSome c)
/-- After the point: the halo buffer back whole, the four own cells closed at zero. -/
def Φ₁ (c : Dev nD) : sProp 𝕄 :=
  iprop(scrSome c ∗ semVal (snd0Cell c) 0 ∗ semVal (snd1Cell c) 0 ∗ semVal (rcv0Cell c) 0 ∗ semVal (rcv1Cell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## A wait below what is owed -/

omit [FloatOps F] in
/-- Device `c` may wait on its semaphore `sm` while owing `O`, when the semaphore's level is at most `b` and every cell
    `O` charges is a TensorCore's, strictly above `b`. -/
theorem mayWait_cut (c : Dev nD) (sm : SemLoc sig) (b : ℕ) (hb : lv ((c : Thread nD τ), sm) () ≤ b) (O : CellTallies nD τ sig Unit)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.KernelIdeal.Halo

end
-- ==== Proof.Landing.lean ====
/-
  Where the rows of the halo exchange sit and what they hold, for every float instance: a copy of a block's boundary row
  lands in the neighbour's halo buffer as the row the neighbour's halo is named to hold; a load of a halo row reads the
  neighbour's boundary row; the two halo rows split the halo buffer, so holding the buffer whole is holding both rows;
  the block held whole is its left half whole together with the right half of its first row, of its last row and of
  the rows between; and the device's block, as its staging buffer holds it, is its array (the window is the whole array).
-/
import proofs.«900820_g7700000000000821_dist_halo_stencil_i_m512_n512_v7x_i32_bf16_1_alg».proof.Proof.Data
import Idealize.ShloMosaic.Lib.Pipeline.Value

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The device's block as its staging buffer holds it is its array: the window is the whole array. -/
theorem xstg_eq (c : Dev nD) : xstg m c = m ((c : Thread nD τ).loc main_arg0) := by
  unfold xstg
  exact Memref.read_access_unit_zero (Elt F) main_arg0 (by funext a; exact Nat.zero_mul _) _ _

/-! ## Where the four rows sit -/

/-- The block's last row, as a one-row memref, sits at row 511 of the block; -/
theorem x511M_emb (l : Fin 512) :
    (x511M : Memref sig .tc .vmem S1x512 .f32).view.emb (ValueIdx.ix2 (0 : Fin 1) l) = ValueIdx.ix2 (511 : Fin 512) l :=
  Shape.idx_ext₂ rfl (by show 0 + 1 * l.val = l.val; omega)

/-- its first row at row 0; -/
theorem x0M_emb (l : Fin 512) :
    (x0M : Memref sig .tc .vmem S1x512 .f32).view.emb (ValueIdx.ix2 (0 : Fin 1) l) = ValueIdx.ix2 (0 : Fin 512) l :=
  Shape.idx_ext₂ rfl (by show 0 + 1 * l.val = l.val; omega)

/-- the halo's first row at row 0 of the halo buffer, its second row at row 1. -/
theorem h0M_emb (l : Fin 512) :
    (h0M : Memref sig .tc .vmem S1x512 .f32).view.emb (ValueIdx.ix2 (0 : Fin 1) l) = ValueIdx.ix2 (0 : Fin 2) l :=
  Shape.idx_ext₂ rfl (by show 0 + 1 * l.val = l.val; omega)

theorem h1M_emb (l : Fin 512) :
    (h1M : Memref sig .tc .vmem S1x512 .f32).view.emb (ValueIdx.ix2 (0 : Fin 1) l) = ValueIdx.ix2 (1 : Fin 2) l :=
  Shape.idx_ext₂ rfl (by show 0 + 1 * l.val = l.val; omega)

/-! ## What the halo is named to hold, row by row -/

/-- Row 0 of the halo's named contents is the last row of the block before; -/
theorem haloVal_row0 (c : Dev nD) (l : Fin 512) :
    haloVal m c (ValueIdx.ix2 (0 : Fin 2) l) = xstg m (lft c) (ValueIdx.ix2 (511 : Fin 512) l) := by
  unfold haloVal
  exact if_pos rfl

/-- row 1 the first row of the block after. -/
theorem haloVal_row1 (c : Dev nD) (l : Fin 512) :
    haloVal m c (ValueIdx.ix2 (1 : Fin 2) l) = xstg m (rgt c) (ValueIdx.ix2 (0 : Fin 512) l) := by
  unfold haloVal
  exact if_neg (show ¬ (1 : Fin 2).val = 0 by decide)

/-! ## Loads of the halo rows -/

/-- The load of the halo's first row reads the last row of the block before; -/
theorem halo0_apply (c : Dev nD) (l : Fin 512) :
    halo0 m c (ValueIdx.ix2 (0 : Fin 1) l) = xstg m (lft c) (ValueIdx.ix2 (511 : Fin 512) l) := by
  unfold halo0
  rw [View.readAt_apply, View.read_apply]
  refine (cast_eq _ _).trans ?_
  refine Eq.trans (congrArg (haloVal m c) ?_) (haloVal_row0 m c l)
  exact Shape.idx_ext₂ rfl (by show 0 + 1 * l.val = l.val; omega)

/-- the load of its second row the first row of the block after. -/
theorem halo1_apply (c : Dev nD) (l : Fin 512) :
    halo1 m c (ValueIdx.ix2 (0 : Fin 1) l) = xstg m (rgt c) (ValueIdx.ix2 (0 : Fin 512) l) := by
  unfold halo1
  rw [View.readAt_apply, View.read_apply]
  refine (cast_eq _ _).trans ?_
  refine Eq.trans (congrArg (haloVal m c) ?_) (haloVal_row1 m c l)
  exact Shape.idx_ext₂ rfl (by show 0 + 1 * l.val = l.val; omega)

/-! ## Landings -/

/-- The copy of device `c`'s last row lands as row 0 of the halo of the device after `c`: what that halo is named to
    hold there, the last row of the block before it, which is `c`'s. -/
theorem landR_eq (c : Dev nD) (fd : Buf (Elt F) ((h0M : Memref sig .tc .vmem S1x512 .f32).view.loc (rgt c : Thread nD τ))) :
    ∀ i ∈ (h0M : Memref sig .tc .vmem S1x512 .f32).view.set,
      (h0M : Memref sig .tc .vmem S1x512 .f32).view.write (Elt F) fd
        ((x511M : Memref sig .tc .vmem S1x512 .f32).view.read (Elt F) (xstg m c)) Finset.univ i = haloVal m (rgt c) i := by
  intro i hi
  obtain ⟨y, rfl⟩ := View.exists_emb_of_mem_set _ hi
  obtain ⟨a, l, rfl⟩ : ∃ (a : Fin 1) (l : Fin 512), y = ValueIdx.ix2 a l := ⟨y 0, y 1, ValueIdx.eq_ix2 y⟩
  obtain rfl : a = 0 := Subsingleton.elim _ _
  rw [View.write_emb_of_mem _ _ (Finset.mem_univ _), View.read_apply, x511M_emb, h0M_emb, haloVal_row0, lft_rgt]
  exact (cast_eq _ _).trans (cast_eq _ _)

/-- The copy of device `c`'s first row lands as row 1 of the halo of the device before `c`. -/
theorem landL_eq (c : Dev nD) (fd : Buf (Elt F) ((h1M : Memref sig .tc .vmem S1x512 .f32).view.loc (lft c : Thread nD τ))) :
    ∀ i ∈ (h1M : Memref sig .tc .vmem S1x512 .f32).view.set,
      (h1M : Memref sig .tc .vmem S1x512 .f32).view.write (Elt F) fd
        ((x0M : Memref sig .tc .vmem S1x512 .f32).view.read (Elt F) (xstg m c)) Finset.univ i = haloVal m (lft c) i := by
  intro i hi
  obtain ⟨y, rfl⟩ := View.exists_emb_of_mem_set _ hi
  obtain ⟨a, l, rfl⟩ : ∃ (a : Fin 1) (l : Fin 512), y = ValueIdx.ix2 a l := ⟨y 0, y 1, ValueIdx.eq_ix2 y⟩
  obtain rfl : a = 0 := Subsingleton.elim _ _
  rw [View.write_emb_of_mem _ _ (Finset.mem_univ _), View.read_apply, x0M_emb, h1M_emb, haloVal_row1, rgt_lft]
  exact (cast_eq _ _).trans (cast_eq _ _)

/-! ## The halo's two rows split it -/

theorem h0M_set : (h0M : Memref sig .tc .vmem S1x512 .f32).view.set = rH0.set := View.set_slice_whole _ _
theorem h1M_set : (h1M : Memref sig .tc .vmem S1x512 .f32).view.set = rH1.set := View.set_slice_whole _ _

/-- Every element of the halo buffer is in its first or its second row; -/
theorem halo_rows_cover :
    (h0M : Memref sig .tc .vmem S1x512 .f32).view.set ∪ (h1M : Memref sig .tc .vmem S1x512 .f32).view.set = Finset.univ := by
  rw [h0M_set, h1M_set]
  ext i
  simp only [Finset.mem_union, Finset.mem_univ, iff_true, Rect.mem_set_unit]
  have h0 : (i 0).val < 2 := (i 0).isLt
  have h1 : (i 1).val < 512 := (i 1).isLt
  by_cases h : (i 0).val = 0
  · exact Or.inl (Fin.forall_fin_two.mpr ⟨⟨Nat.zero_le _, by show (i 0).val < 0 + 1; omega⟩,
      ⟨Nat.zero_le _, by show (i 1).val < 0 + 512; omega⟩⟩)
  · exact Or.inr (Fin.forall_fin_two.mpr ⟨⟨by show 1 ≤ (i 0).val; omega, by show (i 0).val < 1 + 1; omega⟩,
      ⟨Nat.zero_le _, by show (i 1).val < 0 + 512; omega⟩⟩)

/-- and in one of them only. -/
theorem halo_rows_disjoint :
    Disjoint (h0M : Memref sig .tc .vmem S1x512 .f32).view.set (h1M : Memref sig .tc .vmem S1x512 .f32).view.set := by
  rw [h0M_set, h1M_set]
  exact Rect.unit_disjoint 0 (Or.inl (by decide))

/-! ## The result block's two row stores, read at an index -/

/-- A store of a row over the result block's last row leaves, at row 511, the stored row's entry; -/
theorem write_row511_at (f : (cc0_stg1_0 : Ref sig .tc).ty.Contents (Elt F)) (w : FVec F S1x512 .f32) (l : Fin 512) :
    ((oM : Memref sig .tc .vmem S512x512 .f32).access rX511 : View sig .tc _ _ _).write (Elt F) f w Finset.univ
      (ValueIdx.ix2 (511 : Fin 512) l) = w (ValueIdx.ix2 (0 : Fin 1) l) := by
  have e : ((oM : Memref sig .tc .vmem S512x512 .f32).access rX511 : View sig .tc _ _ _).emb (ValueIdx.ix2 (0 : Fin 1) l)
      = ValueIdx.ix2 (511 : Fin 512) l := Shape.idx_ext₂ rfl (by show 0 + 1 * l.val = l.val; omega)
  rw [← e, View.write_emb_of_mem _ _ (Finset.mem_univ _)]
  exact cast_eq _ _

/-- at every other row, what was there. -/
theorem write_row511_off (f : (cc0_stg1_0 : Ref sig .tc).ty.Contents (Elt F)) (w : FVec F S1x512 .f32) (r l : Fin 512)
    (h : r.val ≠ 511) :
    ((oM : Memref sig .tc .vmem S512x512 .f32).access rX511 : View sig .tc _ _ _).write (Elt F) f w Finset.univ
      (ValueIdx.ix2 r l) = f (ValueIdx.ix2 r l) :=
by
  refine View.write_of_not_mem (Val := Elt F) (v := ((oM : Memref sig .tc .vmem S512x512 .f32).access rX511 : View sig .tc _ _ _))
    f w Finset.univ ?_
  intro hm
  have hs : ((oM : Memref sig .tc .vmem S512x512 .f32).access rX511 : View sig .tc _ _ _).set = rX511.set :=
    View.set_slice_whole _ _
  rw [View.setOn_univ, hs, Rect.mem_set_unit] at hm
  have h1 : 511 ≤ r.val := (hm 0).1
  have h2 := r.isLt
  omega

/-- A store of a row over the result block's first row leaves, at row 0, the stored row's entry; -/
theorem write_row0_at (f : (cc0_stg1_0 : Ref sig .tc).ty.Contents (Elt F)) (w : FVec F S1x512 .f32) (l : Fin 512) :
    ((oM : Memref sig .tc .vmem S512x512 .f32).access rX0 : View sig .tc _ _ _).write (Elt F) f w Finset.univ
      (ValueIdx.ix2 (0 : Fin 512) l) = w (ValueIdx.ix2 (0 : Fin 1) l) := by
  have e : ((oM : Memref sig .tc .vmem S512x512 .f32).access rX0 : View sig .tc _ _ _).emb (ValueIdx.ix2 (0 : Fin 1) l)
      = ValueIdx.ix2 (0 : Fin 512) l := Shape.idx_ext₂ rfl (by show 0 + 1 * l.val = l.val; omega)
  rw [← e, View.write_emb_of_mem _ _ (Finset.mem_univ _)]
  exact cast_eq _ _

/-- at every other row, what was there. -/
theorem write_row0_off (f : (cc0_stg1_0 : Ref sig .tc).ty.Contents (Elt F)) (w : FVec F S1x512 .f32) (r l : Fin 512)
    (h : r.val ≠ 0) :
    ((oM : Memref sig .tc .vmem S512x512 .f32).access rX0 : View sig .tc _ _ _).write (Elt F) f w Finset.univ
      (ValueIdx.ix2 r l) = f (ValueIdx.ix2 r l) :=
by
  refine View.write_of_not_mem (Val := Elt F) (v := ((oM : Memref sig .tc .vmem S512x512 .f32).access rX0 : View sig .tc _ _ _))
    f w Finset.univ ?_
  intro hm
  have hs : ((oM : Memref sig .tc .vmem S512x512 .f32).access rX0 : View sig .tc _ _ _).set = rX0.set :=
    View.set_slice_whole _ _
  rw [View.setOn_univ, hs, Rect.mem_set_unit] at hm
  have h1 : r.val < 0 + 1 := (hm 0).2
  omega

/-- THE RESULT BLOCK READ ROW BY ROW: the corrected last row at row 511, the corrected first row at row 0, the
    whole-block store's value at every row between. -/
theorem outAt_last (c : Dev nD) (l : Fin 512) :
    outAt m c (ValueIdx.ix2 (511 : Fin 512) l) = outRow511 m c (ValueIdx.ix2 (0 : Fin 1) l) := by
  unfold outAt
  exact write_row511_at _ _ l

theorem outAt_first (c : Dev nD) (l : Fin 512) :
    outAt m c (ValueIdx.ix2 (0 : Fin 512) l) = outRow0 m c (ValueIdx.ix2 (0 : Fin 1) l) := by
  unfold outAt
  exact (write_row511_off _ _ 0 l (by decide)).trans (write_row0_at _ _ l)

theorem outAt_inner (c : Dev nD) (r l : Fin 512) (h0 : r.val ≠ 0) (h1 : r.val ≠ 511) :
    outAt m c (ValueIdx.ix2 r l) = outBase m c (ValueIdx.ix2 r l) := by
  unfold outAt
  exact (write_row511_off _ _ r l h1).trans (write_row0_off _ _ r l h0)

/-! ## Holding the halo buffer and the block by rows -/

theorem x0M_set : (x0M : Memref sig .tc .vmem S1x512 .f32).view.set = rX0.set := View.set_slice_whole _ _
theorem x511M_set : (x511M : Memref sig .tc .vmem S1x512 .f32).view.set = rX511.set := View.set_slice_whole _ _
theorem xM_set : (xM : Memref sig .tc .vmem S512x512 .f32).view.set = Finset.univ := View.set_whole _

/-- The block's first and last rows share no element. -/
theorem x_rows_disjoint :
    Disjoint (x0M : Memref sig .tc .vmem S1x512 .f32).view.set (x511M : Memref sig .tc .vmem S1x512 .f32).view.set := by
  rw [x0M_set, x511M_set]
  exact Rect.unit_disjoint 0 (Or.inl (by decide))

/-- The right half of the block outside its first and last rows. -/
def xRest (c : Dev nD) (f : Buf (Elt F) ((c : Thread nD τ).loc cc0_stg0_0)) : sProp 𝕄 :=
  ((c : Thread nD τ).loc cc0_stg0_0) ↦[(Finset.univ \ (x0M : Memref sig .tc .vmem S1x512 .f32).view.set)
    \ (x511M : Memref sig .tc .vmem S1x512 .f32).view.set]{fullShare.right} f

omit [FloatOps F] in
/-- The halo buffer held whole is its two rows held, -/
theorem scr_split (c : Dev nD) (f : Buf (Elt F) ((c : Thread nD τ).loc cc0_scratch0)) :
    (((c : Thread nD τ).loc cc0_scratch0) ↦{fullShare} f : sProp 𝕄)
      ⊢ iprop(((h0M : Memref sig .tc .vmem S1x512 .f32).view.loc (c : Thread nD τ) ↦[(h0M : Memref sig .tc .vmem S1x512 .f32).view.set]{fullShare} f)
        ∗ ((h1M : Memref sig .tc .vmem S1x512 .f32).view.loc (c : Thread nD τ) ↦[(h1M : Memref sig .tc .vmem S1x512 .f32).view.set]{fullShare} f)) := by
  refine (Entails.of_eq ?_).trans (pointsTo_union halo_rows_disjoint).1
  rw [halo_rows_cover]

omit [FloatOps F] in
/-- and the two rows held, at whatever each holds, are the buffer held whole at some contents. -/
theorem scr_join (c : Dev nD) (f g : Buf (Elt F) ((c : Thread nD τ).loc cc0_scratch0)) :
    iprop(((h0M : Memref sig .tc .vmem S1x512 .f32).view.loc (c : Thread nD τ) ↦[(h0M : Memref sig .tc .vmem S1x512 .f32).view.set]{fullShare} f)
        ∗ ((h1M : Memref sig .tc .vmem S1x512 .f32).view.loc (c : Thread nD τ) ↦[(h1M : Memref sig .tc .vmem S1x512 .f32).view.set]{fullShare} g))
      ⊢ (scrSome c : sProp 𝕄) := by
  refine (pointsTo_join halo_rows_disjoint).trans ?_
  rw [halo_rows_cover]
  unfold scrSome
  iintro H
  iexists _
  iexact H

omit [FloatOps F] in
/-- The block held whole is its left half whole, and the right half of its first row, of its last row and of the rest, -/
theorem x_split (c : Dev nD) (f : Buf (Elt F) ((c : Thread nD τ).loc cc0_stg0_0)) :
    (((c : Thread nD τ).loc cc0_stg0_0) ↦{fullShare} f : sProp 𝕄)
      ⊢ iprop(((xM : Memref sig .tc .vmem S512x512 .f32).view.loc (c : Thread nD τ) ↦[(xM : Memref sig .tc .vmem S512x512 .f32).view.set]{fullShare.left} f)
        ∗ ((x0M : Memref sig .tc .vmem S1x512 .f32).view.loc (c : Thread nD τ) ↦[(x0M : Memref sig .tc .vmem S1x512 .f32).view.set]{fullShare.right} f)
        ∗ ((x511M : Memref sig .tc .vmem S1x512 .f32).view.loc (c : Thread nD τ) ↦[(x511M : Memref sig .tc .vmem S1x512 .f32).view.set]{fullShare.right} f)
        ∗ xRest c f) := by
  have hsub : (x511M : Memref sig .tc .vmem S1x512 .f32).view.set ⊆ Finset.univ \ (x0M : Memref sig .tc .vmem S1x512 .f32).view.set :=
    Finset.subset_sdiff.mpr ⟨Finset.subset_univ _, x_rows_disjoint.symm⟩
  unfold xRest
  rw [xM_set]
  iintro H
  ihave H := (pointsTo_share (PosShare.mem_left_op_right fullShare)).1 $$ H
  icases H with ⟨HL, HR⟩
  ihave HR := (pointsTo_split_subset (Finset.subset_univ (x0M : Memref sig .tc .vmem S1x512 .f32).view.set)).1 $$ HR
  icases HR with ⟨H0, HR⟩
  ihave HR := (pointsTo_split_subset hsub).1 $$ HR
  icases HR with ⟨H511, HR⟩
  isplitl [HL]; · iexact HL
  isplitl [H0]; · iexact H0
  isplitl [H511]; · iexact H511
  iexact HR

omit [FloatOps F] in
/-- and back. -/
theorem x_join (c : Dev nD) (f : Buf (Elt F) ((c : Thread nD τ).loc cc0_stg0_0)) :
    iprop(((xM : Memref sig .tc .vmem S512x512 .f32).view.loc (c : Thread nD τ) ↦[(xM : Memref sig .tc .vmem S512x512 .f32).view.set]{fullShare.left} f)
        ∗ ((x0M : Memref sig .tc .vmem S1x512 .f32).view.loc (c : Thread nD τ) ↦[(x0M : Memref sig .tc .vmem S1x512 .f32).view.set]{fullShare.right} f)
        ∗ ((x511M : Memref sig .tc .vmem S1x512 .f32).view.loc (c : Thread nD τ) ↦[(x511M : Memref sig .tc .vmem S1x512 .f32).view.set]{fullShare.right} f)
        ∗ xRest c f)
      ⊢ (((c : Thread nD τ).loc cc0_stg0_0) ↦{fullShare} f : sProp 𝕄) := by
  have hsub : (x511M : Memref sig .tc .vmem S1x512 .f32).view.set ⊆ Finset.univ \ (x0M : Memref sig .tc .vmem S1x512 .f32).view.set :=
    Finset.subset_sdiff.mpr ⟨Finset.subset_univ _, x_rows_disjoint.symm⟩
  have s0 : (((c : Thread nD τ).loc cc0_stg0_0) ↦[Finset.univ]{fullShare.right} f : sProp 𝕄)
      ⊣⊢ iprop((((c : Thread nD τ).loc cc0_stg0_0) ↦[(x0M : Memref sig .tc .vmem S1x512 .f32).view.set]{fullShare.right} f)
        ∗ ((c : Thread nD τ).loc cc0_stg0_0) ↦[Finset.univ \ (x0M : Memref sig .tc .vmem S1x512 .f32).view.set]{fullShare.right} f) :=
    pointsTo_split_subset (Finset.subset_univ _)
  have s1 : (((c : Thread nD τ).loc cc0_stg0_0) ↦[Finset.univ \ (x0M : Memref sig .tc .vmem S1x512 .f32).view.set]{fullShare.right} f : sProp 𝕄)
      ⊣⊢ iprop((((c : Thread nD τ).loc cc0_stg0_0) ↦[(x511M : Memref sig .tc .vmem S1x512 .f32).view.set]{fullShare.right} f)
        ∗ ((c : Thread nD τ).loc cc0_stg0_0) ↦[(Finset.univ \ (x0M : Memref sig .tc .vmem S1x512 .f32).view.set)
          \ (x511M : Memref sig .tc .vmem S1x512 .f32).view.set]{fullShare.right} f) :=
    pointsTo_split_subset hsub
  unfold xRest
  rw [xM_set]
  iintro ⟨HL, H0, H511, HR⟩
  ihave HR := s1.2 $$ [H511 HR]
  · isplitl [H511] <;> iassumption
  ihave HR := s0.2 $$ [H0 HR]
  · isplitl [H0] <;> iassumption
  iapply (pointsTo_share (PosShare.mem_left_op_right fullShare)).2
  isplitl [HL] <;> iassumption

end Cert.KernelIdeal.Halo

end
-- ==== Proof.BodyPrep.lean ====
/-
  What the three forms of a device's body share: the resources it starts from and ends with, the schedule's tables at the
  cells a device touches (its own five, and the four of its neighbours that it pays), the evidence for each of its
  waits, and the two copies as single steps.

  A copy lends the right half of its source row and pays two duties at once: its own send cell's (the half comes back
  when the source has been read) and the neighbour's receive cell's (what lands is the neighbour's halo row holding this
  device's boundary row, whatever the row held before).
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.Landing
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m K c ∗ cred (T₀ c) ∗ levAts L lv ∗ scrSome c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- The output's staging buffer through its view. -/
theorem out_view (c : Dev nD) (f : Buf (Elt F) ((c : Thread nD τ).loc cc0_stg1_0)) :
    (((c : Thread nD τ).loc cc0_stg1_0) ↦{fullShare} f : sProp 𝕄)
      = ((oM : Memref sig .tc .vmem S512x512 .f32).view.loc (c : Thread nD τ) ↦[(oM : Memref sig .tc .vmem S512x512 .f32).view.set]{fullShare} f) := by
  rw [View.set_whole]

/-! ## The schedule's tables at the cells a device touches, payloads spelt as what they hold -/

section Pays
variable (c : Dev nD)
omit [FloatOps F] in
theorem pay_bar_lft : (haloRd (F := F) m).payload (barCell (lft c)) 0 true
    = iprop(∃ f, (h0M : Memref sig .tc .vmem S1x512 .f32).view.loc (c : Thread nD τ) ↦[(h0M : Memref sig .tc .vmem S1x512 .f32).view.set]{fullShare} f) := by
  rw [payload_bar_true]; unfold barPayR; rw [rgt_lft]
omit [FloatOps F] in
theorem pay_bar_rgt : (haloRd (F := F) m).payload (barCell (rgt c)) 0 false
    = iprop(∃ f, (h1M : Memref sig .tc .vmem S1x512 .f32).view.loc (c : Thread nD τ) ↦[(h1M : Memref sig .tc .vmem S1x512 .f32).view.set]{fullShare} f) := by
  rw [payload_bar_false]; unfold barPayL; rw [lft_rgt]
omit [FloatOps F] in
theorem pay_snd0 (d : Bool) : (haloRd (F := F) m).payload (snd0Cell c) 0 d
    = ((x511M : Memref sig .tc .vmem S1x512 .f32).view.loc (c : Thread nD τ) ↦[(x511M : Memref sig .tc .vmem S1x512 .f32).view.set]{fullShare.right} xstg m c) := payload_snd0 m c d
omit [FloatOps F] in
theorem pay_snd1 (d : Bool) : (haloRd (F := F) m).payload (snd1Cell c) 0 d
    = ((x0M : Memref sig .tc .vmem S1x512 .f32).view.loc (c : Thread nD τ) ↦[(x0M : Memref sig .tc .vmem S1x512 .f32).view.set]{fullShare.right} xstg m c) := payload_snd1 m c d
omit [FloatOps F] in
theorem pay_rcv0 (d : Bool) : (haloRd (F := F) m).payload (rcv0Cell c) 0 d
    = ((h0M : Memref sig .tc .vmem S1x512 .f32).view.loc (c : Thread nD τ) ↦[(h0M : Memref sig .tc .vmem S1x512 .f32).view.set]{fullShare} haloVal m c) := payload_rcv0 m c d
omit [FloatOps F] in
theorem pay_rcv1 (d : Bool) : (haloRd (F := F) m).payload (rcv1Cell c) 0 d
    = ((h1M : Memref sig .tc .vmem S1x512 .f32).view.loc (c : Thread nD τ) ↦[(h1M : Memref sig .tc .vmem S1x512 .f32).view.set]{fullShare} haloVal m c) := payload_rcv1 m c d
end Pays

section Members
variable (c : Dev nD)
omit [FloatOps F] in
theorem mem_bar_true (h : hasR c) : true ∈ (haloRd (F := F) m).duties (barCell c) 0 := by
  rw [duties_zero, dutiesOf_bar, if_pos h]; exact Finset.mem_union_right _ (Finset.mem_singleton_self _)
omit [FloatOps F] in
theorem mem_bar_false (h : hasL c) : false ∈ (haloRd (F := F) m).duties (barCell c) 0 := by
  rw [duties_zero, dutiesOf_bar, if_pos h]; exact Finset.mem_union_left _ (Finset.mem_singleton_self _)
omit [FloatOps F] in
theorem mem_bar_lft (hl : hasL c) : true ∈ (haloRd (F := F) m).duties (barCell (lft c)) 0 := mem_bar_true m (lft c) (hasR_lft hl)
omit [FloatOps F] in
theorem mem_bar_rgt (hr : hasR c) : false ∈ (haloRd (F := F) m).duties (barCell (rgt c)) 0 := mem_bar_false m (rgt c) (hasL_rgt hr)
omit [FloatOps F] in
theorem mem_rcv0_rgt (hr : hasR c) : false ∈ (haloRd (F := F) m).duties (rcv0Cell (rgt c)) 0 := by
  rw [duties_rcv0 m (rgt c) (hasL_rgt hr)]; exact Finset.mem_singleton_self _
omit [FloatOps F] in
theorem mem_rcv1_lft (hl : hasL c) : false ∈ (haloRd (F := F) m).duties (rcv1Cell (lft c)) 0 := by
  rw [duties_rcv1 m (lft c) (hasR_lft hl)]; exact Finset.mem_singleton_self _
omit [FloatOps F] in
theorem mem_snd0 (hr : hasR c) : false ∈ (haloRd (F := F) m).duties (snd0Cell c) 0 := by
  rw [duties_snd0 m c hr]; exact Finset.mem_singleton_self _
omit [FloatOps F] in
theorem mem_snd1 (hl : hasL c) : false ∈ (haloRd (F := F) m).duties (snd1Cell c) 0 := by
  rw [duties_snd1 m c hl]; exact Finset.mem_singleton_self _
end Members

omit [FloatOps F] in
theorem bar_sem_eq : (SemArray.scalar (sig.barrier 0 rfl) : Sems sig S_).sem = barS := rfl

attribute [sl_rounds] pay_bar_lft pay_bar_rgt amount_bar amount_snd0 amount_snd1 amount_rcv0 amount_rcv1
  pay_snd0 pay_snd1 pay_rcv0 pay_rcv1 mem_bar_lft mem_bar_rgt mem_rcv0_rgt mem_rcv1_lft mem_snd0 mem_snd1
  duties_bar_both duties_bar_first duties_bar_last duties_snd0 duties_snd1 duties_rcv0 duties_rcv1
  expect_bar_both expect_bar_first expect_bar_last expect_snd0 expect_snd1 expect_rcv0 expect_rcv1
attribute [sl_canon] dev1_eq dev2_eq dev3_eq dev4_eq bar_sem_eq

/-! ## The body's later guards -/

/-! The body's four later guards, as it computes them from the device's word: "has a device before", its negation,
    "has a device after", its negation. -/
theorem g51 (c : Dev nD) : (Scalar.cmpi .ne (Scalar.extui (Scalar.cmpi .sgt (Scalar.remsi (Scalar.divsi (Dev.word c) 1#32) 32#32) 0#32)) 0#32 = 1#1) = hasL c := by
  revert c; decide +kernel
theorem g54 (c : Dev nD) : (Scalar.cmpi .ne (Scalar.extui (Scalar.xori (Scalar.cmpi .sgt (Scalar.remsi (Scalar.divsi (Dev.word c) 1#32) 32#32) 0#32) 1#1)) 0#32 = 1#1) = ¬ hasL c := by
  revert c; decide +kernel
theorem g56 (c : Dev nD) : (Scalar.cmpi .ne (Scalar.extui (Scalar.cmpi .slt (Scalar.remsi (Scalar.divsi (Dev.word c) 1#32) 32#32) 31#32)) 0#32 = 1#1) = hasR c := by
  revert c; decide +kernel
theorem g59 (c : Dev nD) : (Scalar.cmpi .ne (Scalar.extui (Scalar.xori (Scalar.cmpi .slt (Scalar.remsi (Scalar.divsi (Dev.word c) 1#32) 32#32) 31#32) 1#1)) 0#32 = 1#1) = ¬ hasR c := by
  revert c; decide +kernel

/-! ## Which cells a sum of tallies charges; a wait below them -/

omit [FloatOps F] in
theorem pos1 {g₁ g : GSem nD τ sig} {n₁ : ℕ} {u : Unit}
    (h : 0 < (tallyAt g₁ () n₁ : CellTallies nD τ sig Unit) g u) : g = g₁ := by
  rw [tallyAt_apply] at h
  by_contra hn
  rw [if_neg (fun h' => hn h'.1)] at h
  exact Nat.lt_irrefl 0 h
omit [FloatOps F] in
theorem pos2 {g₁ g₂ g : GSem nD τ sig} {n₁ n₂ : ℕ} {u : Unit}
    (h : 0 < (tallyAt g₁ () n₁ + tallyAt g₂ () n₂ : CellTallies nD τ sig Unit) g u) : g = g₁ ∨ g = g₂ := by
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h
omit [FloatOps F] in
theorem pos3 {g₁ g₂ g₃ g : GSem nD τ sig} {n₁ n₂ n₃ : ℕ} {u : Unit}
    (h : 0 < (tallyAt g₁ () n₁ + tallyAt g₂ () n₂ + tallyAt g₃ () n₃ : CellTallies nD τ sig Unit) g u) : g = g₁ ∨ g = g₂ ∨ g = g₃ := by
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem bar_lt_rcv (c : Dev nD) : c.val + 1 < 100 := by have := c.isLt; simp only [nD] at this; omega

omit [FloatOps F] in
/-- A middle device's first barrier wait: it still owes both landings and the barrier cell after it. -/
theorem mayWait_bar3 (c : Dev nD) (hr : hasR c) :
    (levAts L lv : sProp 𝕄) ⊢ MayWait (c : Thread nD τ) (.reg barS) ()
      (tallyAt (rcv0Cell (rgt c)) () N + tallyAt (rcv1Cell (lft c)) () N + tallyAt (barCell (rgt c)) () 1) :=
  mayWait_cut c (.reg barS) (c.val + 1) (le_of_eq (lv_bar c)) _ fun g u hg => by
    rcases pos3 hg with rfl | rfl | rfl
    · exact ⟨rfl, by rw [lv_rcv0]; exact bar_lt_rcv c⟩
    · exact ⟨rfl, by rw [lv_rcv1]; exact bar_lt_rcv c⟩
    · exact ⟨rfl, by rw [lv_bar, rgt_val hr]; omega⟩
omit [FloatOps F] in
/-- A barrier wait owing both landings; the landing after only; the landing before only. -/
theorem mayWait_bar2 (c : Dev nD) :
    (levAts L lv : sProp 𝕄) ⊢ MayWait (c : Thread nD τ) (.reg barS) () (tallyAt (rcv0Cell (rgt c)) () N + tallyAt (rcv1Cell (lft c)) () N) :=
  mayWait_cut c (.reg barS) (c.val + 1) (le_of_eq (lv_bar c)) _ fun g u hg => by
    rcases pos2 hg with rfl | rfl
    · exact ⟨rfl, by rw [lv_rcv0]; exact bar_lt_rcv c⟩
    · exact ⟨rfl, by rw [lv_rcv1]; exact bar_lt_rcv c⟩
omit [FloatOps F] in
theorem mayWait_barR (c : Dev nD) :
    (levAts L lv : sProp 𝕄) ⊢ MayWait (c : Thread nD τ) (.reg barS) () (tallyAt (rcv0Cell (rgt c)) () N) :=
  mayWait_cut c (.reg barS) (c.val + 1) (le_of_eq (lv_bar c)) _ fun g u hg => by
    rw [pos1 hg]; exact ⟨rfl, by rw [lv_rcv0]; exact bar_lt_rcv c⟩
omit [FloatOps F] in
theorem mayWait_barL (c : Dev nD) :
    (levAts L lv : sProp 𝕄) ⊢ MayWait (c : Thread nD τ) (.reg barS) () (tallyAt (rcv1Cell (lft c)) () N) :=
  mayWait_cut c (.reg barS) (c.val + 1) (le_of_eq (lv_bar c)) _ fun g u hg => by
    rw [pos1 hg]; exact ⟨rfl, by rw [lv_rcv1]; exact bar_lt_rcv c⟩

/-! ## The two copies -/

variable (K : Dev nD × Fin 5 → ℕ)

/-- The copy of the last row to the device after, addressed to `n = rgt c` (substituted, not rewritten). -/
theorem wp_sendR (c n : Dev nD) (hn : n = rgt c) (hr : hasR c)
    {hsc : (h0M : Memref sig (Dev.tc n : Thread nD τ).2.kind .vmem S1x512 .f32).view.ref.isScScratch = false}
    {hsrc : (x511M : Memref sig .tc .vmem S1x512 .f32).view.WordExact} {hdst : (h0M : Memref sig .tc .vmem S1x512 .f32).view.WordExact}
    {hsem : DmaTarget.Typed .vmem (.dma rcv0S) (.remote (Dev.tc n : Thread nD τ) (h0M : Memref sig .tc .vmem S1x512 .f32) (.dma snd0S) hsc)}
    {α : Type} {Q : α → sProp 𝕄} {k : PUnit → Prog (TpuEff nD τ sig (Elt F) Λ₀ .tc) α}
    (fn : Buf (Elt F) ((h0M : Memref sig .tc .vmem S1x512 .f32).view.loc (rgt c : Thread nD τ)))
    (O₁ O : CellTallies nD τ sig Unit) (hO : O₁ = O + tallyAt (rcv0Cell (rgt c)) () N) (W : Waits sig Unit) :
    iprop(cellInv ER (haloRd m) (K (c, 1)) (snd0Cell c) ∗ cellInv ER (haloRd m) (K (rgt c, 3)) (rcv0Cell (rgt c))
        ∗ ((x511M : Memref sig .tc .vmem S1x512 .f32).view.loc (c : Thread nD τ) ↦[(x511M : Memref sig .tc .vmem S1x512 .f32).view.set]{fullShare.right} xstg m c)
        ∗ ((h0M : Memref sig .tc .vmem S1x512 .f32).view.loc (rgt c : Thread nD τ) ↦[(h0M : Memref sig .tc .vmem S1x512 .f32).view.set]{fullShare} fn)
        ∗ owes (c : Thread nD τ) O₁ W
        ∗ dutyTok ER (snd0Cell c) 0 false ∗ reached ER (snd0Cell c) 0
        ∗ dutyTok ER (rcv0Cell (rgt c)) 0 false ∗ reached ER (rcv0Cell (rgt c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x511M (.remote (Dev.tc n : Thread nD τ) h0M (.dma snd0S) hsc) (.dma rcv0S) hsrc hdst hsem) k) Q) := by
  subst hn
  exact Rounds.wp_send_pointsTo 𝒱₀ ER (haloRd m) (c : Thread nD τ) none (κ₁ := K (c, 1)) (κ₂ := K (rgt c, 3))
    (r₁ := 0) (r₂ := 0) (d₁ := false) (d₂ := false) (fd := fn)
    (mem_snd0 m c hr) (mem_rcv0_rgt m c hr)
    () () N rfl (amount_snd0 m c false) (amount_rcv0 m (rgt c) false) O hO (W := W)
    (by rw [pay_snd0])
    (by rw [pay_rcv0]; exact Entails.of_eq (pointsTo_congr (landR_eq m c fn)))

/-- The copy of the first row to the device before, addressed to `n = lft c`. -/
theorem wp_sendL (c n : Dev nD) (hn : n = lft c) (hl : hasL c)
    {hsc : (h1M : Memref sig (Dev.tc n : Thread nD τ).2.kind .vmem S1x512 .f32).view.ref.isScScratch = false}
    {hsrc : (x0M : Memref sig .tc .vmem S1x512 .f32).view.WordExact} {hdst : (h1M : Memref sig .tc .vmem S1x512 .f32).view.WordExact}
    {hsem : DmaTarget.Typed .vmem (.dma rcv1S) (.remote (Dev.tc n : Thread nD τ) (h1M : Memref sig .tc .vmem S1x512 .f32) (.dma snd1S) hsc)}
    {α : Type} {Q : α → sProp 𝕄} {k : PUnit → Prog (TpuEff nD τ sig (Elt F) Λ₀ .tc) α}
    (fn : Buf (Elt F) ((h1M : Memref sig .tc .vmem S1x512 .f32).view.loc (lft c : Thread nD τ)))
    (O₁ O : CellTallies nD τ sig Unit) (hO : O₁ = O + tallyAt (rcv1Cell (lft c)) () N) (W : Waits sig Unit) :
    iprop(cellInv ER (haloRd m) (K (c, 2)) (snd1Cell c) ∗ cellInv ER (haloRd m) (K (lft c, 4)) (rcv1Cell (lft c))
        ∗ ((x0M : Memref sig .tc .vmem S1x512 .f32).view.loc (c : Thread nD τ) ↦[(x0M : Memref sig .tc .vmem S1x512 .f32).view.set]{fullShare.right} xstg m c)
        ∗ ((h1M : Memref sig .tc .vmem S1x512 .f32).view.loc (lft c : Thread nD τ) ↦[(h1M : Memref sig .tc .vmem S1x512 .f32).view.set]{fullShare} fn)
        ∗ owes (c : Thread nD τ) O₁ W
        ∗ dutyTok ER (snd1Cell c) 0 false ∗ reached ER (snd1Cell c) 0
        ∗ dutyTok ER (rcv1Cell (lft c)) 0 false ∗ reached ER (rcv1Cell (lft c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x0M (.remote (Dev.tc n : Thread nD τ) h1M (.dma snd1S) hsc) (.dma rcv1S) hsrc hdst hsem) k) Q) := by
  subst hn
  exact Rounds.wp_send_pointsTo 𝒱₀ ER (haloRd m) (c : Thread nD τ) none (κ₁ := K (c, 2)) (κ₂ := K (lft c, 4))
    (r₁ := 0) (r₂ := 0) (d₁ := false) (d₂ := false) (fd := fn)
    (mem_snd1 m c hl) (mem_rcv1_lft m c hl)
    () () N rfl (amount_snd1 m c false) (amount_rcv1 m (lft c) false) O hO (W := W)
    (by rw [pay_snd1])
    (by rw [pay_rcv1]; exact Entails.of_eq (pointsTo_congr (landL_eq m c fn)))

end Cert.KernelIdeal.Halo

end
-- ==== Proof.OutFinal.lean ====
/-
  What the body's stores leave in the output staging buffer. The body stores the stencil of its own block over the whole
  buffer, then its first row again, then its last row again; the buffer after the three stores, written over whatever it
  held before, is the result block as it is named: the first store covers every entry, so nothing of the earlier contents
  is left, and the two row stores are the named block's two outer writes. Three cases by the device's place on the
  line, which decides what the two row stores write. The block the body loads whole is the block the staging buffer
  holds.
-/
import proofs.«900820_g7700000000000821_dist_halo_stencil_i_m512_n512_v7x_i32_bf16_1_alg».proof.Proof.Data
import Idealize.ShloMosaic.Lib.Writes

noncomputable section

namespace Cert.KernelIdeal.Halo

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-- The offsets of a whole-buffer access are zero. -/
theorem off_zero : (![0, 0] : Fin 2 → Nat) = fun _ => 0 := by
  funext a
  match a with
  | ⟨0, _⟩ => rfl
  | ⟨1, _⟩ => rfl

/-- The load of the whole input staging buffer reads the block it holds. -/
theorem xload_eq (c : Dev nD) : ((xM : Memref sig .tc .vmem S512x512 .f32).view.readAt (Elt F) (Rect.unit (s := S512x512) ![0, 0] S512x512.size inb_S512x512_S512x512_0_0).toLoadRect (xstg m c)) = xstg m c :=
  Memref.readAt_unit_zero (Elt F) cc0_stg0_0 off_zero _ _

/-- The whole-buffer store over any earlier contents leaves its payload. -/
theorem whole_store (c : Dev nD) (g1 : Buf (Elt F) ((c : Thread nD τ).loc cc0_stg1_0)) :
    ((oM : Memref sig .tc .vmem S512x512 .f32).view.slice (Rect.unit (s := S512x512) ![0, 0] S512x512.size inb_S512x512_S512x512_0_0)).write (Elt F) g1
        (k0_pay1 (k0_pay7 (xstg m c)) (k0_pay8 (xstg m c)) k0_pay9) Finset.univ
      = k0_pay1 (k0_pay7 (xstg m c)) (k0_pay8 (xstg m c)) k0_pay9 :=
  Memref.write_access_unit_zero_univ (Elt F) cc0_stg1_0 off_zero _ g1 _

/-- A device with a neighbour on each side: both row stores take in a received row. -/
theorem out_mid (c : Dev nD) (hl : hasL c) (hr : hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay4 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![1, 0] S1x512.size inb_S2x512_S1x512_1_0).toLoadRect (haloVal m c))⟩,
       ⟨Rect.unit (s := S512x512) ![0, 0] S1x512.size inb_S512x512_S1x512_0_0, k0_pay2 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![0, 0] S1x512.size inb_S2x512_S1x512_0_0).toLoadRect (haloVal m c))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_pos hl, if_pos hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

/-- The first device on the line: its first row is copied, its last row takes in the received row. -/
theorem out_first (c : Dev nD) (hl : ¬ hasL c) (hr : hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay4 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![1, 0] S1x512.size inb_S2x512_S1x512_1_0).toLoadRect (haloVal m c))⟩,
       ⟨Rect.unit (s := S512x512) ![0, 0] S1x512.size inb_S512x512_S1x512_0_0, k0_pay3 (k0_pay6 ((xM : Memref sig .tc .vmem S512x512 .f32).view.readAt (Elt F) (Rect.unit (s := S512x512) ![0, 0] S512x512.size inb_S512x512_S512x512_0_0).toLoadRect (xstg m c)))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_neg hl, if_pos hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

/-- The last device on the line: its first row takes in the received row, its last row is copied. -/
theorem out_last (c : Dev nD) (hl : hasL c) (hr : ¬ hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay5 (k0_pay6 ((xM : Memref sig .tc .vmem S512x512 .f32).view.readAt (Elt F) (Rect.unit (s := S512x512) ![0, 0] S512x512.size inb_S512x512_S512x512_0_0).toLoadRect (xstg m c)))⟩,
       ⟨Rect.unit (s := S512x512) ![0, 0] S1x512.size inb_S512x512_S1x512_0_0, k0_pay2 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![0, 0] S1x512.size inb_S2x512_S1x512_0_0).toLoadRect (haloVal m c))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_pos hl, if_neg hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

end Cert.KernelIdeal.Halo

end
-- ==== Proof.BodyFirst.lean ====
/-
  The body of the first device of the line, which has a device after it and none before. It signals the device after
  (giving up its second halo row) and waits for its barrier round's one unit, which brings that device's first halo row:
  the destination of its one copy, of the block's last row. The block is read whole while the copy flies and its stencil
  stored; the result's first row is the block's own first row; its last row is corrected with the halo's second row once
  the neighbour's row has landed and the lent row is back. Two of the four own cells have consumed their one round, the
  other two never had one; all four are closed, and the halo and the block are whole again.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.BodyPrep
import proofs.«900820_g7700000000000821_dist_halo_stencil_i_m512_n512_v7x_i32_bf16_1_alg».proof.Proof.OutFinal
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

/-- The first device never gives up its first halo row nor lends its block's first row: both are kept out of the way
    while the body runs, and come back unchanged. -/
def keptHalo0 (c : Dev nD) (f : Buf (Elt F) ((h0M : Memref sig .tc .vmem S1x512 .f32).view.loc (c : Thread nD τ))) : sProp 𝕄 :=
  (h0M : Memref sig .tc .vmem S1x512 .f32).view.loc (c : Thread nD τ) ↦[(h0M : Memref sig .tc .vmem S1x512 .f32).view.set]{fullShare} f
def keptX0 (c : Dev nD) (f : Buf (Elt F) ((x0M : Memref sig .tc .vmem S1x512 .f32).view.loc (c : Thread nD τ))) : sProp 𝕄 :=
  (x0M : Memref sig .tc .vmem S1x512 .f32).view.loc (c : Thread nD τ) ↦[(x0M : Memref sig .tc .vmem S1x512 .f32).view.set]{fullShare.right} f
omit [FloatOps F] in
theorem keptHalo0_eq (c : Dev nD) (f : Buf (Elt F) ((h0M : Memref sig .tc .vmem S1x512 .f32).view.loc (c : Thread nD τ))) :
    ((h0M : Memref sig .tc .vmem S1x512 .f32).view.loc (c : Thread nD τ) ↦[(h0M : Memref sig .tc .vmem S1x512 .f32).view.set]{fullShare} f : sProp 𝕄) = keptHalo0 c f := rfl
omit [FloatOps F] in
theorem keptX0_eq (c : Dev nD) (f : Buf (Elt F) ((x0M : Memref sig .tc .vmem S1x512 .f32).view.loc (c : Thread nD τ))) :
    ((x0M : Memref sig .tc .vmem S1x512 .f32).view.loc (c : Thread nD τ) ↦[(x0M : Memref sig .tc .vmem S1x512 .f32).view.set]{fullShare.right} f : sProp 𝕄) = keptX0 c f := rfl

omit [FloatOps F] in
/-- The barrier round of the first device is the one unit of the device after it: that device's first halo row. -/
theorem bar_first (c : Dev nD) (hl : ¬ hasL c) (hr : hasR c) :
    bigSep ((haloRd (F := F) m).duties (barCell c) 0 \ ∅) (fun d => (haloRd (F := F) m).payload (barCell c) 0 d) = barPayR c := by
  rw [Finset.sdiff_empty, duties_bar_first m c hl hr, bigSep_singleton, payload_bar_true]

set_option maxHeartbeats 1600000 in
/-- The body of the first device. -/
theorem sound_first (K : Dev nD × Fin 5 → ℕ) (c : Dev nD) (hl : ¬ hasL c) (hr : hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : ¬ k0_cond1 c = 1#1 := fun h => hl ((cond1_eq c).mp h)
  have h2 : k0_cond2 c = 1#1 := (cond2_eq c).mpr hr
  have h3 : k0_cond3 c = 1#1 := (cond3_eq c).mpr hr
  have h4 : ¬ k0_cond4 c = 1#1 := fun h => hl ((cond4_eq c).mp h)
  have n51 := fun h => hl ((g51 c).mp h)
  have e54 := (g54 c).mpr hl
  have e56 := (g56 c).mpr hr
  have n59 := fun h => (g59 c).mp h hr
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_neg hl, if_neg hl, if_neg hl, if_neg hl, if_pos hr, if_pos hr, if_pos hr, if_pos hr, zero_add, add_zero, add_zero, add_zero]
  -- the credit, cell by cell; the halo by rows; the block as a left half and the right half's two boundary rows
  ihave Hc := (cred_add _ _).1 $$ Hc
  icases Hc with ⟨HcR1, HcB⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  ihave Hh0 := (Entails.of_eq (keptHalo0_eq c f0)) $$ Hh0
  ihave Hx0 := (Entails.of_eq (keptX0_eq c (xstg m c))) $$ Hx0
  sl_unfold [cc0_body]
  -- the signal to the device after, which takes the second halo row
  sl_exec (disch := first | sl_exact h1 | sl_exact h2 | sl_exact h3 | sl_exact h4 | sl_exact n51 | sl_exact e54 | sl_exact e56 | sl_exact n59)
  -- the barrier wait: the round's one unit
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv0Cell (rgt c)) () N) (R := 0) (m := 0) (T := ∅)
      (by rw [expect_bar_first m c hl hr]; rfl)) $$ [HcB HO HatB]
  · isplitr; · iexact HIbar
    isplitl [HcB]; · iexact HcB
    isplitl [HO]; · iexact HO
    isplitr; · iapply (mayWait_barR c); iexact Hlev
    iexact HatB
  iintro ⟨HO, HatB, #HrB1, Hpay⟩
  -- the row of the device after is in hand: the destination of the copy
  ihave Hp := (Entails.of_eq (bar_first m c hl hr)) $$ Hpay
  unfold barPayR
  icases Hp with ⟨%fr, HR0⟩
  sl_exec (disch := first | sl_exact h1 | sl_exact h2 | sl_exact h3 | sl_exact h4 | sl_exact n51 | sl_exact e54 | sl_exact e56 | sl_exact n59)
  -- the copy of the last row to the device after
  iapply (wp_sendR m K c _ (dev3_eq c h3) hr fr _ 0 (zero_add _).symm _) $$ [Hx511 HR0 HO HtS0 HtR0R]
  · isplitr; · iexact HIs0
    isplitr; · iexact HIr0R
    isplitl [Hx511]; · iexact Hx511
    isplitl [HR0]; · iexact HR0
    isplitl [HO]; · iexact HO
    isplitl [HtS0]; · iexact HtS0
    isplitr; · iexact HrS0
    isplitl [HtR0R]; · iexact HtR0R
    iexact HrR0R
  iintro ⟨HcS0, HO⟩
  -- the block, the stencil, the first row as it is, the landing and the corrected last row
  sl_exec (disch := first | sl_exact h1 | sl_exact h2 | sl_exact h3 | sl_exact h4 | sl_exact n51 | sl_exact e54 | sl_exact e56 | sl_exact n59)
  -- two cells have consumed their one round, two never had one: close the four
  imod (Rounds.cell_close ER (haloRd m) (Set.mem_univ (K (c, 1))) (fun h => h) (R := 1) (duties_later m (snd0Cell c))) $$ [HatS0] with HzS0
  · isplitr; · iexact HIs0
    iexact HatS0
  imod (Rounds.cell_close ER (haloRd m) (Set.mem_univ (K (c, 2))) (fun h => h) (R := 0) (fun r _ => duties_snd1_none m c hl r)) $$ [HatS1] with HzS1
  · isplitr; · iexact HIs1
    iexact HatS1
  imod (Rounds.cell_close ER (haloRd m) (Set.mem_univ (K (c, 3))) (fun h => h) (R := 0) (fun r _ => duties_rcv0_none m c hl r)) $$ [HatR0] with HzR0
  · isplitr; · iexact HIr0
    iexact HatR0
  imod (Rounds.cell_close ER (haloRd m) (Set.mem_univ (K (c, 4))) (fun h => h) (R := 1) (duties_later m (rcv1Cell c))) $$ [HatR1] with HzR1
  · isplitr; · iexact HIr1
    iexact HatR1
  -- the halo whole again; the block whole again, at the full share
  ihave Hh0 := (Entails.of_eq (keptHalo0_eq c f0).symm) $$ Hh0
  ihave Hx0 := (Entails.of_eq (keptX0_eq c (xstg m c)).symm) $$ Hx0
  ihave Hscr := (scr_join c f0 (haloVal m c)) $$ [Hh0 HatR1_pay1]
  · isplitl [Hh0] <;> iassumption
  ihave Hxw := (x_join c (xstg m c)) $$ [Hx Hx0 HatS0_pay1 Hxr]
  · isplitl [Hx]; · iexact Hx
    isplitl [Hx0]; · iexact Hx0
    isplitl [HatS0_pay1]; · iexact HatS0_pay1
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_first m c hl hr g1

end Cert.KernelIdeal.Halo

end
-- ==== Proof.BodyMid.lean ====
/-
  The body of a device with both neighbours. It signals the device before (giving up its first halo row), waits for one
  of its barrier round's two units, signals the device after (giving up its second halo row) and waits for the rest:
  only then does it hold both neighbours' rows, the destinations of its two copies. The copies lend the right half of
  the block's last and first rows; the block is read whole on the left half while they fly; the stencil of the block
  is stored; then, side by side, the landing of the neighbour's row and the return of the lent row are awaited and the
  result's first and last rows are corrected with the halo. At the end the four own cells have consumed their one round
  and are closed, and the halo and the block are whole again.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.BodyPrep
import proofs.«900820_g7700000000000821_dist_halo_stencil_i_m512_n512_v7x_i32_bf16_1_alg».proof.Proof.OutFinal
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

omit [FloatOps F] in
/-- The barrier round of a device with both neighbours, taken in two parts — whatever the first wait returned, and the
    rest — is both neighbours' halo rows. -/
theorem bar_both (c : Dev nD) (hl : hasL c) (hr : hasR c) (S : Finset Bool) (hS : S ⊆ (haloRd (F := F) m).duties (barCell c) 0) :
    iprop(bigSep (S \ ∅) (fun d => (haloRd (F := F) m).payload (barCell c) 0 d)
        ∗ bigSep ((haloRd (F := F) m).duties (barCell c) 0 \ S) (fun d => (haloRd (F := F) m).payload (barCell c) 0 d))
      = iprop(barPayL c ∗ barPayR c) := by
  have e := bigSep_sdiff_split (Φ := fun d => (haloRd (F := F) m).payload (barCell c) 0 d) hS
  have e2 : bigSep ((haloRd (F := F) m).duties (barCell c) 0) (fun d => (haloRd (F := F) m).payload (barCell c) 0 d) = iprop(barPayL c ∗ barPayR c) := by
    rw [duties_bar_both m c hl hr, bigSep_univ_eq_bigSepL [false, true] (by decide) (by decide), bigSepL_cons_cons, bigSepL_singleton,
      payload_bar_false, payload_bar_true]
    rfl
  rw [Finset.sdiff_empty]
  exact e.symm.trans e2

set_option maxHeartbeats 1600000 in
/-- The body of a device with both neighbours. -/
theorem sound_mid (K : Dev nD × Fin 5 → ℕ) (c : Dev nD) (hl : hasL c) (hr : hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : k0_cond1 c = 1#1 := (cond1_eq c).mpr hl
  have h2 : k0_cond2 c = 1#1 := (cond2_eq c).mpr hr
  have h3 : k0_cond3 c = 1#1 := (cond3_eq c).mpr hr
  have h4 : k0_cond4 c = 1#1 := (cond4_eq c).mpr hl
  have e51 := (g51 c).mpr hl
  have n54 := fun h => (g54 c).mp h hl
  have e56 := (g56 c).mpr hr
  have n59 := fun h => (g59 c).mp h hr
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_pos hl, if_pos hl, if_pos hl, if_pos hl, if_pos hr, if_pos hr, if_pos hr, if_pos hr]
  -- the credit, cell by cell; the halo by rows; the block as a left half and the right half's two boundary rows
  ihave Hc := (cred_add _ _).1 $$ Hc
  icases Hc with ⟨Hc, HcB2⟩
  ihave Hc := (cred_add _ _).1 $$ Hc
  icases Hc with ⟨Hc, HcB1⟩
  ihave Hc := (cred_add _ _).1 $$ Hc
  icases Hc with ⟨HcR0, HcR1⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  sl_unfold [cc0_body]
  -- the signal to the device before, which takes the first halo row with it
  sl_exec (disch := first | sl_exact h1 | sl_exact h2 | sl_exact h3 | sl_exact h4 | sl_exact e51 | sl_exact n54 | sl_exact e56 | sl_exact n59)
  -- the first barrier wait: one of the round's two units, from whichever neighbour
  iapply (Rounds.wp_wait 𝒱₀ ER (haloRd m) (c : Thread nD τ) none (κ := K (c, 0))
      (wpE_semWait_eq 𝒱₀ (c : Thread nD τ) none Set.univ) (Set.mem_univ _) {(SemLoc.reg barS, ())}
      (cr := Finsupp.single () 1) (R := 0) (m := 0) (T := ∅)
      (by rw [Idealize.SL.Util.total_single]; rfl) (image_single_subset _ _ _)) $$ [HcB1 HO HatB]
  · isplitr; · iexact HIbar
    isplitl [HcB1]; · iexact HcB1
    isplitl [HO]; · iexact HO
    isplitr; · iapply (mayWait_bar3 c hr); iexact Hlev
    iexact HatB
  iintro %S ⟨%hS, HO, HatB, Hpay1⟩
  -- the signal to the device after, which takes the second halo row
  sl_exec (disch := first | sl_exact h1 | sl_exact h2 | sl_exact h3 | sl_exact h4 | sl_exact e51 | sl_exact n54 | sl_exact e56 | sl_exact n59)
  -- the second barrier wait: the rest of the round
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv0Cell (rgt c)) () N + tallyAt (rcv1Cell (lft c)) () N) (R := 0) (m := 0 + (1#32).toNat) (T := S)
      (by rw [expect_bar_both m c hl hr]; rfl)) $$ [HcB2 HO HatB]
  · isplitr; · iexact HIbar
    isplitl [HcB2]; · iexact HcB2
    isplitl [HO]; · iexact HO
    isplitr; · iapply (mayWait_bar2 c); iexact Hlev
    iexact HatB
  iintro ⟨HO, HatB, #HrB1, Hpay2⟩
  -- both neighbours' rows are in hand: the destinations of the two copies
  ihave Hp := (Entails.of_eq (bar_both m c hl hr S hS.2.1)) $$ [Hpay1 Hpay2]
  · isplitl [Hpay1] <;> iassumption
  unfold barPayL barPayR
  icases Hp with ⟨⟨%fl, HL1⟩, ⟨%fr, HR0⟩⟩
  sl_exec (disch := first | sl_exact h1 | sl_exact h2 | sl_exact h3 | sl_exact h4 | sl_exact e51 | sl_exact n54 | sl_exact e56 | sl_exact n59)
  -- the copy of the last row to the device after
  iapply (wp_sendR m K c _ (dev3_eq c h3) hr fr _ (tallyAt (rcv1Cell (lft c)) () N) (add_comm _ _) _) $$ [Hx511 HR0 HO HtS0 HtR0R]
  · isplitr; · iexact HIs0
    isplitr; · iexact HIr0R
    isplitl [Hx511]; · iexact Hx511
    isplitl [HR0]; · iexact HR0
    isplitl [HO]; · iexact HO
    isplitl [HtS0]; · iexact HtS0
    isplitr; · iexact HrS0
    isplitl [HtR0R]; · iexact HtR0R
    iexact HrR0R
  iintro ⟨HcS0, HO⟩
  sl_exec (disch := first | sl_exact h1 | sl_exact h2 | sl_exact h3 | sl_exact h4 | sl_exact e51 | sl_exact n54 | sl_exact e56 | sl_exact n59)
  -- the copy of the first row to the device before
  iapply (wp_sendL m K c _ (dev4_eq c h4) hl fl _ 0 (zero_add _).symm _) $$ [Hx0 HL1 HO HtS1 HtR1L]
  · isplitr; · iexact HIs1
    isplitr; · iexact HIr1L
    isplitl [Hx0]; · iexact Hx0
    isplitl [HL1]; · iexact HL1
    isplitl [HO]; · iexact HO
    isplitl [HtS1]; · iexact HtS1
    isplitr; · iexact HrS1
    isplitl [HtR1L]; · iexact HtR1L
    iexact HrR1L
  iintro ⟨HcS1, HO⟩
  -- the block, the stencil, both landings and both corrected rows
  sl_exec (disch := first | sl_exact h1 | sl_exact h2 | sl_exact h3 | sl_exact h4 | sl_exact e51 | sl_exact n54 | sl_exact e56 | sl_exact n59)
  -- every own cell has consumed its one round: close the four
  imod (Rounds.cell_close ER (haloRd m) (Set.mem_univ (K (c, 1))) (fun h => h) (R := 1) (duties_later m (snd0Cell c))) $$ [HatS0] with HzS0
  · isplitr; · iexact HIs0
    iexact HatS0
  imod (Rounds.cell_close ER (haloRd m) (Set.mem_univ (K (c, 2))) (fun h => h) (R := 1) (duties_later m (snd1Cell c))) $$ [HatS1] with HzS1
  · isplitr; · iexact HIs1
    iexact HatS1
  imod (Rounds.cell_close ER (haloRd m) (Set.mem_univ (K (c, 3))) (fun h => h) (R := 1) (duties_later m (rcv0Cell c))) $$ [HatR0] with HzR0
  · isplitr; · iexact HIr0
    iexact HatR0
  imod (Rounds.cell_close ER (haloRd m) (Set.mem_univ (K (c, 4))) (fun h => h) (R := 1) (duties_later m (rcv1Cell c))) $$ [HatR1] with HzR1
  · isplitr; · iexact HIr1
    iexact HatR1
  -- the halo whole again; the block whole again, at the full share
  ihave Hscr := (scr_join c (haloVal m c) (haloVal m c)) $$ [HatR0_pay1 HatR1_pay1]
  · isplitl [HatR0_pay1] <;> iassumption
  ihave Hxw := (x_join c (xstg m c)) $$ [Hx HatS1_pay1 HatS0_pay1 Hxr]
  · isplitl [Hx]; · iexact Hx
    isplitl [HatS1_pay1]; · iexact HatS1_pay1
    isplitl [HatS0_pay1]; · iexact HatS0_pay1
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_mid m c hl hr g1

end Cert.KernelIdeal.Halo

end
-- ==== Proof.BodyLast.lean ====
/-
  The body of the last device of the line: it has a device before it and none after it.

  It signals the device before it (handing over its first halo row, which that device's copy will fill), waits for that
  device's signal on its own barrier semaphore (which hands it that device's second halo row), copies its first row
  there, computes the stencil of its block, waits for the landing of the row from the device before and for its own
  copy's source to be read, and corrects its first row with the landed row; its last row is the array's last row and is
  copied.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.BodyPrep
import proofs.«900820_g7700000000000821_dist_halo_stencil_i_m512_n512_v7x_i32_bf16_1_alg».proof.Proof.OutFinal
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 1600000 in
theorem sound_last (K : Dev nD × Fin 5 → ℕ) (c : Dev nD) (hl : hasL c) (hr : ¬ hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : k0_cond1 c = 1#1 := (cond1_eq c).mpr hl
  have h2 : ¬ k0_cond2 c = 1#1 := fun h => hr ((cond2_eq c).mp h)
  have h3 : ¬ k0_cond3 c = 1#1 := fun h => hr ((cond3_eq c).mp h)
  have h4 : k0_cond4 c = 1#1 := (cond4_eq c).mpr hl
  have e51 := (g51 c).mpr hl
  have n54 := fun h => (g54 c).mp h hl
  have n56 := fun h => hr ((g56 c).mp h)
  have e59 := (g59 c).mpr hr
  -- the barrier round of the last device has the one duty of the device before: its payload is that device's second halo row
  have hbar : bigSep ((haloRd (F := F) m).duties (barCell c) 0 \ ∅) (fun d => (haloRd (F := F) m).payload (barCell c) 0 d)
      = iprop(∃ f, (h1M : Memref sig .tc .vmem S1x512 .f32).view.loc (lft c : Thread nD τ) ↦[(h1M : Memref sig .tc .vmem S1x512 .f32).view.set]{fullShare} f) := by
    rw [duties_bar_last m c hl hr, Finset.sdiff_empty, bigSep_singleton, payload_bar_false]; rfl
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_pos hl, if_pos hl, if_pos hl, if_pos hl, if_neg hr, if_neg hr, if_neg hr, if_neg hr]
  rw [zero_add, add_zero, add_zero, add_zero]
  -- the credit, cell by cell; the halo by rows; the block as a left half and the right half's two boundary rows
  ihave Hc := (cred_add _ _).1 $$ Hc
  icases Hc with ⟨HcR0, HcB⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  sl_unfold [cc0_body]
  -- the signal to the device before, which takes the first halo row with it
  sl_exec (disch := first | sl_exact h1 | sl_exact h2 | sl_exact h3 | sl_exact h4 | sl_exact e51 | sl_exact n54 | sl_exact n56 | sl_exact e59)
  -- the barrier wait: the whole of the round, paid by the device before
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv1Cell (lft c)) () N) (R := 0) (m := 0) (T := ∅)
      (by rw [expect_bar_last m c hl hr]; rfl)) $$ [HcB HO HatB]
  · isplitr; · iexact HIbar
    isplitl [HcB]; · iexact HcB
    isplitl [HO]; · iexact HO
    isplitr; · iapply (mayWait_barL c); iexact Hlev
    iexact HatB
  iintro ⟨HO, HatB, #HrB1, Hpay⟩
  ihave Hp := (Entails.of_eq hbar) $$ Hpay
  icases Hp with ⟨%fn, Hn⟩
  sl_exec (disch := first | sl_exact h1 | sl_exact h2 | sl_exact h3 | sl_exact h4 | sl_exact e51 | sl_exact n54 | sl_exact n56 | sl_exact e59)
  -- the copy of the first row to the device before
  iapply (wp_sendL m K c _ (dev4_eq c h4) hl fn _ 0 (zero_add _).symm _) $$ [Hx0 Hn HO HtS1 HtR1L]
  · isplitr; · iexact HIs1
    isplitr; · iexact HIr1L
    isplitl [Hx0]; · iexact Hx0
    isplitl [Hn]; · iexact Hn
    isplitl [HO]; · iexact HO
    isplitl [HtS1]; · iexact HtS1
    isplitr; · iexact HrS1
    isplitl [HtR1L]; · iexact HtR1L
    iexact HrR1L
  iintro ⟨HcS1, HO⟩
  -- the stencil of the block; the landing of the row from the device before and the return of the lent row; the first row
  -- corrected with the landed row; the last row copied
  sl_exec (disch := first | sl_exact h1 | sl_exact h2 | sl_exact h3 | sl_exact h4 | sl_exact e51 | sl_exact n54 | sl_exact n56 | sl_exact e59)
  -- the four own cells: the two that had a round have consumed it, the two of the missing neighbour never had one
  imod (Rounds.cell_close ER (haloRd m) (Set.mem_univ (K (c, 1))) (fun h => h) (R := 0) (fun r _ => duties_snd0_none m c hr r)) $$ [HatS0] with HzS0
  · isplitr; · iexact HIs0
    iexact HatS0
  imod (Rounds.cell_close ER (haloRd m) (Set.mem_univ (K (c, 2))) (fun h => h) (R := 1) (duties_later m (snd1Cell c))) $$ [HatS1] with HzS1
  · isplitr; · iexact HIs1
    iexact HatS1
  imod (Rounds.cell_close ER (haloRd m) (Set.mem_univ (K (c, 3))) (fun h => h) (R := 1) (duties_later m (rcv0Cell c))) $$ [HatR0] with HzR0
  · isplitr; · iexact HIr0
    iexact HatR0
  imod (Rounds.cell_close ER (haloRd m) (Set.mem_univ (K (c, 4))) (fun h => h) (R := 0) (fun r _ => duties_rcv1_none m c hr r)) $$ [HatR1] with HzR1
  · isplitr; · iexact HIr1
    iexact HatR1
  -- the halo whole again: the landed first row and the untouched second; the block whole again, at the full share
  ihave Hscr := (scr_join c (haloVal m c) f0) $$ [HatR0_pay1 Hh1]
  · isplitl [HatR0_pay1] <;> iassumption
  ihave Hxw := (x_join c (xstg m c)) $$ [Hx HatS1_pay1 Hx511 Hxr]
  · isplitl [Hx]; · iexact Hx
    isplitl [HatS1_pay1]; · iexact HatS1_pay1
    isplitl [Hx511]; · iexact Hx511
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_last m c hl hr g1

end Cert.KernelIdeal.Halo

end
-- ==== Proof.Body.lean ====
/-
  The body of one device, run from what the launch deals it to what it hands back: by its place in the line it is the
  body of the first device, of the last device, or of a device with both neighbours.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.BodyFirst
import proofs.«900820_g7700000000000821_dist_halo_stencil_i_m512_n512_v7x_i32_bf16_1_alg».proof.Proof.BodyMid
import proofs.«900820_g7700000000000821_dist_halo_stencil_i_m512_n512_v7x_i32_bf16_1_alg».proof.Proof.BodyLast
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body on any device: every device has a neighbour on at least one side. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  by_cases hl : hasL c
  · by_cases hr : hasR c
    · exact sound_mid m K c hl hr Kt
    · exact sound_last m K c hl hr Kt
  · exact sound_first m K c hl ((has_one c).resolve_left hl) Kt

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hc, Hlev⟩, Hscr⟩, Ho, Hx, Hout⟩
  iapply (sound_body m K c fun _ => bodyPost m c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx] <;> iassumption
  · iintro H; iexact H

end Cert.KernelIdeal.Halo

end
-- ==== Proof.Launch.lean ====
/-
  The launch of the halo exchange. The kernel is one region on every device; the protocol runs on the runtime's barrier
  semaphore (not scoped to the launch) and on the kernel's own four DMA semaphores. The launch element funds, beside
  the pipeline library's staging cells, the five cells of every device in the schedule's own copy of the rounds algebra;
  one global step allocates all their invariants at once (a barrier cell's invariant is opened by three devices); the
  duty tokens, minted per owner, are dealt around the line along the neighbour bijection; what the devices owe at launch,
  summed over the line, is each device's own waits' credit. The theorem's post is then read at the two arrays: the
  input array untouched, the result array written whole by the one write-back.
-/
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.Body
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout: own semaphores, shares, the schedule's cells and tokens -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- All the schedule's cells: every device's five. -/
def haloCells : Finset (GSem nD τ sig) := Finset.univ.map ⟨kcell, kcell_injective⟩

/-- A device's own cells' duty tokens as minted: (device, which duty) — its barrier's two, then one each for its two send
    and its two receive cells. -/
abbrev tokOf (cj : Dev nD × Fin 6) : GSem nD τ sig × ℕ × Bool := match cj.2 with
  | 0 => (barCell cj.1, 0, false) | 1 => (barCell cj.1, 0, true) | 2 => (snd0Cell cj.1, 0, false)
  | 3 => (snd1Cell cj.1, 0, false) | 4 => (rcv0Cell cj.1, 0, false) | 5 => (rcv1Cell cj.1, 0, false)

theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl

def haloToks : Finset (GSem nD τ sig × ℕ × Bool) := Finset.univ.map ⟨tokOf, tokOf_injective⟩

/-- The launch element: the pipeline's staging cells in the first copy, the schedule's cells in the second. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (snd0Cell c) 0 false
    ∗ dutyTok ER (snd1Cell c) 0 false ∗ dutyTok ER (rcv0Cell c) 0 false ∗ dutyTok ER (rcv1Cell c) 0 false)

/-- What the launch element deals device `c`. -/
def G (c : Dev nD) : sProp 𝕄 :=
  iprop((bigSep Finset.univ fun k : Fin 5 => roundState ER (haloRd m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The schedule's copy of the launch element pays for every device's round states, marks, positions and tokens. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt around the line -/

/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (snd0Cell c) 0 ∗ semVal (snd1Cell c) 0 ∗ semVal (rcv0Cell c) 0 ∗ semVal (rcv1Cell c) 0) := by
  rw [Pipeline.ownSems0_eq_of_list c osem [0, 1, 2, 3] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H0, H1, H2, H3⟩, HB⟩
  isplitl [HB]; · iexact HB
  isplitl [H0]; · iexact H0
  isplitl [H1]; · iexact H1
  isplitl [H2]; · iexact H2
  iexact H3

/-- One device's five counters and round states become its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell's round 0 is open. -/
def records (K : Dev nD × Fin 5 → ℕ) : sProp 𝕄 :=
  iprop((bigSep Finset.univ fun ck : Dev nD × Fin 5 => cellInv ER (haloRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (haloRd m) (K ck) (kcell ck) : sProp 𝕄)) ⊢ cellInv ER (haloRd m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(posns c ∗ payToks c)

theorem ghost_intro (K : Dev nD × Fin 5 → ℕ) (c : Dev nD) : iprop(records m K ∗ linear c) ⊢ G' m c := by
  unfold records linear G' ghost invs opened
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (lft c, 0)); iexact HI
    isplitr; · iapply (inv_at m K (rgt c, 0)); iexact HI
    isplitr; · iapply (inv_at m K (rgt c, 3)); iexact HI
    iapply (inv_at m K (lft c, 4)); iexact HI
  isplitr
  · isplitr; · iapply (reached_at (F := F) (lft c, 0)); iexact HR
    isplitr; · iapply (reached_at (F := F) (rgt c, 0)); iexact HR
    isplitr; · iapply (reached_at (F := F) (rgt c, 3)); iexact HR
    isplitr; · iapply (reached_at (F := F) (lft c, 4)); iexact HR
    isplitr; · iapply (reached_at (F := F) (c, 1)); iexact HR
    iapply (reached_at (F := F) (c, 2)); iexact HR
  isplitl [Hpos]; · iexact Hpos
  iexact Htok

/-- The tokens dealt around the line along the neighbour bijection: a barrier's token of "the device before" goes to the
    device before it, its token of "the device after" to the device after it; a receive cell's token goes to the
    neighbour whose copy lands on it; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv shift (fun c : Dev nD => (dutyTok ER (barCell c) 0 false : sProp 𝕄)),
    bigSep_univ_equiv shift.symm (fun c : Dev nD => (dutyTok ER (barCell c) 0 true : sProp 𝕄)),
    bigSep_univ_equiv shift (fun c : Dev nD => (dutyTok ER (rcv0Cell c) 0 false : sProp 𝕄)),
    bigSep_univ_equiv shift.symm (fun c : Dev nD => (dutyTok ER (rcv1Cell c) 0 false : sProp 𝕄))]
  iintro ⟨H1, H2, H3, H4, H5, H6⟩
  isplitl [H2]; · iexact H2
  isplitl [H1]; · iexact H1
  isplitl [H5]; · iexact H5
  isplitl [H6]; · iexact H6
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (haloRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear posns; rw [bigSep_fin5])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the line owes, summed, is each device's own waits' credit -/

theorem sum_owed : (∑ d, O₀ d) = ∑ d, T₀ d := by
  have hA : (∑ d : Dev nD, (if hasR d then tallyAt (rcv0Cell (rgt d)) () N else 0 : CellTallies nD τ sig Unit))
      = ∑ c : Dev nD, (if hasL c then tallyAt (rcv0Cell c) () N else 0 : CellTallies nD τ sig Unit) :=
    (Finset.sum_congr rfl fun d _ => if_congr (hasR_rgt_iff d).symm rfl rfl).trans
      (Equiv.sum_comp shift fun c : Dev nD => (if hasL c then tallyAt (rcv0Cell c) () N else 0 : CellTallies nD τ sig Unit))
  have hB : (∑ d : Dev nD, (if hasL d then tallyAt (rcv1Cell (lft d)) () N else 0 : CellTallies nD τ sig Unit))
      = ∑ c : Dev nD, (if hasR c then tallyAt (rcv1Cell c) () N else 0 : CellTallies nD τ sig Unit) :=
    (Finset.sum_congr rfl fun d _ => if_congr (hasL_lft_iff d).symm rfl rfl).trans
      (Equiv.sum_comp shift.symm fun c : Dev nD => (if hasR c then tallyAt (rcv1Cell c) () N else 0 : CellTallies nD τ sig Unit))
  have hC : (∑ d : Dev nD, (if hasR d then tallyAt (barCell (rgt d)) () 1 else 0 : CellTallies nD τ sig Unit))
      = ∑ c : Dev nD, (if hasL c then tallyAt (barCell c) () 1 else 0 : CellTallies nD τ sig Unit) :=
    (Finset.sum_congr rfl fun d _ => if_congr (hasR_rgt_iff d).symm rfl rfl).trans
      (Equiv.sum_comp shift fun c : Dev nD => (if hasL c then tallyAt (barCell c) () 1 else 0 : CellTallies nD τ sig Unit))
  have hD : (∑ d : Dev nD, (if hasL d then tallyAt (barCell (lft d)) () 1 else 0 : CellTallies nD τ sig Unit))
      = ∑ c : Dev nD, (if hasR c then tallyAt (barCell c) () 1 else 0 : CellTallies nD τ sig Unit) :=
    (Finset.sum_congr rfl fun d _ => if_congr (hasL_lft_iff d).symm rfl rfl).trans
      (Equiv.sum_comp shift.symm fun c : Dev nD => (if hasR c then tallyAt (barCell c) () 1 else 0 : CellTallies nD τ sig Unit))
  unfold O₀ T₀
  rw [Finset.sum_add_distrib, Finset.sum_add_distrib, Finset.sum_add_distrib, Finset.sum_add_distrib, Finset.sum_add_distrib, Finset.sum_add_distrib,
    hA, hB, hC, hD]

/-- A conditional one-cell tally is nothing off its cell; -/
theorem ite_tally_off {p : Prop} [Decidable p] {g g' : GSem nD τ sig} (h : g' ≠ g) (n : ℕ) :
    (if p then tallyAt g () n else (0 : CellTallies nD τ sig Unit)) g' = 0 := by
  by_cases hp : p
  · rw [if_pos hp]; exact tallyAt_ne_cell h () n
  · rw [if_neg hp]; rfl
/-- and positive only under its condition, at its cell. -/
theorem ite_tally_pos {p : Prop} [Decidable p] {g g' : GSem nD τ sig} {n : ℕ} {u : Unit}
    (h : 0 < (if p then tallyAt g () n else (0 : CellTallies nD τ sig Unit)) g' u) : p ∧ g' = g := by
  by_cases hp : p
  · rw [if_pos hp] at h; exact ⟨hp, (Pipeline.tallyAt_pos h).1⟩
  · rw [if_neg hp] at h; exact absurd h (Nat.lt_irrefl 0)

/-- What the neighbours owe device `d` sits on `d`'s own cells. -/
theorem T₀_own (d : Dev nD) (g : GSem nD τ sig) (h : T₀ d g ≠ 0) : g.1 = (d.tc : Thread nD τ) := by
  by_contra hne
  refine h ?_
  have hg (sm : SemLoc sig) : g ≠ ((d : Thread nD τ), sm) := fun hg => hne (congrArg Prod.fst hg)
  unfold T₀
  rw [Pi.add_apply, Pi.add_apply, Pi.add_apply, ite_tally_off (hg _), ite_tally_off (hg _), ite_tally_off (hg _), ite_tally_off (hg _)]
  rfl

theorem creds (c : Dev nD) : (Pipeline.launchCred O₀ c : sProp 𝕄) = cred (T₀ c) :=
  Pipeline.launchCred_of_sum O₀ T₀ sum_owed T₀_own c

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [creds]
  iintro ⟨-, Hlev, Hcr, -, HG⟩
  imodintro
  unfold start G'
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrSome
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrSome
  iintro ⟨Hr, H0, H1, H2, H3⟩
  isplitr; · iempintro
  isplitl [H0 H1 H2 H3]
  · isplitl [H0]; · iexact H0
    isplitl [H1]; · iexact H1
    isplitl [H2]; · iexact H2
    iexact H3
  iexact Hr

/-- Everything a device owes at launch is a TensorCore's barrier or receive cell, above level 0. -/
theorem O₀_pos {c : Dev nD} {g : GSem nD τ sig} {u : Unit} (h : 0 < O₀ c g u) : g.1.2 = .tc ∧ 0 < lv g u := by
  cases u
  unfold O₀ at h
  rcases Pipeline.add_pos_cases h with h | h
  · rcases Pipeline.add_pos_cases h with h | h
    · rcases Pipeline.add_pos_cases h with h | h
      · obtain ⟨_, rfl⟩ := ite_tally_pos h; exact ⟨rfl, by rw [lv_rcv0]; decide⟩
      · obtain ⟨_, rfl⟩ := ite_tally_pos h; exact ⟨rfl, by rw [lv_rcv1]; decide⟩
    · obtain ⟨_, rfl⟩ := ite_tally_pos h; exact ⟨rfl, by rw [lv_bar]; exact Nat.succ_pos _⟩
  · obtain ⟨_, rfl⟩ := ite_tally_pos h; exact ⟨rfl, by rw [lv_bar]; exact Nat.succ_pos _⟩

/-- A DMA semaphore that is no receive semaphore sits at level 0. -/
theorem lv_stage (c : Dev nD) (q : DmaSem sig) (h0 : q ≠ rcv0S) (h1 : q ≠ rcv1S) : lv ((c : Thread nD τ), .dma q) () = 0 := by
  unfold lv
  rw [if_neg (fun h => by cases h), if_neg (fun h => h.elim (fun h => h0 (SemLoc.dma.inj h)) (fun h => h1 (SemLoc.dma.inj h)))]

/-- The staging semaphores sit at level 0, below everything owed: the pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_cut c _ 0 (by fin_cases w <;> fin_cases s <;> exact Nat.le_of_eq (lv_stage c _ (by decide) (by decide))) _ (by
      rcases t with ⟨_ | _, ht⟩
      · exact fun g u h => O₀_pos h
      · exact fun g u h => absurd h (Nat.lt_irrefl 0))

/-! ## The two arrays after the run -/

/-- The input array is never written back. -/
theorem final_x (c : Dev nD) : (dats m 0 c).arrAt (0 : Fin 2) cfg0.N = m ((c.tc : Thread nD τ).loc main_arg0) :=
  (dats (F := F) m 0 c).arrAt_in (0 : Fin 2) rfl _

/-- The result array's one block is the array, written back at the one point: it ends holding what the body left. -/
theorem final_out (c : Dev nD) : (dats m 0 c).arrAt (1 : Fin 2) cfg0.N = outAt m c := by
  have h1 : ((cfg0.win (1 : Fin 2)).blk t₀).view.read (Elt F) ((dats m 0 c).arrAt (1 : Fin 2) cfg0.N) = (dats m 0 c).flushed (1 : Fin 2) t₀ := by
    rw [show cfg0.N = (t₀ : Fin cfg0.N).val + 1 from rfl, (dats m 0 c).arrAt_succ (1 : Fin 2) t₀, flush0_1 t₀, if_pos rfl]
    exact View.read_write_univ _ _
  have hz : (fun a => win0_1.index t₀ a * main_v1.ty.shape.size a) = fun _ => 0 := funext fun a => by fin_cases a <;> decide
  exact (Memref.read_access_unit_zero (Elt F) main_v1 hz (fun a => by rw [congrFun hz a]; simp) ((dats m 0 c).arrAt (1 : Fin 2) cfg0.N)).symm.trans h1

/-! ## The run -/

set_option maxRecDepth 8000 in
/-- At the compiled mesh of 32 devices, for any float values, from any memory with zero counters: every weakly fair
    execution of @main — the devices shaking hands along the line on the runtime's barrier semaphore, then exchanging
    their boundary rows — terminates, and every final state has each device's result block at the named contents and
    its input block unchanged. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_out m c), ((h c).1 0).trans (final_x m c)⟩)

/-- info: 'Cert.KernelIdeal.Halo.run_main' depends on axioms: [propext, Classical.choice, Quot.sound] -/
#guard_msgs in #print axioms run_main

end Cert.KernelIdeal.Halo

end
-- ==== Proof.Bits.Mesh.lean ====
/-
  The 32 devices stand in a line: device c holds rows 512c … 512c + 511 of the array, has a neighbour before it when
  c > 0 and one after it when c < 31. The neighbour functions wrap around (so that they are inverse bijections of the
  mesh), but a device only ever addresses the neighbour on a side where it has one. Here: the two neighbour
  functions, the kernel's four guards read as "has a neighbour before" / "has a neighbour after", and the devices its
  signals and copies address read as those neighbours.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The device before `c` and the device after it (wrapping around the mesh). -/
def lft (c : Dev nD) : Dev nD := ⟨(c.val + 31) % 32, Nat.mod_lt _ (by decide)⟩
def rgt (c : Dev nD) : Dev nD := ⟨(c.val + 1) % 32, Nat.mod_lt _ (by decide)⟩

/-- Device `c` has a neighbour before it; after it. -/
abbrev hasL (c : Dev nD) : Prop := 0 < c.val
abbrev hasR (c : Dev nD) : Prop := c.val < 31

theorem lft_rgt (c : Dev nD) : lft (rgt c) = c := by revert c; decide +kernel
theorem rgt_lft (c : Dev nD) : rgt (lft c) = c := by revert c; decide +kernel
theorem hasR_lft {c : Dev nD} (h : hasL c) : hasR (lft c) := by revert c; decide +kernel
theorem hasL_rgt {c : Dev nD} (h : hasR c) : hasL (rgt c) := by revert c; decide +kernel
theorem hasL_lft_iff (c : Dev nD) : hasR (lft c) ↔ hasL c := by revert c; decide +kernel
theorem hasR_rgt_iff (c : Dev nD) : hasL (rgt c) ↔ hasR c := by revert c; decide +kernel
theorem lft_ne_rgt (c : Dev nD) : lft c ≠ rgt c := by revert c; decide +kernel
theorem lft_ne_self (c : Dev nD) : lft c ≠ c := by revert c; decide +kernel
theorem rgt_ne_self (c : Dev nD) : rgt c ≠ c := by revert c; decide +kernel
theorem lft_val {c : Dev nD} (h : hasL c) : (lft c).val = c.val - 1 := by revert c; decide +kernel
theorem rgt_val {c : Dev nD} (h : hasR c) : (rgt c).val = c.val + 1 := by revert c; decide +kernel
theorem has_one (c : Dev nD) : hasL c ∨ hasR c := by revert c; decide +kernel

/-- The neighbour functions as a permutation of the mesh and its inverse. -/
def shift : Dev nD ≃ Dev nD := ⟨rgt, lft, lft_rgt, rgt_lft⟩

/-- The kernel's four guards: the first and the fourth ask for a neighbour before, the second and the third for one after. -/
theorem cond1_eq (c : Dev nD) : (k0_cond1 c = 1#1) = hasL c := by revert c; decide +kernel
theorem cond2_eq (c : Dev nD) : (k0_cond2 c = 1#1) = hasR c := by revert c; decide +kernel
theorem cond3_eq (c : Dev nD) : (k0_cond3 c = 1#1) = hasR c := by revert c; decide +kernel
theorem cond4_eq (c : Dev nD) : (k0_cond4 c = 1#1) = hasL c := by revert c; decide +kernel

/-- The devices the kernel addresses: its first signal and its second copy go to the device before, its second signal
    and its first copy to the device after. -/
theorem dev1_eq (c : Dev nD) (h : k0_cond1 c = 1#1) : (⟨k0_dev1 c, k0_dev1_lt c h⟩ : Dev nD) = lft c := Fin.ext (k0_dev1_eq c)
theorem dev2_eq (c : Dev nD) (h : k0_cond2 c = 1#1) : (⟨k0_dev2 c, k0_dev2_lt c h⟩ : Dev nD) = rgt c := Fin.ext (k0_dev2_eq c)
theorem dev3_eq (c : Dev nD) (h : k0_cond3 c = 1#1) : (⟨k0_dev3 c, k0_dev3_lt c h⟩ : Dev nD) = rgt c := Fin.ext (k0_dev3_eq c)
theorem dev4_eq (c : Dev nD) (h : k0_cond4 c = 1#1) : (⟨k0_dev4 c, k0_dev4_lt c h⟩ : Dev nD) = lft c := Fin.ext (k0_dev4_eq c)

end Cert.Kernel.Halo

end
-- ==== Proof.Bits.Sched.lean ====
/-
  The halo exchange as a schedule of semaphore rounds. Every device has five cells: the barrier semaphore, a send and
  a receive semaphore for the copy that goes to the device after it, and a send and a receive semaphore for the copy
  that goes to the device before it. Each cell has one round.

  * The barrier cell of device c is paid one unit by the device before c and one unit by the device after c (each
    where it exists). The unit from the device before carries that device's second halo row — the row c's copy to it
    will overwrite; the unit from the device after carries its first halo row. So once a device has consumed its
    barrier round it holds exactly the two destinations its copies write: rows their owners gave up inside the kernel.
  * A receive cell's round is the landing of the neighbour's copy; what lands is named: the halo row holding the
    neighbour's boundary row.
  * A send cell's round returns the half share of the source row lent to the copy; the other half stays with the
    device, which reads its whole block while the copies are in flight.

  A device waits on its barrier cell while it still owes the barrier cell of the device after it, so barrier cells
  are levelled by position, c + 1; receive cells sit above all of them; everything else is at level 0.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.Mesh
import Idealize.ShloMosaic.Lib.Pipeline.Launch
import Idealize.ShloMosaic.Lib.ValueIdx
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the schedule's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memrefs and cells -/

abbrev xM : Memref sig .tc .vmem S512x512 .f32 := Memref.whole cc0_stg0_0
abbrev oM : Memref sig .tc .vmem S512x512 .f32 := Memref.whole cc0_stg1_0
abbrev hM : Memref sig .tc .vmem S2x512 .f32 := Memref.whole cc0_scratch0

/-- The first and the last row of a block; the two rows of the halo buffer. -/
abbrev rX0 : Rect S512x512 := Rect.unit (s := S512x512) ![0, 0] S1x512.size inb_S512x512_S1x512_0_0
abbrev rX511 : Rect S512x512 := Rect.unit (s := S512x512) ![511, 0] S1x512.size inb_S512x512_S1x512_511_0
abbrev rH0 : Rect S2x512 := Rect.unit (s := S2x512) ![0, 0] S1x512.size inb_S2x512_S1x512_0_0
abbrev rH1 : Rect S2x512 := Rect.unit (s := S2x512) ![1, 0] S1x512.size inb_S2x512_S1x512_1_0

abbrev x0M : Memref sig .tc .vmem S1x512 .f32 := (xM : Memref sig .tc .vmem S512x512 .f32).slice rX0 (fun _ => rfl)
abbrev x511M : Memref sig .tc .vmem S1x512 .f32 := (xM : Memref sig .tc .vmem S512x512 .f32).slice rX511 (fun _ => rfl)
abbrev h0M : Memref sig .tc .vmem S1x512 .f32 := (hM : Memref sig .tc .vmem S2x512 .f32).slice rH0 (fun _ => rfl)
abbrev h1M : Memref sig .tc .vmem S1x512 .f32 := (hM : Memref sig .tc .vmem S2x512 .f32).slice rH1 (fun _ => rfl)

/-- The barrier semaphore; the send semaphores of the copy to the device after and of the copy to the device before;
    the receive semaphores of the copy from the device before and of the copy from the device after. -/
abbrev barS : Sem sig := 0
abbrev snd0S : DmaSem sig := 2
abbrev snd1S : DmaSem sig := 3
abbrev rcv0S : DmaSem sig := 4
abbrev rcv1S : DmaSem sig := 5

abbrev barCell (c : Dev nD) : GSem nD τ sig := ((c : Thread nD τ), .reg barS)
abbrev snd0Cell (c : Dev nD) : GSem nD τ sig := ((c : Thread nD τ), .dma snd0S)
abbrev snd1Cell (c : Dev nD) : GSem nD τ sig := ((c : Thread nD τ), .dma snd1S)
abbrev rcv0Cell (c : Dev nD) : GSem nD τ sig := ((c : Thread nD τ), .dma rcv0S)
abbrev rcv1Cell (c : Dev nD) : GSem nD τ sig := ((c : Thread nD τ), .dma rcv1S)

/-- The kernel's own (scoped) semaphores, as the launch indexes them; all five of the schedule's, as this proof does. -/
abbrev osem : Fin 4 → SemLoc sig := fun | 0 => .dma snd0S | 1 => .dma snd1S | 2 => .dma rcv0S | 3 => .dma rcv1S
abbrev csem : Fin 5 → SemLoc sig := fun | 0 => .reg barS | 1 => .dma snd0S | 2 => .dma snd1S | 3 => .dma rcv0S | 4 => .dma rcv1S
abbrev kcell (ck : Dev nD × Fin 5) : GSem nD τ sig := ((ck.1 : Thread nD τ), csem ck.2)

/-- One row's credit on a DMA semaphore. -/
abbrev N : ℕ := (h0M : Memref sig .tc .vmem S1x512 .f32).view.dmaCredit
theorem N_pos : 0 < N := by decide

/-! ## Contents -/

/-- Device `c`'s block as its staging buffer holds it. -/
def xstg (c : Dev nD) : (cc0_stg0_0 : Ref sig .tc).ty.Contents (Elt F) :=
  (win0_0.blk (0 : Fin 1)).view.read (Elt F) (m ((c : Thread nD τ).loc main_arg0))

/-- What device `c`'s halo buffer holds once both copies have landed: row 0 the last row of the block before, row 1 the
    first row of the block after. (Of a device at an end of the line only one row is ever written or read.) -/
def haloVal (c : Dev nD) : (cc0_scratch0 : Ref sig .tc).ty.Contents (Elt F) := fun i =>
  if (i 0).val = 0 then xstg m (lft c) (ValueIdx.ix2 (n0 := 512) (n1 := 512) ⟨511, by decide⟩ ⟨(i 1).val, (i 1).isLt⟩)
  else xstg m (rgt c) (ValueIdx.ix2 (n0 := 512) (n1 := 512) ⟨0, by decide⟩ ⟨(i 1).val, (i 1).isLt⟩)

/-- A row of a buffer on device `c`, held outright at contents `f`; at share `q`. -/
abbrev rowPts (c : Dev nD) {sp : Space} {s : Shape} (M : Memref sig .tc sp s .f32) (q : PosShare TreeShare)
    (f : Buf (Elt F) (M.view.loc (c : Thread nD τ))) : sProp 𝕄 :=
  M.view.loc (c : Thread nD τ) ↦[M.view.set]{q} f

/-! ## The schedule -/

/-- What the device before `c` hands `c` with its barrier unit: its second halo row, at whatever it holds. What the device
    after `c` hands it: its first halo row. -/
def barPayL (c : Dev nD) : sProp 𝕄 :=
  iprop(∃ f, (h1M : Memref sig .tc .vmem S1x512 .f32).view.loc (lft c : Thread nD τ) ↦[(h1M : Memref sig .tc .vmem S1x512 .f32).view.set]{fullShare} f)
def barPayR (c : Dev nD) : sProp 𝕄 :=
  iprop(∃ f, (h0M : Memref sig .tc .vmem S1x512 .f32).view.loc (rgt c : Thread nD τ) ↦[(h0M : Memref sig .tc .vmem S1x512 .f32).view.set]{fullShare} f)
/-- What lands on a receive cell: the halo row at its named contents. What a send cell returns: the lent half of the source row. -/
def rcv0Pay (c : Dev nD) : sProp 𝕄 :=
  (h0M : Memref sig .tc .vmem S1x512 .f32).view.loc (c : Thread nD τ) ↦[(h0M : Memref sig .tc .vmem S1x512 .f32).view.set]{fullShare} haloVal m c
def rcv1Pay (c : Dev nD) : sProp 𝕄 :=
  (h1M : Memref sig .tc .vmem S1x512 .f32).view.loc (c : Thread nD τ) ↦[(h1M : Memref sig .tc .vmem S1x512 .f32).view.set]{fullShare} haloVal m c
def snd0Pay (c : Dev nD) : sProp 𝕄 :=
  (x511M : Memref sig .tc .vmem S1x512 .f32).view.loc (c : Thread nD τ) ↦[(x511M : Memref sig .tc .vmem S1x512 .f32).view.set]{fullShare.right} xstg m c
def snd1Pay (c : Dev nD) : sProp 𝕄 :=
  (x0M : Memref sig .tc .vmem S1x512 .f32).view.loc (c : Thread nD τ) ↦[(x0M : Memref sig .tc .vmem S1x512 .f32).view.set]{fullShare.right} xstg m c

/-- The duties of a cell's one round, by the cell's semaphore and its device's place in the line. -/
def dutiesOf (g : GSem nD τ sig) : Finset Bool :=
  if g.1.2 = .tc then
    if g.2 = .reg barS then (if hasL g.1.1 then {false} else ∅) ∪ (if hasR g.1.1 then {true} else ∅)
    else if g.2 = .dma snd0S ∨ g.2 = .dma rcv1S then (if hasR g.1.1 then {false} else ∅)
    else if g.2 = .dma snd1S ∨ g.2 = .dma rcv0S then (if hasL g.1.1 then {false} else ∅)
    else ∅
  else ∅

def haloRd : Rounds.Schedule (GSem nD τ sig) Bool 𝕄 where
  duties g r := if r = 0 then dutiesOf g else ∅
  unitless _ := False
  amount g _ _ := if g.2 = .reg barS then 1 else N
  payload g _ d :=
    if g.2 = .reg barS then (if d then barPayR g.1.1 else barPayL g.1.1)
    else if g.2 = .dma snd0S then snd0Pay m g.1.1
    else if g.2 = .dma snd1S then snd1Pay m g.1.1
    else if g.2 = .dma rcv0S then rcv0Pay m g.1.1
    else if g.2 = .dma rcv1S then rcv1Pay m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Bool) :
    BI.Storable (upEmb : UEmb _ 𝕄) ((haloRd (F := F) m).payload g r d) := by
  show BI.Storable upEmb (if g.2 = .reg barS then (if d then barPayR g.1.1 else barPayL g.1.1)
    else if g.2 = .dma snd0S then snd0Pay m g.1.1 else if g.2 = .dma snd1S then snd1Pay m g.1.1
    else if g.2 = .dma rcv0S then rcv0Pay m g.1.1 else if g.2 = .dma rcv1S then rcv1Pay m g.1.1 else iprop(emp))
  unfold barPayL barPayR snd0Pay snd1Pay rcv0Pay rcv1Pay
  (repeat' split) <;> infer_instance

/-! ## The schedule's tables, cell by cell -/

section Tables
variable (c : Dev nD)

theorem snd0_ne_bar : (SemLoc.dma snd0S : SemLoc sig) ≠ .reg barS := fun h => by cases h
theorem snd1_ne_bar : (SemLoc.dma snd1S : SemLoc sig) ≠ .reg barS := fun h => by cases h
theorem rcv0_ne_bar : (SemLoc.dma rcv0S : SemLoc sig) ≠ .reg barS := fun h => by cases h
theorem rcv1_ne_bar : (SemLoc.dma rcv1S : SemLoc sig) ≠ .reg barS := fun h => by cases h
theorem snd1_ne_snd0 : (SemLoc.dma snd1S : SemLoc sig) ≠ .dma snd0S := by decide
theorem rcv0_ne_snd0 : (SemLoc.dma rcv0S : SemLoc sig) ≠ .dma snd0S := by decide
theorem rcv1_ne_snd0 : (SemLoc.dma rcv1S : SemLoc sig) ≠ .dma snd0S := by decide
theorem rcv0_ne_snd1 : (SemLoc.dma rcv0S : SemLoc sig) ≠ .dma snd1S := by decide
theorem rcv1_ne_snd1 : (SemLoc.dma rcv1S : SemLoc sig) ≠ .dma snd1S := by decide
theorem rcv1_ne_rcv0 : (SemLoc.dma rcv1S : SemLoc sig) ≠ .dma rcv0S := by decide
theorem snd0_ne_rcv1 : (SemLoc.dma snd0S : SemLoc sig) ≠ .dma rcv1S := by decide
theorem snd1_ne_rcv1 : (SemLoc.dma snd1S : SemLoc sig) ≠ .dma rcv1S := by decide
theorem snd1_ne_rcv0 : (SemLoc.dma snd1S : SemLoc sig) ≠ .dma rcv0S := by decide

theorem dutiesOf_bar : dutiesOf (barCell c) = (if hasL c then {false} else ∅) ∪ (if hasR c then {true} else ∅) := by
  unfold dutiesOf; rw [if_pos rfl, if_pos rfl]
theorem dutiesOf_snd0 : dutiesOf (snd0Cell c) = if hasR c then {false} else ∅ := by
  unfold dutiesOf; rw [if_pos rfl, if_neg snd0_ne_bar, if_pos (.inl rfl)]
theorem dutiesOf_rcv1 : dutiesOf (rcv1Cell c) = if hasR c then {false} else ∅ := by
  unfold dutiesOf; rw [if_pos rfl, if_neg rcv1_ne_bar, if_pos (.inr rfl)]
theorem dutiesOf_snd1 : dutiesOf (snd1Cell c) = if hasL c then {false} else ∅ := by
  unfold dutiesOf; rw [if_pos rfl, if_neg snd1_ne_bar, if_neg (fun h => h.elim snd1_ne_snd0 snd1_ne_rcv1), if_pos (.inl rfl)]
theorem dutiesOf_rcv0 : dutiesOf (rcv0Cell c) = if hasL c then {false} else ∅ := by
  unfold dutiesOf; rw [if_pos rfl, if_neg rcv0_ne_bar, if_neg (fun h => h.elim rcv0_ne_snd0 (fun h' => rcv1_ne_rcv0 h'.symm)), if_pos (.inr rfl)]

omit [FloatOps F] in
theorem duties_zero (g : GSem nD τ sig) : (haloRd (F := F) m).duties g 0 = dutiesOf g := by dsimp only [haloRd]; exact if_pos rfl
omit [FloatOps F] in
theorem duties_later (g : GSem nD τ sig) : ∀ r, 1 ≤ r → (haloRd (F := F) m).duties g r = ∅ :=
  fun r hr => by dsimp only [haloRd]; exact if_neg (by omega)

omit [FloatOps F] in
theorem duties_bar_both (hl : hasL c) (hr : hasR c) : (haloRd (F := F) m).duties (barCell c) 0 = Finset.univ := by
  rw [duties_zero, dutiesOf_bar, if_pos hl, if_pos hr]; decide
omit [FloatOps F] in
theorem duties_bar_first (hl : ¬ hasL c) (hr : hasR c) : (haloRd (F := F) m).duties (barCell c) 0 = {true} := by
  rw [duties_zero, dutiesOf_bar, if_neg hl, if_pos hr]; decide
omit [FloatOps F] in
theorem duties_bar_last (hl : hasL c) (hr : ¬ hasR c) : (haloRd (F := F) m).duties (barCell c) 0 = {false} := by
  rw [duties_zero, dutiesOf_bar, if_pos hl, if_neg hr]; decide
omit [FloatOps F] in
theorem duties_snd0 (hr : hasR c) : (haloRd (F := F) m).duties (snd0Cell c) 0 = {false} := by rw [duties_zero, dutiesOf_snd0, if_pos hr]
omit [FloatOps F] in
theorem duties_rcv1 (hr : hasR c) : (haloRd (F := F) m).duties (rcv1Cell c) 0 = {false} := by rw [duties_zero, dutiesOf_rcv1, if_pos hr]
omit [FloatOps F] in
theorem duties_snd1 (hl : hasL c) : (haloRd (F := F) m).duties (snd1Cell c) 0 = {false} := by rw [duties_zero, dutiesOf_snd1, if_pos hl]
omit [FloatOps F] in
theorem duties_rcv0 (hl : hasL c) : (haloRd (F := F) m).duties (rcv0Cell c) 0 = {false} := by rw [duties_zero, dutiesOf_rcv0, if_pos hl]
omit [FloatOps F] in
theorem duties_snd0_none (hr : ¬ hasR c) : ∀ r, (haloRd (F := F) m).duties (snd0Cell c) r = ∅ := fun r => by
  rcases r with _ | r
  · rw [duties_zero, dutiesOf_snd0, if_neg hr]
  · exact duties_later m _ _ (by omega)
omit [FloatOps F] in
theorem duties_rcv1_none (hr : ¬ hasR c) : ∀ r, (haloRd (F := F) m).duties (rcv1Cell c) r = ∅ := fun r => by
  rcases r with _ | r
  · rw [duties_zero, dutiesOf_rcv1, if_neg hr]
  · exact duties_later m _ _ (by omega)
omit [FloatOps F] in
theorem duties_snd1_none (hl : ¬ hasL c) : ∀ r, (haloRd (F := F) m).duties (snd1Cell c) r = ∅ := fun r => by
  rcases r with _ | r
  · rw [duties_zero, dutiesOf_snd1, if_neg hl]
  · exact duties_later m _ _ (by omega)
omit [FloatOps F] in
theorem duties_rcv0_none (hl : ¬ hasL c) : ∀ r, (haloRd (F := F) m).duties (rcv0Cell c) r = ∅ := fun r => by
  rcases r with _ | r
  · rw [duties_zero, dutiesOf_rcv0, if_neg hl]
  · exact duties_later m _ _ (by omega)

omit [FloatOps F] in
theorem amount_bar (d : Bool) : (haloRd (F := F) m).amount (barCell c) 0 d = 1 := by dsimp only [haloRd]; exact if_pos rfl
omit [FloatOps F] in
theorem amount_snd0 (d : Bool) : (haloRd (F := F) m).amount (snd0Cell c) 0 d = N := by dsimp only [haloRd]; exact if_neg snd0_ne_bar
omit [FloatOps F] in
theorem amount_snd1 (d : Bool) : (haloRd (F := F) m).amount (snd1Cell c) 0 d = N := by dsimp only [haloRd]; exact if_neg snd1_ne_bar
omit [FloatOps F] in
theorem amount_rcv0 (d : Bool) : (haloRd (F := F) m).amount (rcv0Cell c) 0 d = N := by dsimp only [haloRd]; exact if_neg rcv0_ne_bar
omit [FloatOps F] in
theorem amount_rcv1 (d : Bool) : (haloRd (F := F) m).amount (rcv1Cell c) 0 d = N := by dsimp only [haloRd]; exact if_neg rcv1_ne_bar

omit [FloatOps F] in
theorem expect_bar_both (hl : hasL c) (hr : hasR c) : (haloRd (F := F) m).expect (barCell c) 0 = 2 := by
  unfold Schedule.expect Schedule.amountOf
  rw [duties_bar_both m c hl hr, Finset.sum_congr rfl fun d _ => amount_bar m c d, Finset.sum_const, Finset.card_univ, Fintype.card_bool, smul_eq_mul]
omit [FloatOps F] in
theorem expect_bar_first (hl : ¬ hasL c) (hr : hasR c) : (haloRd (F := F) m).expect (barCell c) 0 = 1 := by
  unfold Schedule.expect Schedule.amountOf; rw [duties_bar_first m c hl hr, Finset.sum_singleton, amount_bar]
omit [FloatOps F] in
theorem expect_bar_last (hl : hasL c) (hr : ¬ hasR c) : (haloRd (F := F) m).expect (barCell c) 0 = 1 := by
  unfold Schedule.expect Schedule.amountOf; rw [duties_bar_last m c hl hr, Finset.sum_singleton, amount_bar]
omit [FloatOps F] in
theorem expect_snd0 (hr : hasR c) : (haloRd (F := F) m).expect (snd0Cell c) 0 = N := by
  unfold Schedule.expect Schedule.amountOf; rw [duties_snd0 m c hr, Finset.sum_singleton, amount_snd0]
omit [FloatOps F] in
theorem expect_snd1 (hl : hasL c) : (haloRd (F := F) m).expect (snd1Cell c) 0 = N := by
  unfold Schedule.expect Schedule.amountOf; rw [duties_snd1 m c hl, Finset.sum_singleton, amount_snd1]
omit [FloatOps F] in
theorem expect_rcv0 (hl : hasL c) : (haloRd (F := F) m).expect (rcv0Cell c) 0 = N := by
  unfold Schedule.expect Schedule.amountOf; rw [duties_rcv0 m c hl, Finset.sum_singleton, amount_rcv0]
omit [FloatOps F] in
theorem expect_rcv1 (hr : hasR c) : (haloRd (F := F) m).expect (rcv1Cell c) 0 = N := by
  unfold Schedule.expect Schedule.amountOf; rw [duties_rcv1 m c hr, Finset.sum_singleton, amount_rcv1]

omit [FloatOps F] in
theorem payload_bar_true : (haloRd (F := F) m).payload (barCell c) 0 true = barPayR c := by dsimp only [haloRd]; rw [if_pos rfl, if_pos rfl]
omit [FloatOps F] in
theorem payload_bar_false : (haloRd (F := F) m).payload (barCell c) 0 false = barPayL c := by
  dsimp only [haloRd]; rw [if_pos rfl]; exact if_neg Bool.false_ne_true
omit [FloatOps F] in
theorem payload_snd0 (d : Bool) : (haloRd (F := F) m).payload (snd0Cell c) 0 d = snd0Pay m c := by
  dsimp only [haloRd]; rw [if_neg snd0_ne_bar, if_pos rfl]
omit [FloatOps F] in
theorem payload_snd1 (d : Bool) : (haloRd (F := F) m).payload (snd1Cell c) 0 d = snd1Pay m c := by
  dsimp only [haloRd]; rw [if_neg snd1_ne_bar, if_neg snd1_ne_snd0, if_pos rfl]
omit [FloatOps F] in
theorem payload_rcv0 (d : Bool) : (haloRd (F := F) m).payload (rcv0Cell c) 0 d = rcv0Pay m c := by
  dsimp only [haloRd]; rw [if_neg rcv0_ne_bar, if_neg rcv0_ne_snd0, if_neg rcv0_ne_snd1, if_pos rfl]
omit [FloatOps F] in
theorem payload_rcv1 (d : Bool) : (haloRd (F := F) m).payload (rcv1Cell c) 0 d = rcv1Pay m c := by
  dsimp only [haloRd]; rw [if_neg rcv1_ne_bar, if_neg rcv1_ne_snd0, if_neg rcv1_ne_snd1, if_neg rcv1_ne_rcv0, if_pos rfl]

end Tables

/-! ## What each device owes at launch; the levels -/

/-- Device `c` owes the receive cell on each neighbour's halo row one row's credit, and each neighbour's barrier cell one unit. -/
def O₀ (c : Dev nD) : CellTallies nD τ sig Unit :=
  (if hasR c then tallyAt (rcv0Cell (rgt c)) () N else 0) + (if hasL c then tallyAt (rcv1Cell (lft c)) () N else 0)
    + (if hasR c then tallyAt (barCell (rgt c)) () 1 else 0) + (if hasL c then tallyAt (barCell (lft c)) () 1 else 0)

def L (g : GSem nD τ sig) : Finset Unit := if g.1.2 = .tc then {()} else ∅
/-- Barrier cells by position, receive cells above them all, everything else (staging, send) at 0. -/
def lv (g : GSem nD τ sig) (_ : Unit) : ℕ :=
  if g.2 = .reg barS then g.1.1.val + 1 else if g.2 = .dma rcv0S ∨ g.2 = .dma rcv1S then 100 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = c.val + 1 := if_pos rfl
theorem lv_rcv0 (c : Dev nD) : lv (rcv0Cell c) () = 100 := by unfold lv; rw [if_neg rcv0_ne_bar, if_pos (.inl rfl)]
theorem lv_rcv1 (c : Dev nD) : lv (rcv1Cell c) () = 100 := by unfold lv; rw [if_neg rcv1_ne_bar, if_pos (.inr rfl)]

end Cert.Kernel.Halo

end
-- ==== Proof.Bits.Data.lean ====
/-
  The proof data of the one launch: what each output buffer holds after the body, the resources a device's body starts
  from and ends with, and the evidence that each of its waits sits below everything it still owes.

  The result block is named as the body writes it: the stencil of the device's own block stored whole, then its first
  row overwritten — with the sum that takes in the halo's first row when there is a device before, with the block's
  own first row when there is none — and its last row likewise from the halo's second row.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.Sched
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The result block -/

/-- The two halo rows as the body loads them. -/
def halo0 (c : Dev nD) : Vec F S1x512 .f32 := (hM : Memref sig .tc .vmem S2x512 .f32).view.readAt (Elt F) rH0.toLoadRect (haloVal m c)
def halo1 (c : Dev nD) : Vec F S1x512 .f32 := (hM : Memref sig .tc .vmem S2x512 .f32).view.readAt (Elt F) rH1.toLoadRect (haloVal m c)

/-- The stencil of the device's own block, its first and last rows still to be corrected. -/
def outBase (c : Dev nD) : (cc0_stg1_0 : Ref sig .tc).ty.Contents (Elt F) :=
  k0_pay1 (k0_pay7 (xstg m c)) (k0_pay8 (xstg m c)) k0_pay9
/-- The corrected first row and last row. -/
def outRow0 (c : Dev nD) : FVec F S1x512 .f32 :=
  if hasL c then k0_pay2 (k0_pay6 (xstg m c)) (halo0 m c) else k0_pay3 (k0_pay6 (xstg m c))
def outRow511 (c : Dev nD) : FVec F S1x512 .f32 :=
  if hasR c then k0_pay4 (k0_pay6 (xstg m c)) (halo1 m c) else k0_pay5 (k0_pay6 (xstg m c))
/-- The result block: the base with both rows written over it, in the body's order. -/
def outAt (c : Dev nD) : (cc0_stg1_0 : Ref sig .tc).ty.Contents (Elt F) :=
  ((oM : Memref sig .tc .vmem S512x512 .f32).access rX511 : View sig .tc _ _ _).write (Elt F)
    (((oM : Memref sig .tc .vmem S512x512 .f32).access rX0 : View sig .tc _ _ _).write (Elt F) (outBase m c) (outRow0 m c) Finset.univ)
    (outRow511 m c) Finset.univ

/-! ## What a device's body starts from -/

/-- The invariants of the cells device `c`'s body opens, under the names `K` they were allocated at: its own five, both
    neighbours' barrier cells (its signals) and the receive cells its two copies credit. -/
def invs (K : Dev nD × Fin 5 → ℕ) (c : Dev nD) : sProp 𝕄 :=
  iprop(cellInv ER (haloRd m) (K (c, 0)) (barCell c) ∗ cellInv ER (haloRd m) (K (c, 1)) (snd0Cell c) ∗ cellInv ER (haloRd m) (K (c, 2)) (snd1Cell c)
    ∗ cellInv ER (haloRd m) (K (c, 3)) (rcv0Cell c) ∗ cellInv ER (haloRd m) (K (c, 4)) (rcv1Cell c)
    ∗ cellInv ER (haloRd m) (K (lft c, 0)) (barCell (lft c)) ∗ cellInv ER (haloRd m) (K (rgt c, 0)) (barCell (rgt c))
    ∗ cellInv ER (haloRd m) (K (rgt c, 3)) (rcv0Cell (rgt c)) ∗ cellInv ER (haloRd m) (K (lft c, 4)) (rcv1Cell (lft c)))

instance invs_persistent (K : Dev nD × Fin 5 → ℕ) (c : Dev nD) : BI.Persistent (invs m K c) := by unfold invs; infer_instance

/-- That round 0 is open: of the cells device `c` pays and of its own send cells. -/
def opened (c : Dev nD) : sProp 𝕄 :=
  iprop(reached ER (barCell (lft c)) 0 ∗ reached ER (barCell (rgt c)) 0 ∗ reached ER (rcv0Cell (rgt c)) 0 ∗ reached ER (rcv1Cell (lft c)) 0
    ∗ reached ER (snd0Cell c) 0 ∗ reached ER (snd1Cell c) 0)

instance opened_persistent (c : Dev nD) : BI.Persistent (opened (F := F) c) := by unfold opened; infer_instance

/-- Device `c`'s positions on its five cells, none opened yet. -/
def posns (c : Dev nD) : sProp 𝕄 :=
  iprop(atPos ER (barCell c) 0 ∅ 0 ∗ atPos ER (snd0Cell c) 0 ∅ 0 ∗ atPos ER (snd1Cell c) 0 ∅ 0 ∗ atPos ER (rcv0Cell c) 0 ∅ 0 ∗ atPos ER (rcv1Cell c) 0 ∅ 0)

/-- The tokens of the duties device `c` pays: on the barrier cell before it the duty of "the device after", on the
    barrier cell after it the duty of "the device before", the landing duties of its two copies, its two send duties.
    (A device at an end of the line holds two tokens of duties that do not exist and never uses them.) -/
def payToks (c : Dev nD) : sProp 𝕄 :=
  iprop(dutyTok ER (barCell (lft c)) 0 true ∗ dutyTok ER (barCell (rgt c)) 0 false ∗ dutyTok ER (rcv0Cell (rgt c)) 0 false ∗ dutyTok ER (rcv1Cell (lft c)) 0 false
    ∗ dutyTok ER (snd0Cell c) 0 false ∗ dutyTok ER (snd1Cell c) 0 false)

def ghost (K : Dev nD × Fin 5 → ℕ) (c : Dev nD) : sProp 𝕄 := iprop(invs m K c ∗ opened c ∗ posns c ∗ payToks c)

/-- What the neighbours owe device `c`'s cells: a row's credit on each receive cell, a unit each on its barrier cell. -/
def T₀ (c : Dev nD) : CellTallies nD τ sig Unit :=
  (if hasL c then tallyAt (rcv0Cell c) () N else 0) + (if hasR c then tallyAt (rcv1Cell c) () N else 0)
    + (if hasL c then tallyAt (barCell c) () 1 else 0) + (if hasR c then tallyAt (barCell c) () 1 else 0)

/-- What device `c`'s body starts from: its ghost state at some names, the credit for its own waits, the level facts. -/
def start (c : Dev nD) : sProp 𝕄 := iprop((∃ K, ghost m K c) ∗ cred (T₀ c) ∗ levAts L lv)

/-- The halo buffer whole, at some contents. -/
def scrSome (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ scrSome c)
/-- After the point: the halo buffer back whole, the four own cells closed at zero. -/
def Φ₁ (c : Dev nD) : sProp 𝕄 :=
  iprop(scrSome c ∗ semVal (snd0Cell c) 0 ∗ semVal (snd1Cell c) 0 ∗ semVal (rcv0Cell c) 0 ∗ semVal (rcv1Cell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## A wait below what is owed -/

omit [FloatOps F] in
/-- Device `c` may wait on its semaphore `sm` while owing `O`, when the semaphore's level is at most `b` and every cell
    `O` charges is a TensorCore's, strictly above `b`. -/
theorem mayWait_cut (c : Dev nD) (sm : SemLoc sig) (b : ℕ) (hb : lv ((c : Thread nD τ), sm) () ≤ b) (O : CellTallies nD τ sig Unit)
    (hO : ∀ (g : GSem nD τ sig) (u : Unit), 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

end Cert.Kernel.Halo

end
-- ==== Proof.Bits.Landing.lean ====
/-
  Where the rows of the halo exchange sit and what they hold, for every float instance: a copy of a block's boundary row
  lands in the neighbour's halo buffer as the row the neighbour's halo is named to hold; a load of a halo row reads the
  neighbour's boundary row; the two halo rows split the halo buffer, so holding the buffer whole is holding both rows;
  the block held whole is its left half whole together with the right half of its first row, of its last row and of
  the rows between; and the device's block, as its staging buffer holds it, is its array (the window is the whole array).
-/
import proofs.«900820_g7700000000000821_dist_halo_stencil_i_m512_n512_v7x_i32_bf16_1_alg».proof.Proof.Bits.Data
import Idealize.ShloMosaic.Lib.Pipeline.Value

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The device's block as its staging buffer holds it is its array: the window is the whole array. -/
theorem xstg_eq (c : Dev nD) : xstg m c = m ((c : Thread nD τ).loc main_arg0) := by
  unfold xstg
  exact Memref.read_access_unit_zero (Elt F) main_arg0 (by funext a; exact Nat.zero_mul _) _ _

/-! ## Where the four rows sit -/

/-- The block's last row, as a one-row memref, sits at row 511 of the block; -/
theorem x511M_emb (l : Fin 512) :
    (x511M : Memref sig .tc .vmem S1x512 .f32).view.emb (ValueIdx.ix2 (0 : Fin 1) l) = ValueIdx.ix2 (511 : Fin 512) l :=
  Shape.idx_ext₂ rfl (by show 0 + 1 * l.val = l.val; omega)

/-- its first row at row 0; -/
theorem x0M_emb (l : Fin 512) :
    (x0M : Memref sig .tc .vmem S1x512 .f32).view.emb (ValueIdx.ix2 (0 : Fin 1) l) = ValueIdx.ix2 (0 : Fin 512) l :=
  Shape.idx_ext₂ rfl (by show 0 + 1 * l.val = l.val; omega)

/-- the halo's first row at row 0 of the halo buffer, its second row at row 1. -/
theorem h0M_emb (l : Fin 512) :
    (h0M : Memref sig .tc .vmem S1x512 .f32).view.emb (ValueIdx.ix2 (0 : Fin 1) l) = ValueIdx.ix2 (0 : Fin 2) l :=
  Shape.idx_ext₂ rfl (by show 0 + 1 * l.val = l.val; omega)

theorem h1M_emb (l : Fin 512) :
    (h1M : Memref sig .tc .vmem S1x512 .f32).view.emb (ValueIdx.ix2 (0 : Fin 1) l) = ValueIdx.ix2 (1 : Fin 2) l :=
  Shape.idx_ext₂ rfl (by show 0 + 1 * l.val = l.val; omega)

/-! ## What the halo is named to hold, row by row -/

/-- Row 0 of the halo's named contents is the last row of the block before; -/
theorem haloVal_row0 (c : Dev nD) (l : Fin 512) :
    haloVal m c (ValueIdx.ix2 (0 : Fin 2) l) = xstg m (lft c) (ValueIdx.ix2 (511 : Fin 512) l) := by
  unfold haloVal
  exact if_pos rfl

/-- row 1 the first row of the block after. -/
theorem haloVal_row1 (c : Dev nD) (l : Fin 512) :
    haloVal m c (ValueIdx.ix2 (1 : Fin 2) l) = xstg m (rgt c) (ValueIdx.ix2 (0 : Fin 512) l) := by
  unfold haloVal
  exact if_neg (show ¬ (1 : Fin 2).val = 0 by decide)

/-! ## Loads of the halo rows -/

/-- The load of the halo's first row reads the last row of the block before; -/
theorem halo0_apply (c : Dev nD) (l : Fin 512) :
    halo0 m c (ValueIdx.ix2 (0 : Fin 1) l) = xstg m (lft c) (ValueIdx.ix2 (511 : Fin 512) l) := by
  unfold halo0
  rw [View.readAt_apply, View.read_apply]
  refine (cast_eq _ _).trans ?_
  refine Eq.trans (congrArg (haloVal m c) ?_) (haloVal_row0 m c l)
  exact Shape.idx_ext₂ rfl (by show 0 + 1 * l.val = l.val; omega)

/-- the load of its second row the first row of the block after. -/
theorem halo1_apply (c : Dev nD) (l : Fin 512) :
    halo1 m c (ValueIdx.ix2 (0 : Fin 1) l) = xstg m (rgt c) (ValueIdx.ix2 (0 : Fin 512) l) := by
  unfold halo1
  rw [View.readAt_apply, View.read_apply]
  refine (cast_eq _ _).trans ?_
  refine Eq.trans (congrArg (haloVal m c) ?_) (haloVal_row1 m c l)
  exact Shape.idx_ext₂ rfl (by show 0 + 1 * l.val = l.val; omega)

/-! ## Landings -/

/-- The copy of device `c`'s last row lands as row 0 of the halo of the device after `c`: what that halo is named to
    hold there, the last row of the block before it, which is `c`'s. -/
theorem landR_eq (c : Dev nD) (fd : Buf (Elt F) ((h0M : Memref sig .tc .vmem S1x512 .f32).view.loc (rgt c : Thread nD τ))) :
    ∀ i ∈ (h0M : Memref sig .tc .vmem S1x512 .f32).view.set,
      (h0M : Memref sig .tc .vmem S1x512 .f32).view.write (Elt F) fd
        ((x511M : Memref sig .tc .vmem S1x512 .f32).view.read (Elt F) (xstg m c)) Finset.univ i = haloVal m (rgt c) i := by
  intro i hi
  obtain ⟨y, rfl⟩ := View.exists_emb_of_mem_set _ hi
  obtain ⟨a, l, rfl⟩ : ∃ (a : Fin 1) (l : Fin 512), y = ValueIdx.ix2 a l := ⟨y 0, y 1, ValueIdx.eq_ix2 y⟩
  obtain rfl : a = 0 := Subsingleton.elim _ _
  rw [View.write_emb_of_mem _ _ (Finset.mem_univ _), View.read_apply, x511M_emb, h0M_emb, haloVal_row0, lft_rgt]
  exact (cast_eq _ _).trans (cast_eq _ _)

/-- The copy of device `c`'s first row lands as row 1 of the halo of the device before `c`. -/
theorem landL_eq (c : Dev nD) (fd : Buf (Elt F) ((h1M : Memref sig .tc .vmem S1x512 .f32).view.loc (lft c : Thread nD τ))) :
    ∀ i ∈ (h1M : Memref sig .tc .vmem S1x512 .f32).view.set,
      (h1M : Memref sig .tc .vmem S1x512 .f32).view.write (Elt F) fd
        ((x0M : Memref sig .tc .vmem S1x512 .f32).view.read (Elt F) (xstg m c)) Finset.univ i = haloVal m (lft c) i := by
  intro i hi
  obtain ⟨y, rfl⟩ := View.exists_emb_of_mem_set _ hi
  obtain ⟨a, l, rfl⟩ : ∃ (a : Fin 1) (l : Fin 512), y = ValueIdx.ix2 a l := ⟨y 0, y 1, ValueIdx.eq_ix2 y⟩
  obtain rfl : a = 0 := Subsingleton.elim _ _
  rw [View.write_emb_of_mem _ _ (Finset.mem_univ _), View.read_apply, x0M_emb, h1M_emb, haloVal_row1, rgt_lft]
  exact (cast_eq _ _).trans (cast_eq _ _)

/-! ## The halo's two rows split it -/

theorem h0M_set : (h0M : Memref sig .tc .vmem S1x512 .f32).view.set = rH0.set := View.set_slice_whole _ _
theorem h1M_set : (h1M : Memref sig .tc .vmem S1x512 .f32).view.set = rH1.set := View.set_slice_whole _ _

/-- Every element of the halo buffer is in its first or its second row; -/
theorem halo_rows_cover :
    (h0M : Memref sig .tc .vmem S1x512 .f32).view.set ∪ (h1M : Memref sig .tc .vmem S1x512 .f32).view.set = Finset.univ := by
  rw [h0M_set, h1M_set]
  ext i
  simp only [Finset.mem_union, Finset.mem_univ, iff_true, Rect.mem_set_unit]
  have h0 : (i 0).val < 2 := (i 0).isLt
  have h1 : (i 1).val < 512 := (i 1).isLt
  by_cases h : (i 0).val = 0
  · exact Or.inl (Fin.forall_fin_two.mpr ⟨⟨Nat.zero_le _, by show (i 0).val < 0 + 1; omega⟩,
      ⟨Nat.zero_le _, by show (i 1).val < 0 + 512; omega⟩⟩)
  · exact Or.inr (Fin.forall_fin_two.mpr ⟨⟨by show 1 ≤ (i 0).val; omega, by show (i 0).val < 1 + 1; omega⟩,
      ⟨Nat.zero_le _, by show (i 1).val < 0 + 512; omega⟩⟩)

/-- and in one of them only. -/
theorem halo_rows_disjoint :
    Disjoint (h0M : Memref sig .tc .vmem S1x512 .f32).view.set (h1M : Memref sig .tc .vmem S1x512 .f32).view.set := by
  rw [h0M_set, h1M_set]
  exact Rect.unit_disjoint 0 (Or.inl (by decide))

/-! ## The result block's two row stores, read at an index -/

/-- A store of a row over the result block's last row leaves, at row 511, the stored row's entry; -/
theorem write_row511_at (f : (cc0_stg1_0 : Ref sig .tc).ty.Contents (Elt F)) (w : FVec F S1x512 .f32) (l : Fin 512) :
    ((oM : Memref sig .tc .vmem S512x512 .f32).access rX511 : View sig .tc _ _ _).write (Elt F) f w Finset.univ
      (ValueIdx.ix2 (511 : Fin 512) l) = w (ValueIdx.ix2 (0 : Fin 1) l) := by
  have e : ((oM : Memref sig .tc .vmem S512x512 .f32).access rX511 : View sig .tc _ _ _).emb (ValueIdx.ix2 (0 : Fin 1) l)
      = ValueIdx.ix2 (511 : Fin 512) l := Shape.idx_ext₂ rfl (by show 0 + 1 * l.val = l.val; omega)
  rw [← e, View.write_emb_of_mem _ _ (Finset.mem_univ _)]
  exact cast_eq _ _

/-- at every other row, what was there. -/
theorem write_row511_off (f : (cc0_stg1_0 : Ref sig .tc).ty.Contents (Elt F)) (w : FVec F S1x512 .f32) (r l : Fin 512)
    (h : r.val ≠ 511) :
    ((oM : Memref sig .tc .vmem S512x512 .f32).access rX511 : View sig .tc _ _ _).write (Elt F) f w Finset.univ
      (ValueIdx.ix2 r l) = f (ValueIdx.ix2 r l) :=
by
  refine View.write_of_not_mem (Val := Elt F) (v := ((oM : Memref sig .tc .vmem S512x512 .f32).access rX511 : View sig .tc _ _ _))
    f w Finset.univ ?_
  intro hm
  have hs : ((oM : Memref sig .tc .vmem S512x512 .f32).access rX511 : View sig .tc _ _ _).set = rX511.set :=
    View.set_slice_whole _ _
  rw [View.setOn_univ, hs, Rect.mem_set_unit] at hm
  have h1 : 511 ≤ r.val := (hm 0).1
  have h2 := r.isLt
  omega

/-- A store of a row over the result block's first row leaves, at row 0, the stored row's entry; -/
theorem write_row0_at (f : (cc0_stg1_0 : Ref sig .tc).ty.Contents (Elt F)) (w : FVec F S1x512 .f32) (l : Fin 512) :
    ((oM : Memref sig .tc .vmem S512x512 .f32).access rX0 : View sig .tc _ _ _).write (Elt F) f w Finset.univ
      (ValueIdx.ix2 (0 : Fin 512) l) = w (ValueIdx.ix2 (0 : Fin 1) l) := by
  have e : ((oM : Memref sig .tc .vmem S512x512 .f32).access rX0 : View sig .tc _ _ _).emb (ValueIdx.ix2 (0 : Fin 1) l)
      = ValueIdx.ix2 (0 : Fin 512) l := Shape.idx_ext₂ rfl (by show 0 + 1 * l.val = l.val; omega)
  rw [← e, View.write_emb_of_mem _ _ (Finset.mem_univ _)]
  exact cast_eq _ _

/-- at every other row, what was there. -/
theorem write_row0_off (f : (cc0_stg1_0 : Ref sig .tc).ty.Contents (Elt F)) (w : FVec F S1x512 .f32) (r l : Fin 512)
    (h : r.val ≠ 0) :
    ((oM : Memref sig .tc .vmem S512x512 .f32).access rX0 : View sig .tc _ _ _).write (Elt F) f w Finset.univ
      (ValueIdx.ix2 r l) = f (ValueIdx.ix2 r l) :=
by
  refine View.write_of_not_mem (Val := Elt F) (v := ((oM : Memref sig .tc .vmem S512x512 .f32).access rX0 : View sig .tc _ _ _))
    f w Finset.univ ?_
  intro hm
  have hs : ((oM : Memref sig .tc .vmem S512x512 .f32).access rX0 : View sig .tc _ _ _).set = rX0.set :=
    View.set_slice_whole _ _
  rw [View.setOn_univ, hs, Rect.mem_set_unit] at hm
  have h1 : r.val < 0 + 1 := (hm 0).2
  omega

/-- THE RESULT BLOCK READ ROW BY ROW: the corrected last row at row 511, the corrected first row at row 0, the
    whole-block store's value at every row between. -/
theorem outAt_last (c : Dev nD) (l : Fin 512) :
    outAt m c (ValueIdx.ix2 (511 : Fin 512) l) = outRow511 m c (ValueIdx.ix2 (0 : Fin 1) l) := by
  unfold outAt
  exact write_row511_at _ _ l

theorem outAt_first (c : Dev nD) (l : Fin 512) :
    outAt m c (ValueIdx.ix2 (0 : Fin 512) l) = outRow0 m c (ValueIdx.ix2 (0 : Fin 1) l) := by
  unfold outAt
  exact (write_row511_off _ _ 0 l (by decide)).trans (write_row0_at _ _ l)

theorem outAt_inner (c : Dev nD) (r l : Fin 512) (h0 : r.val ≠ 0) (h1 : r.val ≠ 511) :
    outAt m c (ValueIdx.ix2 r l) = outBase m c (ValueIdx.ix2 r l) := by
  unfold outAt
  exact (write_row511_off _ _ r l h1).trans (write_row0_off _ _ r l h0)

/-! ## Holding the halo buffer and the block by rows -/

theorem x0M_set : (x0M : Memref sig .tc .vmem S1x512 .f32).view.set = rX0.set := View.set_slice_whole _ _
theorem x511M_set : (x511M : Memref sig .tc .vmem S1x512 .f32).view.set = rX511.set := View.set_slice_whole _ _
theorem xM_set : (xM : Memref sig .tc .vmem S512x512 .f32).view.set = Finset.univ := View.set_whole _

/-- The block's first and last rows share no element. -/
theorem x_rows_disjoint :
    Disjoint (x0M : Memref sig .tc .vmem S1x512 .f32).view.set (x511M : Memref sig .tc .vmem S1x512 .f32).view.set := by
  rw [x0M_set, x511M_set]
  exact Rect.unit_disjoint 0 (Or.inl (by decide))

/-- The right half of the block outside its first and last rows. -/
def xRest (c : Dev nD) (f : Buf (Elt F) ((c : Thread nD τ).loc cc0_stg0_0)) : sProp 𝕄 :=
  ((c : Thread nD τ).loc cc0_stg0_0) ↦[(Finset.univ \ (x0M : Memref sig .tc .vmem S1x512 .f32).view.set)
    \ (x511M : Memref sig .tc .vmem S1x512 .f32).view.set]{fullShare.right} f

omit [FloatOps F] in
/-- The halo buffer held whole is its two rows held, -/
theorem scr_split (c : Dev nD) (f : Buf (Elt F) ((c : Thread nD τ).loc cc0_scratch0)) :
    (((c : Thread nD τ).loc cc0_scratch0) ↦{fullShare} f : sProp 𝕄)
      ⊢ iprop(((h0M : Memref sig .tc .vmem S1x512 .f32).view.loc (c : Thread nD τ) ↦[(h0M : Memref sig .tc .vmem S1x512 .f32).view.set]{fullShare} f)
        ∗ ((h1M : Memref sig .tc .vmem S1x512 .f32).view.loc (c : Thread nD τ) ↦[(h1M : Memref sig .tc .vmem S1x512 .f32).view.set]{fullShare} f)) := by
  refine (Entails.of_eq ?_).trans (pointsTo_union halo_rows_disjoint).1
  rw [halo_rows_cover]

omit [FloatOps F] in
/-- and the two rows held, at whatever each holds, are the buffer held whole at some contents. -/
theorem scr_join (c : Dev nD) (f g : Buf (Elt F) ((c : Thread nD τ).loc cc0_scratch0)) :
    iprop(((h0M : Memref sig .tc .vmem S1x512 .f32).view.loc (c : Thread nD τ) ↦[(h0M : Memref sig .tc .vmem S1x512 .f32).view.set]{fullShare} f)
        ∗ ((h1M : Memref sig .tc .vmem S1x512 .f32).view.loc (c : Thread nD τ) ↦[(h1M : Memref sig .tc .vmem S1x512 .f32).view.set]{fullShare} g))
      ⊢ (scrSome c : sProp 𝕄) := by
  refine (pointsTo_join halo_rows_disjoint).trans ?_
  rw [halo_rows_cover]
  unfold scrSome
  iintro H
  iexists _
  iexact H

omit [FloatOps F] in
/-- The block held whole is its left half whole, and the right half of its first row, of its last row and of the rest, -/
theorem x_split (c : Dev nD) (f : Buf (Elt F) ((c : Thread nD τ).loc cc0_stg0_0)) :
    (((c : Thread nD τ).loc cc0_stg0_0) ↦{fullShare} f : sProp 𝕄)
      ⊢ iprop(((xM : Memref sig .tc .vmem S512x512 .f32).view.loc (c : Thread nD τ) ↦[(xM : Memref sig .tc .vmem S512x512 .f32).view.set]{fullShare.left} f)
        ∗ ((x0M : Memref sig .tc .vmem S1x512 .f32).view.loc (c : Thread nD τ) ↦[(x0M : Memref sig .tc .vmem S1x512 .f32).view.set]{fullShare.right} f)
        ∗ ((x511M : Memref sig .tc .vmem S1x512 .f32).view.loc (c : Thread nD τ) ↦[(x511M : Memref sig .tc .vmem S1x512 .f32).view.set]{fullShare.right} f)
        ∗ xRest c f) := by
  have hsub : (x511M : Memref sig .tc .vmem S1x512 .f32).view.set ⊆ Finset.univ \ (x0M : Memref sig .tc .vmem S1x512 .f32).view.set :=
    Finset.subset_sdiff.mpr ⟨Finset.subset_univ _, x_rows_disjoint.symm⟩
  unfold xRest
  rw [xM_set]
  iintro H
  ihave H := (pointsTo_share (PosShare.mem_left_op_right fullShare)).1 $$ H
  icases H with ⟨HL, HR⟩
  ihave HR := (pointsTo_split_subset (Finset.subset_univ (x0M : Memref sig .tc .vmem S1x512 .f32).view.set)).1 $$ HR
  icases HR with ⟨H0, HR⟩
  ihave HR := (pointsTo_split_subset hsub).1 $$ HR
  icases HR with ⟨H511, HR⟩
  isplitl [HL]; · iexact HL
  isplitl [H0]; · iexact H0
  isplitl [H511]; · iexact H511
  iexact HR

omit [FloatOps F] in
/-- and back. -/
theorem x_join (c : Dev nD) (f : Buf (Elt F) ((c : Thread nD τ).loc cc0_stg0_0)) :
    iprop(((xM : Memref sig .tc .vmem S512x512 .f32).view.loc (c : Thread nD τ) ↦[(xM : Memref sig .tc .vmem S512x512 .f32).view.set]{fullShare.left} f)
        ∗ ((x0M : Memref sig .tc .vmem S1x512 .f32).view.loc (c : Thread nD τ) ↦[(x0M : Memref sig .tc .vmem S1x512 .f32).view.set]{fullShare.right} f)
        ∗ ((x511M : Memref sig .tc .vmem S1x512 .f32).view.loc (c : Thread nD τ) ↦[(x511M : Memref sig .tc .vmem S1x512 .f32).view.set]{fullShare.right} f)
        ∗ xRest c f)
      ⊢ (((c : Thread nD τ).loc cc0_stg0_0) ↦{fullShare} f : sProp 𝕄) := by
  have hsub : (x511M : Memref sig .tc .vmem S1x512 .f32).view.set ⊆ Finset.univ \ (x0M : Memref sig .tc .vmem S1x512 .f32).view.set :=
    Finset.subset_sdiff.mpr ⟨Finset.subset_univ _, x_rows_disjoint.symm⟩
  have s0 : (((c : Thread nD τ).loc cc0_stg0_0) ↦[Finset.univ]{fullShare.right} f : sProp 𝕄)
      ⊣⊢ iprop((((c : Thread nD τ).loc cc0_stg0_0) ↦[(x0M : Memref sig .tc .vmem S1x512 .f32).view.set]{fullShare.right} f)
        ∗ ((c : Thread nD τ).loc cc0_stg0_0) ↦[Finset.univ \ (x0M : Memref sig .tc .vmem S1x512 .f32).view.set]{fullShare.right} f) :=
    pointsTo_split_subset (Finset.subset_univ _)
  have s1 : (((c : Thread nD τ).loc cc0_stg0_0) ↦[Finset.univ \ (x0M : Memref sig .tc .vmem S1x512 .f32).view.set]{fullShare.right} f : sProp 𝕄)
      ⊣⊢ iprop((((c : Thread nD τ).loc cc0_stg0_0) ↦[(x511M : Memref sig .tc .vmem S1x512 .f32).view.set]{fullShare.right} f)
        ∗ ((c : Thread nD τ).loc cc0_stg0_0) ↦[(Finset.univ \ (x0M : Memref sig .tc .vmem S1x512 .f32).view.set)
          \ (x511M : Memref sig .tc .vmem S1x512 .f32).view.set]{fullShare.right} f) :=
    pointsTo_split_subset hsub
  unfold xRest
  rw [xM_set]
  iintro ⟨HL, H0, H511, HR⟩
  ihave HR := s1.2 $$ [H511 HR]
  · isplitl [H511] <;> iassumption
  ihave HR := s0.2 $$ [H0 HR]
  · isplitl [H0] <;> iassumption
  iapply (pointsTo_share (PosShare.mem_left_op_right fullShare)).2
  isplitl [HL] <;> iassumption

end Cert.Kernel.Halo

end
-- ==== Proof.Bits.BodyPrep.lean ====
/-
  What the three forms of a device's body share: the resources it starts from and ends with, the schedule's tables at the
  cells a device touches (its own five, and the four of its neighbours that it pays), the evidence for each of its
  waits, and the two copies as single steps.

  A copy lends the right half of its source row and pays two duties at once: its own send cell's (the half comes back
  when the source has been read) and the neighbour's receive cell's (what lands is the neighbour's halo row holding this
  device's boundary row, whatever the row held before).
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.Landing
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 5 → ℕ) (c : Dev nD) : sProp 𝕄 :=
  iprop((ghost m K c ∗ cred (T₀ c) ∗ levAts L lv ∗ scrSome c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- The output's staging buffer through its view. -/
theorem out_view (c : Dev nD) (f : Buf (Elt F) ((c : Thread nD τ).loc cc0_stg1_0)) :
    (((c : Thread nD τ).loc cc0_stg1_0) ↦{fullShare} f : sProp 𝕄)
      = ((oM : Memref sig .tc .vmem S512x512 .f32).view.loc (c : Thread nD τ) ↦[(oM : Memref sig .tc .vmem S512x512 .f32).view.set]{fullShare} f) := by
  rw [View.set_whole]

/-! ## The schedule's tables at the cells a device touches, payloads spelt as what they hold -/

section Pays
variable (c : Dev nD)
omit [FloatOps F] in
theorem pay_bar_lft : (haloRd (F := F) m).payload (barCell (lft c)) 0 true
    = iprop(∃ f, (h0M : Memref sig .tc .vmem S1x512 .f32).view.loc (c : Thread nD τ) ↦[(h0M : Memref sig .tc .vmem S1x512 .f32).view.set]{fullShare} f) := by
  rw [payload_bar_true]; unfold barPayR; rw [rgt_lft]
omit [FloatOps F] in
theorem pay_bar_rgt : (haloRd (F := F) m).payload (barCell (rgt c)) 0 false
    = iprop(∃ f, (h1M : Memref sig .tc .vmem S1x512 .f32).view.loc (c : Thread nD τ) ↦[(h1M : Memref sig .tc .vmem S1x512 .f32).view.set]{fullShare} f) := by
  rw [payload_bar_false]; unfold barPayL; rw [lft_rgt]
omit [FloatOps F] in
theorem pay_snd0 (d : Bool) : (haloRd (F := F) m).payload (snd0Cell c) 0 d
    = ((x511M : Memref sig .tc .vmem S1x512 .f32).view.loc (c : Thread nD τ) ↦[(x511M : Memref sig .tc .vmem S1x512 .f32).view.set]{fullShare.right} xstg m c) := payload_snd0 m c d
omit [FloatOps F] in
theorem pay_snd1 (d : Bool) : (haloRd (F := F) m).payload (snd1Cell c) 0 d
    = ((x0M : Memref sig .tc .vmem S1x512 .f32).view.loc (c : Thread nD τ) ↦[(x0M : Memref sig .tc .vmem S1x512 .f32).view.set]{fullShare.right} xstg m c) := payload_snd1 m c d
omit [FloatOps F] in
theorem pay_rcv0 (d : Bool) : (haloRd (F := F) m).payload (rcv0Cell c) 0 d
    = ((h0M : Memref sig .tc .vmem S1x512 .f32).view.loc (c : Thread nD τ) ↦[(h0M : Memref sig .tc .vmem S1x512 .f32).view.set]{fullShare} haloVal m c) := payload_rcv0 m c d
omit [FloatOps F] in
theorem pay_rcv1 (d : Bool) : (haloRd (F := F) m).payload (rcv1Cell c) 0 d
    = ((h1M : Memref sig .tc .vmem S1x512 .f32).view.loc (c : Thread nD τ) ↦[(h1M : Memref sig .tc .vmem S1x512 .f32).view.set]{fullShare} haloVal m c) := payload_rcv1 m c d
end Pays

section Members
variable (c : Dev nD)
omit [FloatOps F] in
theorem mem_bar_true (h : hasR c) : true ∈ (haloRd (F := F) m).duties (barCell c) 0 := by
  rw [duties_zero, dutiesOf_bar, if_pos h]; exact Finset.mem_union_right _ (Finset.mem_singleton_self _)
omit [FloatOps F] in
theorem mem_bar_false (h : hasL c) : false ∈ (haloRd (F := F) m).duties (barCell c) 0 := by
  rw [duties_zero, dutiesOf_bar, if_pos h]; exact Finset.mem_union_left _ (Finset.mem_singleton_self _)
omit [FloatOps F] in
theorem mem_bar_lft (hl : hasL c) : true ∈ (haloRd (F := F) m).duties (barCell (lft c)) 0 := mem_bar_true m (lft c) (hasR_lft hl)
omit [FloatOps F] in
theorem mem_bar_rgt (hr : hasR c) : false ∈ (haloRd (F := F) m).duties (barCell (rgt c)) 0 := mem_bar_false m (rgt c) (hasL_rgt hr)
omit [FloatOps F] in
theorem mem_rcv0_rgt (hr : hasR c) : false ∈ (haloRd (F := F) m).duties (rcv0Cell (rgt c)) 0 := by
  rw [duties_rcv0 m (rgt c) (hasL_rgt hr)]; exact Finset.mem_singleton_self _
omit [FloatOps F] in
theorem mem_rcv1_lft (hl : hasL c) : false ∈ (haloRd (F := F) m).duties (rcv1Cell (lft c)) 0 := by
  rw [duties_rcv1 m (lft c) (hasR_lft hl)]; exact Finset.mem_singleton_self _
omit [FloatOps F] in
theorem mem_snd0 (hr : hasR c) : false ∈ (haloRd (F := F) m).duties (snd0Cell c) 0 := by
  rw [duties_snd0 m c hr]; exact Finset.mem_singleton_self _
omit [FloatOps F] in
theorem mem_snd1 (hl : hasL c) : false ∈ (haloRd (F := F) m).duties (snd1Cell c) 0 := by
  rw [duties_snd1 m c hl]; exact Finset.mem_singleton_self _
end Members

omit [FloatOps F] in
theorem bar_sem_eq : (SemArray.scalar (sig.barrier 0 rfl) : Sems sig S_).sem = barS := rfl

attribute [sl_rounds] pay_bar_lft pay_bar_rgt amount_bar amount_snd0 amount_snd1 amount_rcv0 amount_rcv1
  pay_snd0 pay_snd1 pay_rcv0 pay_rcv1 mem_bar_lft mem_bar_rgt mem_rcv0_rgt mem_rcv1_lft mem_snd0 mem_snd1
  duties_bar_both duties_bar_first duties_bar_last duties_snd0 duties_snd1 duties_rcv0 duties_rcv1
  expect_bar_both expect_bar_first expect_bar_last expect_snd0 expect_snd1 expect_rcv0 expect_rcv1
attribute [sl_canon] dev1_eq dev2_eq dev3_eq dev4_eq bar_sem_eq

/-! ## The body's later guards -/

/-! The body's four later guards, as it computes them from the device's word: "has a device before", its negation,
    "has a device after", its negation. -/
theorem g51 (c : Dev nD) : (Scalar.cmpi .ne (Scalar.extui (Scalar.cmpi .sgt (Scalar.remsi (Scalar.divsi (Dev.word c) 1#32) 32#32) 0#32)) 0#32 = 1#1) = hasL c := by
  revert c; decide +kernel
theorem g54 (c : Dev nD) : (Scalar.cmpi .ne (Scalar.extui (Scalar.xori (Scalar.cmpi .sgt (Scalar.remsi (Scalar.divsi (Dev.word c) 1#32) 32#32) 0#32) 1#1)) 0#32 = 1#1) = ¬ hasL c := by
  revert c; decide +kernel
theorem g56 (c : Dev nD) : (Scalar.cmpi .ne (Scalar.extui (Scalar.cmpi .slt (Scalar.remsi (Scalar.divsi (Dev.word c) 1#32) 32#32) 31#32)) 0#32 = 1#1) = hasR c := by
  revert c; decide +kernel
theorem g59 (c : Dev nD) : (Scalar.cmpi .ne (Scalar.extui (Scalar.xori (Scalar.cmpi .slt (Scalar.remsi (Scalar.divsi (Dev.word c) 1#32) 32#32) 31#32) 1#1)) 0#32 = 1#1) = ¬ hasR c := by
  revert c; decide +kernel

/-! ## Which cells a sum of tallies charges; a wait below them -/

omit [FloatOps F] in
theorem pos1 {g₁ g : GSem nD τ sig} {n₁ : ℕ} {u : Unit}
    (h : 0 < (tallyAt g₁ () n₁ : CellTallies nD τ sig Unit) g u) : g = g₁ := by
  rw [tallyAt_apply] at h
  by_contra hn
  rw [if_neg (fun h' => hn h'.1)] at h
  exact Nat.lt_irrefl 0 h
omit [FloatOps F] in
theorem pos2 {g₁ g₂ g : GSem nD τ sig} {n₁ n₂ : ℕ} {u : Unit}
    (h : 0 < (tallyAt g₁ () n₁ + tallyAt g₂ () n₂ : CellTallies nD τ sig Unit) g u) : g = g₁ ∨ g = g₂ := by
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h
omit [FloatOps F] in
theorem pos3 {g₁ g₂ g₃ g : GSem nD τ sig} {n₁ n₂ n₃ : ℕ} {u : Unit}
    (h : 0 < (tallyAt g₁ () n₁ + tallyAt g₂ () n₂ + tallyAt g₃ () n₃ : CellTallies nD τ sig Unit) g u) : g = g₁ ∨ g = g₂ ∨ g = g₃ := by
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem bar_lt_rcv (c : Dev nD) : c.val + 1 < 100 := by have := c.isLt; simp only [nD] at this; omega

omit [FloatOps F] in
/-- A middle device's first barrier wait: it still owes both landings and the barrier cell after it. -/
theorem mayWait_bar3 (c : Dev nD) (hr : hasR c) :
    (levAts L lv : sProp 𝕄) ⊢ MayWait (c : Thread nD τ) (.reg barS) ()
      (tallyAt (rcv0Cell (rgt c)) () N + tallyAt (rcv1Cell (lft c)) () N + tallyAt (barCell (rgt c)) () 1) :=
  mayWait_cut c (.reg barS) (c.val + 1) (le_of_eq (lv_bar c)) _ fun g u hg => by
    rcases pos3 hg with rfl | rfl | rfl
    · exact ⟨rfl, by rw [lv_rcv0]; exact bar_lt_rcv c⟩
    · exact ⟨rfl, by rw [lv_rcv1]; exact bar_lt_rcv c⟩
    · exact ⟨rfl, by rw [lv_bar, rgt_val hr]; omega⟩
omit [FloatOps F] in
/-- A barrier wait owing both landings; the landing after only; the landing before only. -/
theorem mayWait_bar2 (c : Dev nD) :
    (levAts L lv : sProp 𝕄) ⊢ MayWait (c : Thread nD τ) (.reg barS) () (tallyAt (rcv0Cell (rgt c)) () N + tallyAt (rcv1Cell (lft c)) () N) :=
  mayWait_cut c (.reg barS) (c.val + 1) (le_of_eq (lv_bar c)) _ fun g u hg => by
    rcases pos2 hg with rfl | rfl
    · exact ⟨rfl, by rw [lv_rcv0]; exact bar_lt_rcv c⟩
    · exact ⟨rfl, by rw [lv_rcv1]; exact bar_lt_rcv c⟩
omit [FloatOps F] in
theorem mayWait_barR (c : Dev nD) :
    (levAts L lv : sProp 𝕄) ⊢ MayWait (c : Thread nD τ) (.reg barS) () (tallyAt (rcv0Cell (rgt c)) () N) :=
  mayWait_cut c (.reg barS) (c.val + 1) (le_of_eq (lv_bar c)) _ fun g u hg => by
    rw [pos1 hg]; exact ⟨rfl, by rw [lv_rcv0]; exact bar_lt_rcv c⟩
omit [FloatOps F] in
theorem mayWait_barL (c : Dev nD) :
    (levAts L lv : sProp 𝕄) ⊢ MayWait (c : Thread nD τ) (.reg barS) () (tallyAt (rcv1Cell (lft c)) () N) :=
  mayWait_cut c (.reg barS) (c.val + 1) (le_of_eq (lv_bar c)) _ fun g u hg => by
    rw [pos1 hg]; exact ⟨rfl, by rw [lv_rcv1]; exact bar_lt_rcv c⟩

/-! ## The two copies -/

variable (K : Dev nD × Fin 5 → ℕ)

/-- The copy of the last row to the device after, addressed to `n = rgt c` (substituted, not rewritten). -/
theorem wp_sendR (c n : Dev nD) (hn : n = rgt c) (hr : hasR c)
    {hsc : (h0M : Memref sig (Dev.tc n : Thread nD τ).2.kind .vmem S1x512 .f32).view.ref.isScScratch = false}
    {hsrc : (x511M : Memref sig .tc .vmem S1x512 .f32).view.WordExact} {hdst : (h0M : Memref sig .tc .vmem S1x512 .f32).view.WordExact}
    {hsem : DmaTarget.Typed .vmem (.dma rcv0S) (.remote (Dev.tc n : Thread nD τ) (h0M : Memref sig .tc .vmem S1x512 .f32) (.dma snd0S) hsc)}
    {α : Type} {Q : α → sProp 𝕄} {k : PUnit → Prog (TpuEff nD τ sig (Elt F) Λ₀ .tc) α}
    (fn : Buf (Elt F) ((h0M : Memref sig .tc .vmem S1x512 .f32).view.loc (rgt c : Thread nD τ)))
    (O₁ O : CellTallies nD τ sig Unit) (hO : O₁ = O + tallyAt (rcv0Cell (rgt c)) () N) (W : Waits sig Unit) :
    iprop(cellInv ER (haloRd m) (K (c, 1)) (snd0Cell c) ∗ cellInv ER (haloRd m) (K (rgt c, 3)) (rcv0Cell (rgt c))
        ∗ ((x511M : Memref sig .tc .vmem S1x512 .f32).view.loc (c : Thread nD τ) ↦[(x511M : Memref sig .tc .vmem S1x512 .f32).view.set]{fullShare.right} xstg m c)
        ∗ ((h0M : Memref sig .tc .vmem S1x512 .f32).view.loc (rgt c : Thread nD τ) ↦[(h0M : Memref sig .tc .vmem S1x512 .f32).view.set]{fullShare} fn)
        ∗ owes (c : Thread nD τ) O₁ W
        ∗ dutyTok ER (snd0Cell c) 0 false ∗ reached ER (snd0Cell c) 0
        ∗ dutyTok ER (rcv0Cell (rgt c)) 0 false ∗ reached ER (rcv0Cell (rgt c)) 0)
      ⊢ iprop(((cred (tallyAt (snd0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x511M (.remote (Dev.tc n : Thread nD τ) h0M (.dma snd0S) hsc) (.dma rcv0S) hsrc hdst hsem) k) Q) := by
  subst hn
  exact Rounds.wp_send_pointsTo 𝒱₀ ER (haloRd m) (c : Thread nD τ) none (κ₁ := K (c, 1)) (κ₂ := K (rgt c, 3))
    (r₁ := 0) (r₂ := 0) (d₁ := false) (d₂ := false) (fd := fn)
    (mem_snd0 m c hr) (mem_rcv0_rgt m c hr)
    () () N rfl (amount_snd0 m c false) (amount_rcv0 m (rgt c) false) O hO (W := W)
    (by rw [pay_snd0])
    (by rw [pay_rcv0]; exact Entails.of_eq (pointsTo_congr (landR_eq m c fn)))

/-- The copy of the first row to the device before, addressed to `n = lft c`. -/
theorem wp_sendL (c n : Dev nD) (hn : n = lft c) (hl : hasL c)
    {hsc : (h1M : Memref sig (Dev.tc n : Thread nD τ).2.kind .vmem S1x512 .f32).view.ref.isScScratch = false}
    {hsrc : (x0M : Memref sig .tc .vmem S1x512 .f32).view.WordExact} {hdst : (h1M : Memref sig .tc .vmem S1x512 .f32).view.WordExact}
    {hsem : DmaTarget.Typed .vmem (.dma rcv1S) (.remote (Dev.tc n : Thread nD τ) (h1M : Memref sig .tc .vmem S1x512 .f32) (.dma snd1S) hsc)}
    {α : Type} {Q : α → sProp 𝕄} {k : PUnit → Prog (TpuEff nD τ sig (Elt F) Λ₀ .tc) α}
    (fn : Buf (Elt F) ((h1M : Memref sig .tc .vmem S1x512 .f32).view.loc (lft c : Thread nD τ)))
    (O₁ O : CellTallies nD τ sig Unit) (hO : O₁ = O + tallyAt (rcv1Cell (lft c)) () N) (W : Waits sig Unit) :
    iprop(cellInv ER (haloRd m) (K (c, 2)) (snd1Cell c) ∗ cellInv ER (haloRd m) (K (lft c, 4)) (rcv1Cell (lft c))
        ∗ ((x0M : Memref sig .tc .vmem S1x512 .f32).view.loc (c : Thread nD τ) ↦[(x0M : Memref sig .tc .vmem S1x512 .f32).view.set]{fullShare.right} xstg m c)
        ∗ ((h1M : Memref sig .tc .vmem S1x512 .f32).view.loc (lft c : Thread nD τ) ↦[(h1M : Memref sig .tc .vmem S1x512 .f32).view.set]{fullShare} fn)
        ∗ owes (c : Thread nD τ) O₁ W
        ∗ dutyTok ER (snd1Cell c) 0 false ∗ reached ER (snd1Cell c) 0
        ∗ dutyTok ER (rcv1Cell (lft c)) 0 false ∗ reached ER (rcv1Cell (lft c)) 0)
      ⊢ iprop(((cred (tallyAt (snd1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma x0M (.remote (Dev.tc n : Thread nD τ) h1M (.dma snd1S) hsc) (.dma rcv1S) hsrc hdst hsem) k) Q) := by
  subst hn
  exact Rounds.wp_send_pointsTo 𝒱₀ ER (haloRd m) (c : Thread nD τ) none (κ₁ := K (c, 2)) (κ₂ := K (lft c, 4))
    (r₁ := 0) (r₂ := 0) (d₁ := false) (d₂ := false) (fd := fn)
    (mem_snd1 m c hl) (mem_rcv1_lft m c hl)
    () () N rfl (amount_snd1 m c false) (amount_rcv1 m (lft c) false) O hO (W := W)
    (by rw [pay_snd1])
    (by rw [pay_rcv1]; exact Entails.of_eq (pointsTo_congr (landL_eq m c fn)))

end Cert.Kernel.Halo

end
-- ==== Proof.Bits.OutFinal.lean ====
/-
  What the body's stores leave in the output staging buffer. The body stores the stencil of its own block over the whole
  buffer, then its first row again, then its last row again; the buffer after the three stores, written over whatever it
  held before, is the result block as it is named: the first store covers every entry, so nothing of the earlier contents
  is left, and the two row stores are the named block's two outer writes. Three cases by the device's place on the
  line, which decides what the two row stores write. The block the body loads whole is the block the staging buffer
  holds.
-/
import proofs.«900820_g7700000000000821_dist_halo_stencil_i_m512_n512_v7x_i32_bf16_1_alg».proof.Proof.Bits.Data
import Idealize.ShloMosaic.Lib.Writes

noncomputable section

namespace Cert.Kernel.Halo

open Cert.Kernel Cert.Kernel.Gen

open Idealize.ShloMosaic
open Idealize.ShloMosaic.TcCoe
open Idealize.SL.Sem

variable {F : FTy → Type} [FloatOps F]

variable (m : (ℓ : Loc nD τ sig) → Buf (Elt F) ℓ)

/-- The offsets of a whole-buffer access are zero. -/
theorem off_zero : (![0, 0] : Fin 2 → Nat) = fun _ => 0 := by
  funext a
  match a with
  | ⟨0, _⟩ => rfl
  | ⟨1, _⟩ => rfl

/-- The load of the whole input staging buffer reads the block it holds. -/
theorem xload_eq (c : Dev nD) : ((xM : Memref sig .tc .vmem S512x512 .f32).view.readAt (Elt F) (Rect.unit (s := S512x512) ![0, 0] S512x512.size inb_S512x512_S512x512_0_0).toLoadRect (xstg m c)) = xstg m c :=
  Memref.readAt_unit_zero (Elt F) cc0_stg0_0 off_zero _ _

/-- The whole-buffer store over any earlier contents leaves its payload. -/
theorem whole_store (c : Dev nD) (g1 : Buf (Elt F) ((c : Thread nD τ).loc cc0_stg1_0)) :
    ((oM : Memref sig .tc .vmem S512x512 .f32).view.slice (Rect.unit (s := S512x512) ![0, 0] S512x512.size inb_S512x512_S512x512_0_0)).write (Elt F) g1
        (k0_pay1 (k0_pay7 (xstg m c)) (k0_pay8 (xstg m c)) k0_pay9) Finset.univ
      = k0_pay1 (k0_pay7 (xstg m c)) (k0_pay8 (xstg m c)) k0_pay9 :=
  Memref.write_access_unit_zero_univ (Elt F) cc0_stg1_0 off_zero _ g1 _

/-- A device with a neighbour on each side: both row stores take in a received row. -/
theorem out_mid (c : Dev nD) (hl : hasL c) (hr : hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay4 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![1, 0] S1x512.size inb_S2x512_S1x512_1_0).toLoadRect (haloVal m c))⟩,
       ⟨Rect.unit (s := S512x512) ![0, 0] S1x512.size inb_S512x512_S1x512_0_0, k0_pay2 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![0, 0] S1x512.size inb_S2x512_S1x512_0_0).toLoadRect (haloVal m c))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_pos hl, if_pos hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

/-- The first device on the line: its first row is copied, its last row takes in the received row. -/
theorem out_first (c : Dev nD) (hl : ¬ hasL c) (hr : hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay4 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![1, 0] S1x512.size inb_S2x512_S1x512_1_0).toLoadRect (haloVal m c))⟩,
       ⟨Rect.unit (s := S512x512) ![0, 0] S1x512.size inb_S512x512_S1x512_0_0, k0_pay3 (k0_pay6 ((xM : Memref sig .tc .vmem S512x512 .f32).view.readAt (Elt F) (Rect.unit (s := S512x512) ![0, 0] S512x512.size inb_S512x512_S512x512_0_0).toLoadRect (xstg m c)))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_neg hl, if_pos hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

/-- The last device on the line: its first row takes in the received row, its last row is copied. -/
theorem out_last (c : Dev nD) (hl : hasL c) (hr : ¬ hasR c) (g1 : Buf (Elt F) ((c : Thread nD τ).loc cc0_stg1_0)) :
    (oM : Memref sig .tc .vmem S512x512 .f32).view.writes (Elt F) g1
      [⟨Rect.unit (s := S512x512) ![511, 0] S1x512.size inb_S512x512_S1x512_511_0, k0_pay5 (k0_pay6 ((xM : Memref sig .tc .vmem S512x512 .f32).view.readAt (Elt F) (Rect.unit (s := S512x512) ![0, 0] S512x512.size inb_S512x512_S512x512_0_0).toLoadRect (xstg m c)))⟩,
       ⟨Rect.unit (s := S512x512) ![0, 0] S1x512.size inb_S512x512_S1x512_0_0, k0_pay2 (k0_pay6 ((xM : Memref sig .tc .vmem S512x512 .f32).view.readAt (Elt F) (Rect.unit (s := S512x512) ![0, 0] S512x512.size inb_S512x512_S512x512_0_0).toLoadRect (xstg m c))) ((Memref.whole cc0_scratch0 : Memref sig .tc .vmem S2x512 .f32).view.readAt (Elt F) (Rect.unit (s := S2x512) ![0, 0] S1x512.size inb_S2x512_S1x512_0_0).toLoadRect (haloVal m c))⟩,
       ⟨Rect.unit (s := S512x512) ![0, 0] S512x512.size inb_S512x512_S512x512_0_0, k0_pay1 (k0_pay7 ((xM : Memref sig .tc .vmem S512x512 .f32).view.readAt (Elt F) (Rect.unit (s := S512x512) ![0, 0] S512x512.size inb_S512x512_S512x512_0_0).toLoadRect (xstg m c))) (k0_pay8 ((xM : Memref sig .tc .vmem S512x512 .f32).view.readAt (Elt F) (Rect.unit (s := S512x512) ![0, 0] S512x512.size inb_S512x512_S512x512_0_0).toLoadRect (xstg m c))) k0_pay9⟩]
    = outAt m c := by
  rw [xload_eq m c]
  unfold outAt outRow0 outRow511 outBase halo0 halo1
  rw [if_pos hl, if_neg hr]
  exact congrArg
    (fun z : (cc0_stg1_0 : Ref sig .tc).ty.Contents (Elt F) =>
      ((oM : Memref sig .tc .vmem S512x512 .f32).access rX511 : View sig .tc _ _ _).write (Elt F)
        (((oM : Memref sig .tc .vmem S512x512 .f32).access rX0 : View sig .tc _ _ _).write (Elt F) z _ Finset.univ) _ Finset.univ)
    (whole_store m c g1)

end Cert.Kernel.Halo

end
-- ==== Proof.Bits.BodyFirst.lean ====
/-
  The body of the first device of the line, which has a device after it and none before. It signals the device after
  (giving up its second halo row) and waits for its barrier round's one unit, which brings that device's first halo row:
  the destination of its one copy, of the block's last row. The block is read whole while the copy flies and its stencil
  stored; the result's first row is the block's own first row; its last row is corrected with the halo's second row once
  the neighbour's row has landed and the lent row is back. Two of the four own cells have consumed their one round, the
  other two never had one; all four are closed, and the halo and the block are whole again.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.BodyPrep
import proofs.«900820_g7700000000000821_dist_halo_stencil_i_m512_n512_v7x_i32_bf16_1_alg».proof.Proof.Bits.OutFinal
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

/-- The first device never gives up its first halo row nor lends its block's first row: both are kept out of the way
    while the body runs, and come back unchanged. -/
def keptHalo0 (c : Dev nD) (f : Buf (Elt F) ((h0M : Memref sig .tc .vmem S1x512 .f32).view.loc (c : Thread nD τ))) : sProp 𝕄 :=
  (h0M : Memref sig .tc .vmem S1x512 .f32).view.loc (c : Thread nD τ) ↦[(h0M : Memref sig .tc .vmem S1x512 .f32).view.set]{fullShare} f
def keptX0 (c : Dev nD) (f : Buf (Elt F) ((x0M : Memref sig .tc .vmem S1x512 .f32).view.loc (c : Thread nD τ))) : sProp 𝕄 :=
  (x0M : Memref sig .tc .vmem S1x512 .f32).view.loc (c : Thread nD τ) ↦[(x0M : Memref sig .tc .vmem S1x512 .f32).view.set]{fullShare.right} f
omit [FloatOps F] in
theorem keptHalo0_eq (c : Dev nD) (f : Buf (Elt F) ((h0M : Memref sig .tc .vmem S1x512 .f32).view.loc (c : Thread nD τ))) :
    ((h0M : Memref sig .tc .vmem S1x512 .f32).view.loc (c : Thread nD τ) ↦[(h0M : Memref sig .tc .vmem S1x512 .f32).view.set]{fullShare} f : sProp 𝕄) = keptHalo0 c f := rfl
omit [FloatOps F] in
theorem keptX0_eq (c : Dev nD) (f : Buf (Elt F) ((x0M : Memref sig .tc .vmem S1x512 .f32).view.loc (c : Thread nD τ))) :
    ((x0M : Memref sig .tc .vmem S1x512 .f32).view.loc (c : Thread nD τ) ↦[(x0M : Memref sig .tc .vmem S1x512 .f32).view.set]{fullShare.right} f : sProp 𝕄) = keptX0 c f := rfl

omit [FloatOps F] in
/-- The barrier round of the first device is the one unit of the device after it: that device's first halo row. -/
theorem bar_first (c : Dev nD) (hl : ¬ hasL c) (hr : hasR c) :
    bigSep ((haloRd (F := F) m).duties (barCell c) 0 \ ∅) (fun d => (haloRd (F := F) m).payload (barCell c) 0 d) = barPayR c := by
  rw [Finset.sdiff_empty, duties_bar_first m c hl hr, bigSep_singleton, payload_bar_true]

set_option maxHeartbeats 1600000 in
/-- The body of the first device. -/
theorem sound_first (K : Dev nD × Fin 5 → ℕ) (c : Dev nD) (hl : ¬ hasL c) (hr : hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : ¬ k0_cond1 c = 1#1 := fun h => hl ((cond1_eq c).mp h)
  have h2 : k0_cond2 c = 1#1 := (cond2_eq c).mpr hr
  have h3 : k0_cond3 c = 1#1 := (cond3_eq c).mpr hr
  have h4 : ¬ k0_cond4 c = 1#1 := fun h => hl ((cond4_eq c).mp h)
  have n51 := fun h => hl ((g51 c).mp h)
  have e54 := (g54 c).mpr hl
  have e56 := (g56 c).mpr hr
  have n59 := fun h => (g59 c).mp h hr
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_neg hl, if_neg hl, if_neg hl, if_neg hl, if_pos hr, if_pos hr, if_pos hr, if_pos hr, zero_add, add_zero, add_zero, add_zero]
  -- the credit, cell by cell; the halo by rows; the block as a left half and the right half's two boundary rows
  ihave Hc := (cred_add _ _).1 $$ Hc
  icases Hc with ⟨HcR1, HcB⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  ihave Hh0 := (Entails.of_eq (keptHalo0_eq c f0)) $$ Hh0
  ihave Hx0 := (Entails.of_eq (keptX0_eq c (xstg m c))) $$ Hx0
  sl_unfold [cc0_body]
  -- the signal to the device after, which takes the second halo row
  sl_exec (disch := first | sl_exact h1 | sl_exact h2 | sl_exact h3 | sl_exact h4 | sl_exact n51 | sl_exact e54 | sl_exact e56 | sl_exact n59)
  -- the barrier wait: the round's one unit
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv0Cell (rgt c)) () N) (R := 0) (m := 0) (T := ∅)
      (by rw [expect_bar_first m c hl hr]; rfl)) $$ [HcB HO HatB]
  · isplitr; · iexact HIbar
    isplitl [HcB]; · iexact HcB
    isplitl [HO]; · iexact HO
    isplitr; · iapply (mayWait_barR c); iexact Hlev
    iexact HatB
  iintro ⟨HO, HatB, #HrB1, Hpay⟩
  -- the row of the device after is in hand: the destination of the copy
  ihave Hp := (Entails.of_eq (bar_first m c hl hr)) $$ Hpay
  unfold barPayR
  icases Hp with ⟨%fr, HR0⟩
  sl_exec (disch := first | sl_exact h1 | sl_exact h2 | sl_exact h3 | sl_exact h4 | sl_exact n51 | sl_exact e54 | sl_exact e56 | sl_exact n59)
  -- the copy of the last row to the device after
  iapply (wp_sendR m K c _ (dev3_eq c h3) hr fr _ 0 (zero_add _).symm _) $$ [Hx511 HR0 HO HtS0 HtR0R]
  · isplitr; · iexact HIs0
    isplitr; · iexact HIr0R
    isplitl [Hx511]; · iexact Hx511
    isplitl [HR0]; · iexact HR0
    isplitl [HO]; · iexact HO
    isplitl [HtS0]; · iexact HtS0
    isplitr; · iexact HrS0
    isplitl [HtR0R]; · iexact HtR0R
    iexact HrR0R
  iintro ⟨HcS0, HO⟩
  -- the block, the stencil, the first row as it is, the landing and the corrected last row
  sl_exec (disch := first | sl_exact h1 | sl_exact h2 | sl_exact h3 | sl_exact h4 | sl_exact n51 | sl_exact e54 | sl_exact e56 | sl_exact n59)
  -- two cells have consumed their one round, two never had one: close the four
  imod (Rounds.cell_close ER (haloRd m) (Set.mem_univ (K (c, 1))) (fun h => h) (R := 1) (duties_later m (snd0Cell c))) $$ [HatS0] with HzS0
  · isplitr; · iexact HIs0
    iexact HatS0
  imod (Rounds.cell_close ER (haloRd m) (Set.mem_univ (K (c, 2))) (fun h => h) (R := 0) (fun r _ => duties_snd1_none m c hl r)) $$ [HatS1] with HzS1
  · isplitr; · iexact HIs1
    iexact HatS1
  imod (Rounds.cell_close ER (haloRd m) (Set.mem_univ (K (c, 3))) (fun h => h) (R := 0) (fun r _ => duties_rcv0_none m c hl r)) $$ [HatR0] with HzR0
  · isplitr; · iexact HIr0
    iexact HatR0
  imod (Rounds.cell_close ER (haloRd m) (Set.mem_univ (K (c, 4))) (fun h => h) (R := 1) (duties_later m (rcv1Cell c))) $$ [HatR1] with HzR1
  · isplitr; · iexact HIr1
    iexact HatR1
  -- the halo whole again; the block whole again, at the full share
  ihave Hh0 := (Entails.of_eq (keptHalo0_eq c f0).symm) $$ Hh0
  ihave Hx0 := (Entails.of_eq (keptX0_eq c (xstg m c)).symm) $$ Hx0
  ihave Hscr := (scr_join c f0 (haloVal m c)) $$ [Hh0 HatR1_pay1]
  · isplitl [Hh0] <;> iassumption
  ihave Hxw := (x_join c (xstg m c)) $$ [Hx Hx0 HatS0_pay1 Hxr]
  · isplitl [Hx]; · iexact Hx
    isplitl [Hx0]; · iexact Hx0
    isplitl [HatS0_pay1]; · iexact HatS0_pay1
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_first m c hl hr g1

end Cert.Kernel.Halo

end
-- ==== Proof.Bits.BodyMid.lean ====
/-
  The body of a device with both neighbours. It signals the device before (giving up its first halo row), waits for one
  of its barrier round's two units, signals the device after (giving up its second halo row) and waits for the rest:
  only then does it hold both neighbours' rows, the destinations of its two copies. The copies lend the right half of
  the block's last and first rows; the block is read whole on the left half while they fly; the stencil of the block
  is stored; then, side by side, the landing of the neighbour's row and the return of the lent row are awaited and the
  result's first and last rows are corrected with the halo. At the end the four own cells have consumed their one round
  and are closed, and the halo and the block are whole again.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.BodyPrep
import proofs.«900820_g7700000000000821_dist_halo_stencil_i_m512_n512_v7x_i32_bf16_1_alg».proof.Proof.Bits.OutFinal
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

omit [FloatOps F] in
/-- The barrier round of a device with both neighbours, taken in two parts — whatever the first wait returned, and the
    rest — is both neighbours' halo rows. -/
theorem bar_both (c : Dev nD) (hl : hasL c) (hr : hasR c) (S : Finset Bool) (hS : S ⊆ (haloRd (F := F) m).duties (barCell c) 0) :
    iprop(bigSep (S \ ∅) (fun d => (haloRd (F := F) m).payload (barCell c) 0 d)
        ∗ bigSep ((haloRd (F := F) m).duties (barCell c) 0 \ S) (fun d => (haloRd (F := F) m).payload (barCell c) 0 d))
      = iprop(barPayL c ∗ barPayR c) := by
  have e := bigSep_sdiff_split (Φ := fun d => (haloRd (F := F) m).payload (barCell c) 0 d) hS
  have e2 : bigSep ((haloRd (F := F) m).duties (barCell c) 0) (fun d => (haloRd (F := F) m).payload (barCell c) 0 d) = iprop(barPayL c ∗ barPayR c) := by
    rw [duties_bar_both m c hl hr, bigSep_univ_eq_bigSepL [false, true] (by decide) (by decide), bigSepL_cons_cons, bigSepL_singleton,
      payload_bar_false, payload_bar_true]
    rfl
  rw [Finset.sdiff_empty]
  exact e.symm.trans e2

set_option maxHeartbeats 1600000 in
/-- The body of a device with both neighbours. -/
theorem sound_mid (K : Dev nD × Fin 5 → ℕ) (c : Dev nD) (hl : hasL c) (hr : hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : k0_cond1 c = 1#1 := (cond1_eq c).mpr hl
  have h2 : k0_cond2 c = 1#1 := (cond2_eq c).mpr hr
  have h3 : k0_cond3 c = 1#1 := (cond3_eq c).mpr hr
  have h4 : k0_cond4 c = 1#1 := (cond4_eq c).mpr hl
  have e51 := (g51 c).mpr hl
  have n54 := fun h => (g54 c).mp h hl
  have e56 := (g56 c).mpr hr
  have n59 := fun h => (g59 c).mp h hr
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_pos hl, if_pos hl, if_pos hl, if_pos hl, if_pos hr, if_pos hr, if_pos hr, if_pos hr]
  -- the credit, cell by cell; the halo by rows; the block as a left half and the right half's two boundary rows
  ihave Hc := (cred_add _ _).1 $$ Hc
  icases Hc with ⟨Hc, HcB2⟩
  ihave Hc := (cred_add _ _).1 $$ Hc
  icases Hc with ⟨Hc, HcB1⟩
  ihave Hc := (cred_add _ _).1 $$ Hc
  icases Hc with ⟨HcR0, HcR1⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  sl_unfold [cc0_body]
  -- the signal to the device before, which takes the first halo row with it
  sl_exec (disch := first | sl_exact h1 | sl_exact h2 | sl_exact h3 | sl_exact h4 | sl_exact e51 | sl_exact n54 | sl_exact e56 | sl_exact n59)
  -- the first barrier wait: one of the round's two units, from whichever neighbour
  iapply (Rounds.wp_wait 𝒱₀ ER (haloRd m) (c : Thread nD τ) none (κ := K (c, 0))
      (wpE_semWait_eq 𝒱₀ (c : Thread nD τ) none Set.univ) (Set.mem_univ _) {(SemLoc.reg barS, ())}
      (cr := Finsupp.single () 1) (R := 0) (m := 0) (T := ∅)
      (by rw [Idealize.SL.Util.total_single]; rfl) (image_single_subset _ _ _)) $$ [HcB1 HO HatB]
  · isplitr; · iexact HIbar
    isplitl [HcB1]; · iexact HcB1
    isplitl [HO]; · iexact HO
    isplitr; · iapply (mayWait_bar3 c hr); iexact Hlev
    iexact HatB
  iintro %S ⟨%hS, HO, HatB, Hpay1⟩
  -- the signal to the device after, which takes the second halo row
  sl_exec (disch := first | sl_exact h1 | sl_exact h2 | sl_exact h3 | sl_exact h4 | sl_exact e51 | sl_exact n54 | sl_exact e56 | sl_exact n59)
  -- the second barrier wait: the rest of the round
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv0Cell (rgt c)) () N + tallyAt (rcv1Cell (lft c)) () N) (R := 0) (m := 0 + (1#32).toNat) (T := S)
      (by rw [expect_bar_both m c hl hr]; rfl)) $$ [HcB2 HO HatB]
  · isplitr; · iexact HIbar
    isplitl [HcB2]; · iexact HcB2
    isplitl [HO]; · iexact HO
    isplitr; · iapply (mayWait_bar2 c); iexact Hlev
    iexact HatB
  iintro ⟨HO, HatB, #HrB1, Hpay2⟩
  -- both neighbours' rows are in hand: the destinations of the two copies
  ihave Hp := (Entails.of_eq (bar_both m c hl hr S hS.2.1)) $$ [Hpay1 Hpay2]
  · isplitl [Hpay1] <;> iassumption
  unfold barPayL barPayR
  icases Hp with ⟨⟨%fl, HL1⟩, ⟨%fr, HR0⟩⟩
  sl_exec (disch := first | sl_exact h1 | sl_exact h2 | sl_exact h3 | sl_exact h4 | sl_exact e51 | sl_exact n54 | sl_exact e56 | sl_exact n59)
  -- the copy of the last row to the device after
  iapply (wp_sendR m K c _ (dev3_eq c h3) hr fr _ (tallyAt (rcv1Cell (lft c)) () N) (add_comm _ _) _) $$ [Hx511 HR0 HO HtS0 HtR0R]
  · isplitr; · iexact HIs0
    isplitr; · iexact HIr0R
    isplitl [Hx511]; · iexact Hx511
    isplitl [HR0]; · iexact HR0
    isplitl [HO]; · iexact HO
    isplitl [HtS0]; · iexact HtS0
    isplitr; · iexact HrS0
    isplitl [HtR0R]; · iexact HtR0R
    iexact HrR0R
  iintro ⟨HcS0, HO⟩
  sl_exec (disch := first | sl_exact h1 | sl_exact h2 | sl_exact h3 | sl_exact h4 | sl_exact e51 | sl_exact n54 | sl_exact e56 | sl_exact n59)
  -- the copy of the first row to the device before
  iapply (wp_sendL m K c _ (dev4_eq c h4) hl fl _ 0 (zero_add _).symm _) $$ [Hx0 HL1 HO HtS1 HtR1L]
  · isplitr; · iexact HIs1
    isplitr; · iexact HIr1L
    isplitl [Hx0]; · iexact Hx0
    isplitl [HL1]; · iexact HL1
    isplitl [HO]; · iexact HO
    isplitl [HtS1]; · iexact HtS1
    isplitr; · iexact HrS1
    isplitl [HtR1L]; · iexact HtR1L
    iexact HrR1L
  iintro ⟨HcS1, HO⟩
  -- the block, the stencil, both landings and both corrected rows
  sl_exec (disch := first | sl_exact h1 | sl_exact h2 | sl_exact h3 | sl_exact h4 | sl_exact e51 | sl_exact n54 | sl_exact e56 | sl_exact n59)
  -- every own cell has consumed its one round: close the four
  imod (Rounds.cell_close ER (haloRd m) (Set.mem_univ (K (c, 1))) (fun h => h) (R := 1) (duties_later m (snd0Cell c))) $$ [HatS0] with HzS0
  · isplitr; · iexact HIs0
    iexact HatS0
  imod (Rounds.cell_close ER (haloRd m) (Set.mem_univ (K (c, 2))) (fun h => h) (R := 1) (duties_later m (snd1Cell c))) $$ [HatS1] with HzS1
  · isplitr; · iexact HIs1
    iexact HatS1
  imod (Rounds.cell_close ER (haloRd m) (Set.mem_univ (K (c, 3))) (fun h => h) (R := 1) (duties_later m (rcv0Cell c))) $$ [HatR0] with HzR0
  · isplitr; · iexact HIr0
    iexact HatR0
  imod (Rounds.cell_close ER (haloRd m) (Set.mem_univ (K (c, 4))) (fun h => h) (R := 1) (duties_later m (rcv1Cell c))) $$ [HatR1] with HzR1
  · isplitr; · iexact HIr1
    iexact HatR1
  -- the halo whole again; the block whole again, at the full share
  ihave Hscr := (scr_join c (haloVal m c) (haloVal m c)) $$ [HatR0_pay1 HatR1_pay1]
  · isplitl [HatR0_pay1] <;> iassumption
  ihave Hxw := (x_join c (xstg m c)) $$ [Hx HatS1_pay1 HatS0_pay1 Hxr]
  · isplitl [Hx]; · iexact Hx
    isplitl [HatS1_pay1]; · iexact HatS1_pay1
    isplitl [HatS0_pay1]; · iexact HatS0_pay1
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_mid m c hl hr g1

end Cert.Kernel.Halo

end
-- ==== Proof.Bits.BodyLast.lean ====
/-
  The body of the last device of the line: it has a device before it and none after it.

  It signals the device before it (handing over its first halo row, which that device's copy will fill), waits for that
  device's signal on its own barrier semaphore (which hands it that device's second halo row), copies its first row
  there, computes the stencil of its block, waits for the landing of the row from the device before and for its own
  copy's source to be read, and corrects its first row with the landed row; its last row is the array's last row and is
  copied.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.BodyPrep
import proofs.«900820_g7700000000000821_dist_halo_stencil_i_m512_n512_v7x_i32_bf16_1_alg».proof.Proof.Bits.OutFinal
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 1600000 in
theorem sound_last (K : Dev nD × Fin 5 → ℕ) (c : Dev nD) (hl : hasL c) (hr : ¬ hasR c) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  have h1 : k0_cond1 c = 1#1 := (cond1_eq c).mpr hl
  have h2 : ¬ k0_cond2 c = 1#1 := fun h => hr ((cond2_eq c).mp h)
  have h3 : ¬ k0_cond3 c = 1#1 := fun h => hr ((cond3_eq c).mp h)
  have h4 : k0_cond4 c = 1#1 := (cond4_eq c).mpr hl
  have e51 := (g51 c).mpr hl
  have n54 := fun h => (g54 c).mp h hl
  have n56 := fun h => hr ((g56 c).mp h)
  have e59 := (g59 c).mpr hr
  -- the barrier round of the last device has the one duty of the device before: its payload is that device's second halo row
  have hbar : bigSep ((haloRd (F := F) m).duties (barCell c) 0 \ ∅) (fun d => (haloRd (F := F) m).payload (barCell c) 0 d)
      = iprop(∃ f, (h1M : Memref sig .tc .vmem S1x512 .f32).view.loc (lft c : Thread nD τ) ↦[(h1M : Memref sig .tc .vmem S1x512 .f32).view.set]{fullShare} f) := by
    rw [duties_bar_last m c hl hr, Finset.sdiff_empty, bigSep_singleton, payload_bar_false]; rfl
  unfold bodyPre ghost invs opened posns payToks scrSome
  iintro ⟨⟨⟨⟨⟨#HIbar, #HIs0, #HIs1, #HIr0, #HIr1, #HIbarL, #HIbarR, #HIr0R, #HIr1L⟩, ⟨#HrBL, #HrBR, #HrR0R, #HrR1L, #HrS0, #HrS1⟩,
      ⟨HatB, HatS0, HatS1, HatR0, HatR1⟩, ⟨HtBL, HtBR, HtR0R, HtR1L, HtS0, HtS1⟩⟩, Hc, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ T₀
  rw [if_pos hl, if_pos hl, if_pos hl, if_pos hl, if_neg hr, if_neg hr, if_neg hr, if_neg hr]
  rw [zero_add, add_zero, add_zero, add_zero]
  -- the credit, cell by cell; the halo by rows; the block as a left half and the right half's two boundary rows
  ihave Hc := (cred_add _ _).1 $$ Hc
  icases Hc with ⟨HcR0, HcB⟩
  ihave Hs := (scr_split c f0) $$ Hscr
  icases Hs with ⟨Hh0, Hh1⟩
  ihave Hxs := (x_split c (xstg m c)) $$ Hx
  icases Hxs with ⟨Hx, Hx0, Hx511, Hxr⟩
  ihave Hout := (Entails.of_eq (out_view c g1)) $$ Hout
  sl_unfold [cc0_body]
  -- the signal to the device before, which takes the first halo row with it
  sl_exec (disch := first | sl_exact h1 | sl_exact h2 | sl_exact h3 | sl_exact h4 | sl_exact e51 | sl_exact n54 | sl_exact n56 | sl_exact e59)
  -- the barrier wait: the whole of the round, paid by the device before
  iapply (Rounds.wp_wait_rest_token 𝒱₀ ER (haloRd m) (c : Thread nD τ) none (κ := K (c, 0))
      (wpE_semWait_eq 𝒱₀ (c : Thread nD τ) none Set.univ) (Set.mem_univ _) ()
      (O := tallyAt (rcv1Cell (lft c)) () N) (R := 0) (m := 0) (T := ∅)
      (by rw [expect_bar_last m c hl hr]; rfl)) $$ [HcB HO HatB]
  · isplitr; · iexact HIbar
    isplitl [HcB]; · iexact HcB
    isplitl [HO]; · iexact HO
    isplitr; · iapply (mayWait_barL c); iexact Hlev
    iexact HatB
  iintro ⟨HO, HatB, #HrB1, Hpay⟩
  ihave Hp := (Entails.of_eq hbar) $$ Hpay
  icases Hp with ⟨%fn, Hn⟩
  sl_exec (disch := first | sl_exact h1 | sl_exact h2 | sl_exact h3 | sl_exact h4 | sl_exact e51 | sl_exact n54 | sl_exact n56 | sl_exact e59)
  -- the copy of the first row to the device before
  iapply (wp_sendL m K c _ (dev4_eq c h4) hl fn _ 0 (zero_add _).symm _) $$ [Hx0 Hn HO HtS1 HtR1L]
  · isplitr; · iexact HIs1
    isplitr; · iexact HIr1L
    isplitl [Hx0]; · iexact Hx0
    isplitl [Hn]; · iexact Hn
    isplitl [HO]; · iexact HO
    isplitl [HtS1]; · iexact HtS1
    isplitr; · iexact HrS1
    isplitl [HtR1L]; · iexact HtR1L
    iexact HrR1L
  iintro ⟨HcS1, HO⟩
  -- the stencil of the block; the landing of the row from the device before and the return of the lent row; the first row
  -- corrected with the landed row; the last row copied
  sl_exec (disch := first | sl_exact h1 | sl_exact h2 | sl_exact h3 | sl_exact h4 | sl_exact e51 | sl_exact n54 | sl_exact n56 | sl_exact e59)
  -- the four own cells: the two that had a round have consumed it, the two of the missing neighbour never had one
  imod (Rounds.cell_close ER (haloRd m) (Set.mem_univ (K (c, 1))) (fun h => h) (R := 0) (fun r _ => duties_snd0_none m c hr r)) $$ [HatS0] with HzS0
  · isplitr; · iexact HIs0
    iexact HatS0
  imod (Rounds.cell_close ER (haloRd m) (Set.mem_univ (K (c, 2))) (fun h => h) (R := 1) (duties_later m (snd1Cell c))) $$ [HatS1] with HzS1
  · isplitr; · iexact HIs1
    iexact HatS1
  imod (Rounds.cell_close ER (haloRd m) (Set.mem_univ (K (c, 3))) (fun h => h) (R := 1) (duties_later m (rcv0Cell c))) $$ [HatR0] with HzR0
  · isplitr; · iexact HIr0
    iexact HatR0
  imod (Rounds.cell_close ER (haloRd m) (Set.mem_univ (K (c, 4))) (fun h => h) (R := 0) (fun r _ => duties_rcv1_none m c hr r)) $$ [HatR1] with HzR1
  · isplitr; · iexact HIr1
    iexact HatR1
  -- the halo whole again: the landed first row and the untouched second; the block whole again, at the full share
  ihave Hscr := (scr_join c (haloVal m c) f0) $$ [HatR0_pay1 Hh1]
  · isplitl [HatR0_pay1] <;> iassumption
  ihave Hxw := (x_join c (xstg m c)) $$ [Hx HatS1_pay1 Hx511 Hxr]
  · isplitl [Hx]; · iexact Hx
    isplitl [HatS1_pay1]; · iexact HatS1_pay1
    isplitl [Hx511]; · iexact Hx511
    iexact Hxr
  rw [wp_ret]; imodintro
  iapply Hk
  unfold bodyPost Φ₁ Dat.owesAt Pipeline.owesWithin
  rw [show (dats m 0 c).owed t₀.succ = 0 from rfl]
  isplitl [Hscr HzS0 HzS1 HzR0 HzR1]
  · isplitl [Hscr]; · iexact Hscr
    isplitl [HzS0]; · iexact HzS0
    isplitl [HzS1]; · iexact HzS1
    isplitl [HzR0]; · iexact HzR0
    iexact HzR1
  isplitl [HO]
  · iexists _
    isplitr
    rotate_left
    · iexact HO
    · ipureintro; exact fun _ _ => Or.inl trivial
  isplitl [Hxw]
  · iexists _; isplitr; · (ipureintro; rfl)
    iexact Hxw
  iexists _
  isplitr
  rotate_left
  · rw [out_view]; iexact Hout
  · ipureintro
    sl_unfold_words
    exact out_last m c hl hr g1

end Cert.Kernel.Halo

end
-- ==== Proof.Bits.Body.lean ====
/-
  The body of one device, run from what the launch deals it to what it hands back: by its place in the line it is the
  body of the first device, of the last device, or of a device with both neighbours.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.BodyFirst
import proofs.«900820_g7700000000000821_dist_halo_stencil_i_m512_n512_v7x_i32_bf16_1_alg».proof.Proof.Bits.BodyMid
import proofs.«900820_g7700000000000821_dist_halo_stencil_i_m512_n512_v7x_i32_bf16_1_alg».proof.Proof.Bits.BodyLast
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body on any device: every device has a neighbour on at least one side. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  by_cases hl : hasL c
  · by_cases hr : hasR c
    · exact sound_mid m K c hl hr Kt
    · exact sound_last m K c hl hr Kt
  · exact sound_first m K c hl ((has_one c).resolve_left hl) Kt

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hc, Hlev⟩, Hscr⟩, Ho, Hx, Hout⟩
  iapply (sound_body m K c fun _ => bodyPost m c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    isplitl [Hx] <;> iassumption
  · iintro H; iexact H

end Cert.Kernel.Halo

end
-- ==== Proof.Bits.Launch.lean ====
/-
  The launch of the halo exchange. The kernel is one region on every device; the protocol runs on the runtime's barrier
  semaphore (not scoped to the launch) and on the kernel's own four DMA semaphores. The launch element funds, beside
  the pipeline library's staging cells, the five cells of every device in the schedule's own copy of the rounds algebra;
  one global step allocates all their invariants at once (a barrier cell's invariant is opened by three devices); the
  duty tokens, minted per owner, are dealt around the line along the neighbour bijection; what the devices owe at launch,
  summed over the line, is each device's own waits' credit. The theorem's post is then read at the two arrays: the
  input array untouched, the result array written whole by the one write-back.
-/
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Bits.Body
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout: own semaphores, shares, the schedule's cells and tokens -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- All the schedule's cells: every device's five. -/
def haloCells : Finset (GSem nD τ sig) := Finset.univ.map ⟨kcell, kcell_injective⟩

/-- A device's own cells' duty tokens as minted: (device, which duty) — its barrier's two, then one each for its two send
    and its two receive cells. -/
abbrev tokOf (cj : Dev nD × Fin 6) : GSem nD τ sig × ℕ × Bool := match cj.2 with
  | 0 => (barCell cj.1, 0, false) | 1 => (barCell cj.1, 0, true) | 2 => (snd0Cell cj.1, 0, false)
  | 3 => (snd1Cell cj.1, 0, false) | 4 => (rcv0Cell cj.1, 0, false) | 5 => (rcv1Cell cj.1, 0, false)

theorem tokOf_injective : Function.Injective (tokOf : Dev nD × Fin 6 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl

def haloToks : Finset (GSem nD τ sig × ℕ × Bool) := Finset.univ.map ⟨tokOf, tokOf_injective⟩

/-- The launch element: the pipeline's staging cells in the first copy, the schedule's cells in the second. -/
def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 false ∗ dutyTok ER (barCell c) 0 true ∗ dutyTok ER (snd0Cell c) 0 false
    ∗ dutyTok ER (snd1Cell c) 0 false ∗ dutyTok ER (rcv0Cell c) 0 false ∗ dutyTok ER (rcv1Cell c) 0 false)

/-- What the launch element deals device `c`. -/
def G (c : Dev nD) : sProp 𝕄 :=
  iprop((bigSep Finset.univ fun k : Fin 5 => roundState ER (haloRd m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The schedule's copy of the launch element pays for every device's round states, marks, positions and tokens. -/
theorem fund_halo : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 5 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin6]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt around the line -/

/-- The two send and the two receive semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (snd0Cell c) 0 ∗ semVal (snd1Cell c) 0 ∗ semVal (rcv0Cell c) 0 ∗ semVal (rcv1Cell c) 0) := by
  rw [Pipeline.ownSems0_eq_of_list c osem [0, 1, 2, 3] (by decide) (by decide)]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H0, H1, H2, H3⟩, HB⟩
  isplitl [HB]; · iexact HB
  isplitl [H0]; · iexact H0
  isplitl [H1]; · iexact H1
  isplitl [H2]; · iexact H2
  iexact H3

/-- One device's five counters and round states become its five cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and that every cell's round 0 is open. -/
def records (K : Dev nD × Fin 5 → ℕ) : sProp 𝕄 :=
  iprop((bigSep Finset.univ fun ck : Dev nD × Fin 5 => cellInv ER (haloRd m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (haloRd m) (K ck) (kcell ck) : sProp 𝕄)) ⊢ cellInv ER (haloRd m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(posns c ∗ payToks c)

theorem ghost_intro (K : Dev nD × Fin 5 → ℕ) (c : Dev nD) : iprop(records m K ∗ linear c) ⊢ G' m c := by
  unfold records linear G' ghost invs opened
  iintro ⟨⟨#HI, #HR⟩, Hpos, Htok⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (lft c, 0)); iexact HI
    isplitr; · iapply (inv_at m K (rgt c, 0)); iexact HI
    isplitr; · iapply (inv_at m K (rgt c, 3)); iexact HI
    iapply (inv_at m K (lft c, 4)); iexact HI
  isplitr
  · isplitr; · iapply (reached_at (F := F) (lft c, 0)); iexact HR
    isplitr; · iapply (reached_at (F := F) (rgt c, 0)); iexact HR
    isplitr; · iapply (reached_at (F := F) (rgt c, 3)); iexact HR
    isplitr; · iapply (reached_at (F := F) (lft c, 4)); iexact HR
    isplitr; · iapply (reached_at (F := F) (c, 1)); iexact HR
    iapply (reached_at (F := F) (c, 2)); iexact HR
  isplitl [Hpos]; · iexact Hpos
  iexact Htok

/-- The tokens dealt around the line along the neighbour bijection: a barrier's token of "the device before" goes to the
    device before it, its token of "the device after" to the device after it; a receive cell's token goes to the
    neighbour whose copy lands on it; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', bigSep_sep', bigSep_sep',
    bigSep_univ_equiv shift (fun c : Dev nD => (dutyTok ER (barCell c) 0 false : sProp 𝕄)),
    bigSep_univ_equiv shift.symm (fun c : Dev nD => (dutyTok ER (barCell c) 0 true : sProp 𝕄)),
    bigSep_univ_equiv shift (fun c : Dev nD => (dutyTok ER (rcv0Cell c) 0 false : sProp 𝕄)),
    bigSep_univ_equiv shift.symm (fun c : Dev nD => (dutyTok ER (rcv1Cell c) 0 false : sProp 𝕄))]
  iintro ⟨H1, H2, H3, H4, H5, H6⟩
  isplitl [H2]; · iexact H2
  isplitl [H1]; · iexact H1
  isplitl [H5]; · iexact H5
  isplitl [H6]; · iexact H6
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (haloRd m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear posns; rw [bigSep_fin5])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the line owes, summed, is each device's own waits' credit -/

theorem sum_owed : (∑ d, O₀ d) = ∑ d, T₀ d := by
  have hA : (∑ d : Dev nD, (if hasR d then tallyAt (rcv0Cell (rgt d)) () N else 0 : CellTallies nD τ sig Unit))
      = ∑ c : Dev nD, (if hasL c then tallyAt (rcv0Cell c) () N else 0 : CellTallies nD τ sig Unit) :=
    (Finset.sum_congr rfl fun d _ => if_congr (hasR_rgt_iff d).symm rfl rfl).trans
      (Equiv.sum_comp shift fun c : Dev nD => (if hasL c then tallyAt (rcv0Cell c) () N else 0 : CellTallies nD τ sig Unit))
  have hB : (∑ d : Dev nD, (if hasL d then tallyAt (rcv1Cell (lft d)) () N else 0 : CellTallies nD τ sig Unit))
      = ∑ c : Dev nD, (if hasR c then tallyAt (rcv1Cell c) () N else 0 : CellTallies nD τ sig Unit) :=
    (Finset.sum_congr rfl fun d _ => if_congr (hasL_lft_iff d).symm rfl rfl).trans
      (Equiv.sum_comp shift.symm fun c : Dev nD => (if hasR c then tallyAt (rcv1Cell c) () N else 0 : CellTallies nD τ sig Unit))
  have hC : (∑ d : Dev nD, (if hasR d then tallyAt (barCell (rgt d)) () 1 else 0 : CellTallies nD τ sig Unit))
      = ∑ c : Dev nD, (if hasL c then tallyAt (barCell c) () 1 else 0 : CellTallies nD τ sig Unit) :=
    (Finset.sum_congr rfl fun d _ => if_congr (hasR_rgt_iff d).symm rfl rfl).trans
      (Equiv.sum_comp shift fun c : Dev nD => (if hasL c then tallyAt (barCell c) () 1 else 0 : CellTallies nD τ sig Unit))
  have hD : (∑ d : Dev nD, (if hasL d then tallyAt (barCell (lft d)) () 1 else 0 : CellTallies nD τ sig Unit))
      = ∑ c : Dev nD, (if hasR c then tallyAt (barCell c) () 1 else 0 : CellTallies nD τ sig Unit) :=
    (Finset.sum_congr rfl fun d _ => if_congr (hasL_lft_iff d).symm rfl rfl).trans
      (Equiv.sum_comp shift.symm fun c : Dev nD => (if hasR c then tallyAt (barCell c) () 1 else 0 : CellTallies nD τ sig Unit))
  unfold O₀ T₀
  rw [Finset.sum_add_distrib, Finset.sum_add_distrib, Finset.sum_add_distrib, Finset.sum_add_distrib, Finset.sum_add_distrib, Finset.sum_add_distrib,
    hA, hB, hC, hD]

/-- A conditional one-cell tally is nothing off its cell; -/
theorem ite_tally_off {p : Prop} [Decidable p] {g g' : GSem nD τ sig} (h : g' ≠ g) (n : ℕ) :
    (if p then tallyAt g () n else (0 : CellTallies nD τ sig Unit)) g' = 0 := by
  by_cases hp : p
  · rw [if_pos hp]; exact tallyAt_ne_cell h () n
  · rw [if_neg hp]; rfl
/-- and positive only under its condition, at its cell. -/
theorem ite_tally_pos {p : Prop} [Decidable p] {g g' : GSem nD τ sig} {n : ℕ} {u : Unit}
    (h : 0 < (if p then tallyAt g () n else (0 : CellTallies nD τ sig Unit)) g' u) : p ∧ g' = g := by
  by_cases hp : p
  · rw [if_pos hp] at h; exact ⟨hp, (Pipeline.tallyAt_pos h).1⟩
  · rw [if_neg hp] at h; exact absurd h (Nat.lt_irrefl 0)

/-- What the neighbours owe device `d` sits on `d`'s own cells. -/
theorem T₀_own (d : Dev nD) (g : GSem nD τ sig) (h : T₀ d g ≠ 0) : g.1 = (d.tc : Thread nD τ) := by
  by_contra hne
  refine h ?_
  have hg (sm : SemLoc sig) : g ≠ ((d : Thread nD τ), sm) := fun hg => hne (congrArg Prod.fst hg)
  unfold T₀
  rw [Pi.add_apply, Pi.add_apply, Pi.add_apply, ite_tally_off (hg _), ite_tally_off (hg _), ite_tally_off (hg _), ite_tally_off (hg _)]
  rfl

theorem creds (c : Dev nD) : (Pipeline.launchCred O₀ c : sProp 𝕄) = cred (T₀ c) :=
  Pipeline.launchCred_of_sum O₀ T₀ sum_owed T₀_own c

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [creds]
  iintro ⟨-, Hlev, Hcr, -, HG⟩
  imodintro
  unfold start G'
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrSome
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrSome
  iintro ⟨Hr, H0, H1, H2, H3⟩
  isplitr; · iempintro
  isplitl [H0 H1 H2 H3]
  · isplitl [H0]; · iexact H0
    isplitl [H1]; · iexact H1
    isplitl [H2]; · iexact H2
    iexact H3
  iexact Hr

/-- Everything a device owes at launch is a TensorCore's barrier or receive cell, above level 0. -/
theorem O₀_pos {c : Dev nD} {g : GSem nD τ sig} {u : Unit} (h : 0 < O₀ c g u) : g.1.2 = .tc ∧ 0 < lv g u := by
  cases u
  unfold O₀ at h
  rcases Pipeline.add_pos_cases h with h | h
  · rcases Pipeline.add_pos_cases h with h | h
    · rcases Pipeline.add_pos_cases h with h | h
      · obtain ⟨_, rfl⟩ := ite_tally_pos h; exact ⟨rfl, by rw [lv_rcv0]; decide⟩
      · obtain ⟨_, rfl⟩ := ite_tally_pos h; exact ⟨rfl, by rw [lv_rcv1]; decide⟩
    · obtain ⟨_, rfl⟩ := ite_tally_pos h; exact ⟨rfl, by rw [lv_bar]; exact Nat.succ_pos _⟩
  · obtain ⟨_, rfl⟩ := ite_tally_pos h; exact ⟨rfl, by rw [lv_bar]; exact Nat.succ_pos _⟩

/-- A DMA semaphore that is no receive semaphore sits at level 0. -/
theorem lv_stage (c : Dev nD) (q : DmaSem sig) (h0 : q ≠ rcv0S) (h1 : q ≠ rcv1S) : lv ((c : Thread nD τ), .dma q) () = 0 := by
  unfold lv
  rw [if_neg (fun h => by cases h), if_neg (fun h => h.elim (fun h => h0 (SemLoc.dma.inj h)) (fun h => h1 (SemLoc.dma.inj h)))]

/-- The staging semaphores sit at level 0, below everything owed: the pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait_cut c _ 0 (by fin_cases w <;> fin_cases s <;> exact Nat.le_of_eq (lv_stage c _ (by decide) (by decide))) _ (by
      rcases t with ⟨_ | _, ht⟩
      · exact fun g u h => O₀_pos h
      · exact fun g u h => absurd h (Nat.lt_irrefl 0))

/-! ## The two arrays after the run -/

/-- The input array is never written back. -/
theorem final_x (c : Dev nD) : (dats m 0 c).arrAt (0 : Fin 2) cfg0.N = m ((c.tc : Thread nD τ).loc main_arg0) :=
  (dats (F := F) m 0 c).arrAt_in (0 : Fin 2) rfl _

/-- The result array's one block is the array, written back at the one point: it ends holding what the body left. -/
theorem final_out (c : Dev nD) : (dats m 0 c).arrAt (1 : Fin 2) cfg0.N = outAt m c := by
  have h1 : ((cfg0.win (1 : Fin 2)).blk t₀).view.read (Elt F) ((dats m 0 c).arrAt (1 : Fin 2) cfg0.N) = (dats m 0 c).flushed (1 : Fin 2) t₀ := by
    rw [show cfg0.N = (t₀ : Fin cfg0.N).val + 1 from rfl, (dats m 0 c).arrAt_succ (1 : Fin 2) t₀, flush0_1 t₀, if_pos rfl]
    exact View.read_write_univ _ _
  have hz : (fun a => win0_1.index t₀ a * main_v1.ty.shape.size a) = fun _ => 0 := funext fun a => by fin_cases a <;> decide
  exact (Memref.read_access_unit_zero (Elt F) main_v1 hz (fun a => by rw [congrFun hz a]; simp) ((dats m 0 c).arrAt (1 : Fin 2) cfg0.N)).symm.trans h1

/-! ## The run -/

set_option maxRecDepth 8000 in
/-- At the compiled mesh of 32 devices, for any float values, from any memory with zero counters: every weakly fair
    execution of @main — the devices shaking hands along the line on the runtime's barrier semaphore, then exchanging
    their boundary rows — terminates, and every final state has each device's result block at the named contents and
    its input block unchanged. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_halo m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 1).trans (final_out m c), ((h c).1 0).trans (final_x m c)⟩)

/-- info: 'Cert.Kernel.Halo.run_main' depends on axioms: [propext, Classical.choice, Quot.sound] -/
#guard_msgs in #print axioms run_main

end Cert.Kernel.Halo

end
-- ==== Proof.Spec.lean ====
/-
  The three-point stencil along the rows of a 16384 × 512 array, as ONE function of the whole array, and the same
  result seen from one of 32 devices that each hold 512 consecutive rows.

  Row g of the result, for 0 < g < 16383, is q·x[g−1] + h·x[g] + q·x[g+1] with the weights q = 1/4 and h = 1/2 (kept as
  their binary words: the same word on both sides is never evaluated); rows 0 and 16383 are copied. A device's block
  needs, beyond its own 512 rows, only the last row of the block before it and the first row of the block after it.
  Sums are grouped as the reference groups them, (q·a + h·b) + q·c; a device's first row groups its sum differently,
  (h·b + q·c) + q·a, and the two agree because addition of extended reals is commutative and associative.
-/
import Idealize.ShloMosaic.Lib.ValueIdx
import Idealize.ShloMosaic.Lib.Layout

noncomputable section

namespace Cert.Stencil

open Idealize.ShloMosaic Idealize.ShloMosaic.ValueIdx

/-- The whole array's shape and one device's block of it. -/
abbrev SW : Shape := ⟨2, ![16384, 512]⟩
abbrev SB : Shape := ⟨2, ![512, 512]⟩

/-- The outer weight 1/4 and the centre weight 1/2, as the programs spell them. -/
def q : EReal := Ideal.ofBits .f32 0x3E800000#32
def h : EReal := Ideal.ofBits .f32 0x3F000000#32

/-- The weighted average of three vertically adjacent entries, grouped as the reference groups it. -/
def avg (a b c : EReal) : EReal := (q * a + h * b) + q * c

/-- An entry of the whole array by its row and column. -/
abbrev atW (X : SW.Idx → EReal) (g l : Nat) (hg : g < 16384) (hl : l < 512) : EReal :=
  X (ix2 (n0 := 16384) (n1 := 512) ⟨g, hg⟩ ⟨l, hl⟩)

/-- An entry of a block by its row and column. -/
abbrev atB (x : SB.Idx → EReal) (r l : Nat) (hr : r < 512) (hl : l < 512) : EReal :=
  x (ix2 (n0 := 512) (n1 := 512) ⟨r, hr⟩ ⟨l, hl⟩)

/-- The stencil over the whole array: the first and the last row are copied, every row between them is the weighted
    average of itself and its two neighbours. -/
def whole (X : SW.Idx → EReal) : SW.Idx → EReal := fun i =>
  if hg : 0 < (i 0).val ∧ (i 0).val < 16383 then
    avg (atW X ((i 0).val - 1) (i 1).val (by omega) (idx2_lt1 i)) (atW X (i 0).val (i 1).val (by omega) (idx2_lt1 i))
      (atW X ((i 0).val + 1) (i 1).val (by omega) (idx2_lt1 i))
  else X i

/-- Device `c`'s 512 rows of the result, from its own block `xs`, the block before it `xl` (only its last row is read,
    and only when there is such a block) and the block after it `xr` (only its first row, likewise). The first row's sum is
    grouped (h·b + q·c) + q·a: the part from the device's own rows first, the neighbour's row last. -/
def blockOf (c : Fin 32) (xs xl xr : SB.Idx → EReal) : SB.Idx → EReal := fun i =>
  if h0 : (i 0).val = 0 then
    if 0 < c.val then (h * atB xs 0 (i 1).val (by omega) (idx2_lt1 i) + q * atB xs 1 (i 1).val (by omega) (idx2_lt1 i))
        + q * atB xl 511 (i 1).val (by omega) (idx2_lt1 i)
    else xs i
  else if h1 : (i 0).val = 511 then
    if c.val < 31 then (q * atB xs 510 (i 1).val (by omega) (idx2_lt1 i) + h * atB xs 511 (i 1).val (by omega) (idx2_lt1 i))
        + q * atB xr 0 (i 1).val (by omega) (idx2_lt1 i)
    else xs i
  else
    avg (atB xs ((i 0).val - 1) (i 1).val (by have := idx2_lt0 i; omega) (idx2_lt1 i)) (xs i)
      (atB xs ((i 0).val + 1) (i 1).val (by have := idx2_lt0 i; omega) (idx2_lt1 i))

/-- The device before `c` and the device after it, where there is one (the value is never read where there is none). -/
def before (c : Fin 32) : Fin 32 := ⟨(c.val + 31) % 32, Nat.mod_lt _ (by decide)⟩
def after (c : Fin 32) : Fin 32 := ⟨(c.val + 1) % 32, Nat.mod_lt _ (by decide)⟩

/-- Entries of the whole array at equal coordinates are equal. -/
theorem atW_congr (X : SW.Idx → EReal) {g g' l l' : Nat} (hg : g < 16384) (hl : l < 512) (hg' : g' < 16384) (hl' : l' < 512)
    (e1 : g = g') (e2 : l = l') : atW X g l hg hl = atW X g' l' hg' hl' := by
  subst e1; subst e2; rfl

/-- Row `r`, column `l` of device `c`'s block is row `512·c + r`, column `l` of the whole array. -/
theorem idx_at (c : Fin 32) (r l : Nat) (hr : r < 512) (hl : l < 512) (ht : Layout.Tiles SB SW 0 32) :
    ht.idx c (ix2 (n0 := 512) (n1 := 512) ⟨r, hr⟩ ⟨l, hl⟩)
      = ix2 (n0 := 16384) (n1 := 512) ⟨c.val * 512 + r, by have := c.isLt; omega⟩ ⟨l, hl⟩ := by
  funext b
  match b with
  | ⟨0, _⟩ => rfl
  | ⟨1, _⟩ => rfl

/-- An entry of device `c`'s block, as an entry of the whole array. -/
theorem block_at (c : Fin 32) (X : SW.Idx → EReal) (r l : Nat) (hr : r < 512) (hl : l < 512) :
    atB (Layout.block SB SW 0 32 c X) r l hr hl = atW X (c.val * 512 + r) l (by have := c.isLt; omega) hl := by
  show X _ = X _
  rw [idx_at]

/-- The stencil of the whole array at an interior row. -/
theorem whole_interior (X : SW.Idx → EReal) (g l : Nat) (hg : g < 16384) (hl : l < 512) (h0 : 0 < g) (h1 : g < 16383) :
    whole X (ix2 (n0 := 16384) (n1 := 512) ⟨g, hg⟩ ⟨l, hl⟩)
      = avg (atW X (g - 1) l (by omega) hl) (atW X g l hg hl) (atW X (g + 1) l (by omega) hl) := by
  unfold whole
  exact dif_pos (⟨h0, h1⟩ : 0 < g ∧ g < 16383)

/-- The stencil of the whole array at its first or last row. -/
theorem whole_edge (X : SW.Idx → EReal) (g l : Nat) (hg : g < 16384) (hl : l < 512) (he : ¬ (0 < g ∧ g < 16383)) :
    whole X (ix2 (n0 := 16384) (n1 := 512) ⟨g, hg⟩ ⟨l, hl⟩) = atW X g l hg hl := by
  unfold whole
  exact dif_neg he

/-- Regrouping a sum of three extended reals: addition is commutative and associative. -/
theorem regroup (a b c : EReal) : (b + c) + a = (a + b) + c := by
  rw [add_comm (b + c) a, add_assoc]

/-- The per-device form at a block's first row, when there is a block before it. -/
theorem blockOf_first (c : Fin 32) (xs xl xr : SB.Idx → EReal) (l : Nat) (hl : l < 512) (hc : 0 < c.val) :
    blockOf c xs xl xr (ix2 (n0 := 512) (n1 := 512) ⟨0, by omega⟩ ⟨l, hl⟩)
      = (h * atB xs 0 l (by omega) hl + q * atB xs 1 l (by omega) hl) + q * atB xl 511 l (by omega) hl := by
  unfold blockOf
  rw [dif_pos (rfl : (0 : Nat) = 0), if_pos hc]

/-- The per-device form at the first row of the first block: copied. -/
theorem blockOf_first_edge (c : Fin 32) (xs xl xr : SB.Idx → EReal) (l : Nat) (hl : l < 512) (hc : ¬ 0 < c.val) :
    blockOf c xs xl xr (ix2 (n0 := 512) (n1 := 512) ⟨0, by omega⟩ ⟨l, hl⟩) = atB xs 0 l (by omega) hl := by
  unfold blockOf
  rw [dif_pos (rfl : (0 : Nat) = 0), if_neg hc]

/-- The per-device form at a block's last row, when there is a block after it. -/
theorem blockOf_last (c : Fin 32) (xs xl xr : SB.Idx → EReal) (l : Nat) (hl : l < 512) (hc : c.val < 31) :
    blockOf c xs xl xr (ix2 (n0 := 512) (n1 := 512) ⟨511, by omega⟩ ⟨l, hl⟩)
      = (q * atB xs 510 l (by omega) hl + h * atB xs 511 l (by omega) hl) + q * atB xr 0 l (by omega) hl := by
  unfold blockOf
  rw [dif_neg (by decide : ¬ (511 : Nat) = 0), dif_pos (rfl : (511 : Nat) = 511), if_pos hc]

/-- The per-device form at the last row of the last block: copied. -/
theorem blockOf_last_edge (c : Fin 32) (xs xl xr : SB.Idx → EReal) (l : Nat) (hl : l < 512) (hc : ¬ c.val < 31) :
    blockOf c xs xl xr (ix2 (n0 := 512) (n1 := 512) ⟨511, by omega⟩ ⟨l, hl⟩) = atB xs 511 l (by omega) hl := by
  unfold blockOf
  rw [dif_neg (by decide : ¬ (511 : Nat) = 0), dif_pos (rfl : (511 : Nat) = 511), if_neg hc]

/-- The per-device form at a row strictly inside the block. -/
theorem blockOf_inner (c : Fin 32) (xs xl xr : SB.Idx → EReal) (r l : Nat) (hr : r < 512) (hl : l < 512)
    (h0 : ¬ r = 0) (h1 : ¬ r = 511) :
    blockOf c xs xl xr (ix2 (n0 := 512) (n1 := 512) ⟨r, hr⟩ ⟨l, hl⟩)
      = avg (atB xs (r - 1) l (by omega) hl) (atB xs r l hr hl) (atB xs (r + 1) l (by omega) hl) := by
  unfold blockOf
  rw [dif_neg h0, dif_neg h1]

/-- A device's rows of the stencil of the whole array are the stencil's per-device form of its own block and its two
    neighbours' blocks. -/
theorem block_whole (c : Fin 32) (X : SW.Idx → EReal) :
    blockOf c (Layout.block SB SW 0 32 c X) (Layout.block SB SW 0 32 (before c) X) (Layout.block SB SW 0 32 (after c) X)
      = Layout.block SB SW 0 32 c (whole X) := by
  funext i
  obtain ⟨r, l, rfl⟩ : ∃ (r : Fin 512) (l : Fin 512), i = ix2 r l := ⟨i 0, i 1, eq_ix2 i⟩
  obtain ⟨r, hr⟩ := r
  obtain ⟨l, hl⟩ := l
  have hc := c.isLt
  rw [Layout.block_apply, idx_at]
  by_cases h0 : r = 0
  · subst h0
    by_cases hc0 : 0 < c.val
    · -- the first row of a later block: an interior row of the whole array, its upper neighbour the block before's last row
      have hb : (before c).val = c.val - 1 := by show (c.val + 31) % 32 = c.val - 1; omega
      rw [blockOf_first c _ _ _ l hl hc0, block_at, block_at, block_at,
        whole_interior X _ l _ hl (by omega) (by omega), avg,
        atW_congr X (g := (before c).val * 512 + 511) (g' := c.val * 512 + 0 - 1) (by omega) hl (by omega) hl (by omega) rfl,
        atW_congr X (g := c.val * 512 + 1) (g' := c.val * 512 + 0 + 1) (by omega) hl (by omega) hl (by omega) rfl]
      exact regroup _ _ _
    · -- the first row of the first block: the whole array's first row, copied
      rw [blockOf_first_edge c _ _ _ l hl hc0, block_at, whole_edge X _ l _ hl (by omega)]
  · by_cases h1 : r = 511
    · subst h1
      by_cases hc1 : c.val < 31
      · -- the last row of an earlier block: interior, its lower neighbour the block after's first row
        have ha : (after c).val = c.val + 1 := by show (c.val + 1) % 32 = c.val + 1; omega
        rw [blockOf_last c _ _ _ l hl hc1, block_at, block_at, block_at,
          whole_interior X _ l _ hl (by omega) (by omega), avg,
          atW_congr X (g := (after c).val * 512 + 0) (g' := c.val * 512 + 511 + 1) (by omega) hl (by omega) hl (by omega) rfl,
          atW_congr X (g := c.val * 512 + 510) (g' := c.val * 512 + 511 - 1) (by omega) hl (by omega) hl (by omega) rfl]
      · -- the last row of the last block: the whole array's last row, copied
        rw [blockOf_last_edge c _ _ _ l hl hc1, block_at, whole_edge X _ l _ hl (by omega)]
    · -- a row strictly inside the block: interior, both neighbours the block's own rows
      rw [blockOf_inner c _ _ _ r l hr hl h0 h1, block_at, block_at, block_at,
        whole_interior X _ l _ hl (by omega) (by omega),
        atW_congr X (g := c.val * 512 + (r - 1)) (g' := c.val * 512 + r - 1) (by omega) hl (by omega) hl (by omega) rfl,
        atW_congr X (g := c.val * 512 + (r + 1)) (g' := c.val * 512 + r + 1) (by omega) hl (by omega) hl (by omega) rfl]

end Cert.Stencil

end
-- ==== Proof.Payloads.lean ====
/-
  The values the kernel body stores, read at one row and one column, at the ideal instance.

  The body loads its 512 × 512 block `xs`, shifts it down by one row (row 0 repeated on top) and up by one row (row 511
  repeated at the bottom) by cutting and re-joining row ranges, and stores q·down + h·xs + q·up over the whole block; the
  first and the last row are then stored again, from a row of the block alone (a copied edge) or from two rows of the
  block and one received row `hv`. Read at row r and column l, a cut at row offset o reads row o + r, a join of two
  pieces reads the piece that holds the row, a splat reads its scalar, and products and sums read entrywise.
-/
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Spec
import Idealize.ShloMosaic.Lib.ValueLayout

noncomputable section

namespace Cert.KernelIdeal.Payloads

open Cert.KernelIdeal Cert.KernelIdeal.Gen Cert.Stencil Idealize.ShloMosaic Idealize.ShloMosaic.ValueIdx

/-- The loaded block re-cast to its own shape is the block. -/
theorem pay6_eq (xs : Vec Ideal S512x512 .f32) : k0_pay6 (F := Ideal) xs = xs := by
  unfold k0_pay6
  exact shapeCast_self _ _

/-- One row cut out of the block at row offset `o`, read at its only row: row `o` of the block. -/
theorem row_cut (o : Nat) (X : FVec Ideal S512x512 .f32) (hs : S512x512.Slices ![o, 0] S1x512)
    (l : Fin 512) (k : Fin 512) (hk : k.val = o) :
    extractStridedSlice S1x512 ![o, 0] X hs (ix2 (0 : Fin 1) l) = X (ix2 k l) :=
  slice2_axis0_apply o X hs (0 : Fin 1) l k hk

/-- 511 rows cut out of the block at row offset `o`, read at row `p`: row `o + p` of the block. -/
theorem rows_cut (o : Nat) (X : FVec Ideal S512x512 .f32) (hs : S512x512.Slices ![o, 0] S511x512)
    (p : Fin 511) (l : Fin 512) (k : Fin 512) (hk : k.val = o + p.val) :
    extractStridedSlice S511x512 ![o, 0] X hs (ix2 p l) = X (ix2 k l) :=
  slice2_axis0_apply o X hs p l k hk

/-- A row on top of 511 rows: below the top row, row `r` of the join is row `r − 1` of the lower piece. -/
theorem join_top_lower (x₁ : FVec Ideal S1x512 .f32) (x₂ : FVec Ideal S511x512 .f32)
    (hc : Shape.Concatenates [S1x512, S511x512] S512x512 0) (r l : Fin 512) (p : Fin 511) (hp : p.val + 1 = r.val) :
    concatenate S512x512 0 [⟨S1x512, x₁⟩, ⟨S511x512, x₂⟩] hc (ix2 r l) = x₂ (ix2 p l) :=
  concatenate_pair_apply_right (0 : Fin S512x512.rank) x₁ x₂ hc (ix2 r l) rfl rfl (ix2 p l)
    (fun b hb => by
      match b with
      | ⟨0, _⟩ => exact absurd rfl hb
      | ⟨1, _⟩ => rfl)
    hp

/-- A row on top of 511 rows: the top row of the join is the upper piece's only row. -/
theorem join_top_upper (x₁ : FVec Ideal S1x512 .f32) (x₂ : FVec Ideal S511x512 .f32)
    (hc : Shape.Concatenates [S1x512, S511x512] S512x512 0) (l : Fin 512) :
    concatenate S512x512 0 [⟨S1x512, x₁⟩, ⟨S511x512, x₂⟩] hc (ix2 (0 : Fin 512) l) = x₁ (ix2 (0 : Fin 1) l) :=
  concatenate_pair_apply_left (0 : Fin S512x512.rank) x₁ x₂ hc (ix2 (0 : Fin 512) l) rfl (ix2 (0 : Fin 1) l)
    (fun b => by
      match b with
      | ⟨0, _⟩ => rfl
      | ⟨1, _⟩ => rfl)

/-- 511 rows on top of one row: above the bottom row, row `r` of the join is row `r` of the upper piece. -/
theorem join_bottom_upper (x₁ : FVec Ideal S511x512 .f32) (x₂ : FVec Ideal S1x512 .f32)
    (hc : Shape.Concatenates [S511x512, S1x512] S512x512 0) (r l : Fin 512) (p : Fin 511) (hp : p.val = r.val) :
    concatenate S512x512 0 [⟨S511x512, x₁⟩, ⟨S1x512, x₂⟩] hc (ix2 r l) = x₁ (ix2 p l) :=
  concatenate_pair_apply_left (0 : Fin S512x512.rank) x₁ x₂ hc (ix2 r l) rfl (ix2 p l)
    (fun b => by
      match b with
      | ⟨0, _⟩ => exact hp
      | ⟨1, _⟩ => rfl)

/-- 511 rows on top of one row: the bottom row of the join is the lower piece's only row. -/
theorem join_bottom_lower (x₁ : FVec Ideal S511x512 .f32) (x₂ : FVec Ideal S1x512 .f32)
    (hc : Shape.Concatenates [S511x512, S1x512] S512x512 0) (l : Fin 512) :
    concatenate S512x512 0 [⟨S511x512, x₁⟩, ⟨S1x512, x₂⟩] hc (ix2 (511 : Fin 512) l) = x₂ (ix2 (0 : Fin 1) l) :=
  concatenate_pair_apply_right (0 : Fin S512x512.rank) x₁ x₂ hc (ix2 (511 : Fin 512) l) rfl rfl (ix2 (0 : Fin 1) l)
    (fun b hb => by
      match b with
      | ⟨0, _⟩ => exact absurd rfl hb
      | ⟨1, _⟩ => rfl)
    rfl

/-- A sum of two splat-weighted arrays, read at an index. -/
theorem wsum_apply {s : Shape} (w₁ w₂ : Ideal .f32) (A B : FVec Ideal s .f32) (i : s.Idx) :
    addf (mulf (broadcast s w₁) A) (mulf (broadcast s w₂) B) i = w₁ * A i + w₂ * B i := rfl

/-- The block shifted up by one row (its last row repeated), above the last row: the next row of the block. -/
theorem pay7_apply (xs : Vec Ideal S512x512 .f32) (r l : Fin 512) (h1 : r.val < 511) :
    k0_pay7 (F := Ideal) xs (ix2 r l) = xs (ix2 (⟨r.val + 1, by omega⟩ : Fin 512) l) := by
  unfold k0_pay7
  refine (join_bottom_upper _ _ _ r l ⟨r.val, h1⟩ rfl).trans ?_
  refine (rows_cut 1 _ _ ⟨r.val, h1⟩ l ⟨r.val + 1, by omega⟩ (Nat.add_comm _ _)).trans ?_
  rw [pay6_eq]

/-- q · (the block shifted down by one row) + h · the block, below the first row. -/
theorem pay8_apply (xs : Vec Ideal S512x512 .f32) (r l : Fin 512) (h0 : 0 < r.val) :
    k0_pay8 (F := Ideal) xs (ix2 r l) = q * xs (ix2 (⟨r.val - 1, by omega⟩ : Fin 512) l) + h * xs (ix2 r l) := by
  unfold k0_pay8
  refine (wsum_apply _ _ _ _ _).trans ?_
  have e1 := (join_top_lower (extractStridedSlice S1x512 ![0, 0] (k0_pay6 (F := Ideal) xs) slices_S512x512_o0_0_S1x512)
      (extractStridedSlice S511x512 ![0, 0] (k0_pay6 (F := Ideal) xs) slices_S512x512_o0_0_S511x512)
      concatenates_S1x512_S511x512_S512x512_d0 r l ⟨r.val - 1, by omega⟩ (by show r.val - 1 + 1 = r.val; omega)).trans
    (rows_cut 0 _ _ ⟨r.val - 1, by omega⟩ l ⟨r.val - 1, by omega⟩ (Nat.zero_add _).symm)
  rw [e1, pay6_eq]
  rfl

/-- q · (the block shifted down by one row) + h · the block, at the first row, which the shift repeats. -/
theorem pay8_first (xs : Vec Ideal S512x512 .f32) (l : Fin 512) :
    k0_pay8 (F := Ideal) xs (ix2 (0 : Fin 512) l) = q * xs (ix2 (0 : Fin 512) l) + h * xs (ix2 (0 : Fin 512) l) := by
  unfold k0_pay8
  refine (wsum_apply _ _ _ _ _).trans ?_
  have e1 := (join_top_upper (extractStridedSlice S1x512 ![0, 0] (k0_pay6 (F := Ideal) xs) slices_S512x512_o0_0_S1x512)
      (extractStridedSlice S511x512 ![0, 0] (k0_pay6 (F := Ideal) xs) slices_S512x512_o0_0_S511x512)
      concatenates_S1x512_S511x512_S512x512_d0 l).trans
    (row_cut 0 _ _ l (0 : Fin 512) rfl)
  rw [e1, pay6_eq]
  rfl

/-- The block shifted up by one row, at the last row, which the shift repeats. -/
theorem pay7_last (xs : Vec Ideal S512x512 .f32) (l : Fin 512) :
    k0_pay7 (F := Ideal) xs (ix2 (511 : Fin 512) l) = xs (ix2 (511 : Fin 512) l) := by
  unfold k0_pay7
  refine (join_bottom_lower _ _ _ l).trans ?_
  refine (row_cut 511 _ _ l (511 : Fin 512) rfl).trans ?_
  rw [pay6_eq]

/-- The whole-block store reads entrywise: the down-shifted and centre terms, then q · the up-shifted block. -/
theorem pay1_apply (xs : Vec Ideal S512x512 .f32) (i : S512x512.Idx) :
    k0_pay1 (F := Ideal) (k0_pay7 xs) (k0_pay8 xs) k0_pay9 i
      = k0_pay8 (F := Ideal) xs i + q * k0_pay7 (F := Ideal) xs i := rfl

/-- THE WHOLE-BLOCK STORE strictly inside the block: the weighted average of the entry and its two vertical
    neighbours. -/
theorem pay_whole (xs : Vec Ideal S512x512 .f32) (r l : Fin 512) (h0 : 0 < r.val) (h1 : r.val < 511) :
    k0_pay1 (F := Ideal) (k0_pay7 xs) (k0_pay8 xs) k0_pay9 (ix2 r l)
      = avg (xs (ix2 (⟨r.val - 1, by omega⟩ : Fin 512) l)) (xs (ix2 r l)) (xs (ix2 (⟨r.val + 1, by omega⟩ : Fin 512) l)) := by
  rw [pay1_apply, pay7_apply xs r l h1, pay8_apply xs r l h0]
  rfl

/-- The whole-block store at the first row (a later store overwrites it): the first row stands in for the missing
    upper neighbour. -/
theorem pay_whole_first (xs : Vec Ideal S512x512 .f32) (l : Fin 512) :
    k0_pay1 (F := Ideal) (k0_pay7 xs) (k0_pay8 xs) k0_pay9 (ix2 (0 : Fin 512) l)
      = (q * xs (ix2 (0 : Fin 512) l) + h * xs (ix2 (0 : Fin 512) l)) + q * xs (ix2 (1 : Fin 512) l) := by
  rw [pay1_apply, pay7_apply xs 0 l (by decide), pay8_first xs l]
  rfl

/-- The whole-block store at the last row (a later store overwrites it): the last row stands in for the missing lower
    neighbour. -/
theorem pay_whole_last (xs : Vec Ideal S512x512 .f32) (l : Fin 512) :
    k0_pay1 (F := Ideal) (k0_pay7 xs) (k0_pay8 xs) k0_pay9 (ix2 (511 : Fin 512) l)
      = (q * xs (ix2 (510 : Fin 512) l) + h * xs (ix2 (511 : Fin 512) l)) + q * xs (ix2 (511 : Fin 512) l) := by
  rw [pay1_apply, pay7_last xs l, pay8_apply xs 511 l (by decide)]
  rfl

/-- THE FIRST ROW'S STORE when a row `hv` was received from the block before: the block's own two rows first, the
    received row last. -/
theorem pay_first (xs : Vec Ideal S512x512 .f32) (hv : Vec Ideal S1x512 .f32) (l : Fin 512) :
    k0_pay2 (F := Ideal) (k0_pay6 xs) hv (ix2 (0 : Fin 1) l)
      = (h * xs (ix2 (0 : Fin 512) l) + q * xs (ix2 (1 : Fin 512) l)) + q * hv (ix2 (0 : Fin 1) l) := by
  have e : k0_pay2 (F := Ideal) (k0_pay6 xs) hv (ix2 (0 : Fin 1) l)
      = (h * extractStridedSlice S1x512 ![0, 0] (k0_pay6 (F := Ideal) xs) slices_S512x512_o0_0_S1x512 (ix2 (0 : Fin 1) l)
          + q * extractStridedSlice S1x512 ![1, 0] (k0_pay6 (F := Ideal) xs) slices_S512x512_o1_0_S1x512 (ix2 (0 : Fin 1) l))
        + q * hv (ix2 (0 : Fin 1) l) := rfl
  rw [e, row_cut 0 _ _ l (0 : Fin 512) rfl, row_cut 1 _ _ l (1 : Fin 512) rfl, pay6_eq]

/-- THE FIRST ROW'S STORE on the device with no block before it: the row is copied. -/
theorem pay_first_edge (xs : Vec Ideal S512x512 .f32) (l : Fin 512) :
    k0_pay3 (F := Ideal) (k0_pay6 xs) (ix2 (0 : Fin 1) l) = xs (ix2 (0 : Fin 512) l) := by
  unfold k0_pay3
  refine (row_cut 0 _ _ l (0 : Fin 512) rfl).trans ?_
  rw [pay6_eq]

/-- THE LAST ROW'S STORE when a row `hv` was received from the block after: the block's own two rows first, the
    received row last. -/
theorem pay_last (xs : Vec Ideal S512x512 .f32) (hv : Vec Ideal S1x512 .f32) (l : Fin 512) :
    k0_pay4 (F := Ideal) (k0_pay6 xs) hv (ix2 (0 : Fin 1) l)
      = (q * xs (ix2 (510 : Fin 512) l) + h * xs (ix2 (511 : Fin 512) l)) + q * hv (ix2 (0 : Fin 1) l) := by
  have e : k0_pay4 (F := Ideal) (k0_pay6 xs) hv (ix2 (0 : Fin 1) l)
      = (q * extractStridedSlice S1x512 ![510, 0] (k0_pay6 (F := Ideal) xs) slices_S512x512_o510_0_S1x512 (ix2 (0 : Fin 1) l)
          + h * extractStridedSlice S1x512 ![511, 0] (k0_pay6 (F := Ideal) xs) slices_S512x512_o511_0_S1x512 (ix2 (0 : Fin 1) l))
        + q * hv (ix2 (0 : Fin 1) l) := rfl
  rw [e, row_cut 510 _ _ l (510 : Fin 512) rfl, row_cut 511 _ _ l (511 : Fin 512) rfl, pay6_eq]

/-- THE LAST ROW'S STORE on the device with no block after it: the row is copied. -/
theorem pay_last_edge (xs : Vec Ideal S512x512 .f32) (l : Fin 512) :
    k0_pay5 (F := Ideal) (k0_pay6 xs) (ix2 (0 : Fin 1) l) = xs (ix2 (511 : Fin 512) l) := by
  unfold k0_pay5
  refine (row_cut 511 _ _ l (511 : Fin 512) rfl).trans ?_
  rw [pay6_eq]

end Cert.KernelIdeal.Payloads

end
-- ==== Proof.KerValue.lean ====
/-
  The kernel's result block is the stencil's per-device form. The body stores the stencil of the device's own block
  whole, then stores the first row again and then the last row again. Read row by row: a row strictly inside the block
  is the weighted average of itself and its two neighbours in the block; the first row, when there is a device before, is
  h·(own row 0) + q·(own row 1) + q·(the received row, which is the last row of the block before), and is copied when
  there is none; the last row likewise from the first row of the block after. These are the cases of
  `Cert.Stencil.blockOf`, with the neighbours' blocks those of the devices before and after on the line.
-/
import proofs.«900820_g7700000000000821_dist_halo_stencil_i_m512_n512_v7x_i32_bf16_1_alg».proof.Proof.Landing
import proofs.«900820_g7700000000000821_dist_halo_stencil_i_m512_n512_v7x_i32_bf16_1_alg».proof.Proof.Payloads
import proofs.«900820_g7700000000000821_dist_halo_stencil_i_m512_n512_v7x_i32_bf16_1_alg».proof.Proof.Spec

noncomputable section

namespace Cert.KernelIdeal.Halo

open Cert.KernelIdeal Cert.KernelIdeal.Gen Cert.KernelIdeal.Payloads

open Idealize.ShloMosaic
open Idealize.ShloMosaic.TcCoe
open Idealize.ShloMosaic.ValueIdx
open Idealize.SL.Sem

/-- The device before `c` on the line, as the stencil's per-device form names it, is the kernel's neighbour before; -/
theorem before_eq (c : Dev nD) : Cert.Stencil.before c = lft c := rfl
/-- the device after likewise. -/
theorem after_eq (c : Dev nD) : Cert.Stencil.after c = rgt c := rfl

/-- THE RESULT BLOCK of device `c` is the stencil's per-device form of its own block and its two neighbours' blocks. -/
theorem outAt_eq (m : (ℓ : Loc nD τ sig) → Buf (Elt Ideal) ℓ) (c : Dev nD) :
    outAt (F := Ideal) m c = Cert.Stencil.blockOf c (xstg m c) (xstg m (lft c)) (xstg m (rgt c)) := by
  funext i
  obtain ⟨r, l, rfl⟩ : ∃ (r : Fin 512) (l : Fin 512), i = ix2 r l := ⟨i 0, i 1, eq_ix2 i⟩
  by_cases h0 : r.val = 0
  · -- the first row: the second store's value
    obtain rfl : r = (0 : Fin 512) := Fin.ext h0
    rw [outAt_first]
    unfold outRow0
    by_cases hc : hasL c
    · rw [if_pos hc, pay_first, halo0_apply]
      exact (Cert.Stencil.blockOf_first c _ _ _ l.val l.isLt hc).symm
    · rw [if_neg hc, pay_first_edge]
      exact (Cert.Stencil.blockOf_first_edge c _ _ _ l.val l.isLt hc).symm
  · by_cases h1 : r.val = 511
    · -- the last row: the third store's value
      obtain rfl : r = (511 : Fin 512) := Fin.ext h1
      rw [outAt_last]
      unfold outRow511
      by_cases hc : hasR c
      · rw [if_pos hc, pay_last, halo1_apply]
        exact (Cert.Stencil.blockOf_last c _ _ _ l.val l.isLt hc).symm
      · rw [if_neg hc, pay_last_edge]
        exact (Cert.Stencil.blockOf_last_edge c _ _ _ l.val l.isLt hc).symm
    · -- a row strictly inside: the whole-block store's value
      rw [outAt_inner m c r l h0 h1]
      unfold outBase
      rw [pay_whole _ r l (by omega) (by omega)]
      exact (Cert.Stencil.blockOf_inner c _ _ _ r.val l.val r.isLt l.isLt h0 h1).symm

end Cert.KernelIdeal.Halo

end
-- ==== Proof.RefRun.lean ====
/-
  The reference's run and value. The reference computes the three-point stencil along the rows of a 16384 × 512 array
  in one pass of whole-array operations: a result buffer is allocated with contents nothing determines, row 0 and row
  16383 of the argument are written over its rows 0 and 16383, and the interior rows' weighted sums
  (q·x[0:16382] + h·x[1:16383]) + q·x[2:16384] are written over its rows 1 … 16382. The three writes are overwriting
  scatters at ONE start index each, so between them they cover every row exactly once and nothing of the allocated
  contents survives.

  Two halves. `RefValue`: an overwriting scatter is a left fold of point updates; read at one index it is the update
  that lands there (all updates landing there being equal) or, when none does, the operand. For the two shapes of scatter
  here the landing index of an update element is computed from the dimension numbers (row `k`, column `l` for element
  `l` of a one-row update at start `k`; row `o + r`, column `l` for element `(r, l)` of the interior update at start
  `o`), which gives each scatter as an `if` on the row, and the three composed are the stencil `Cert.Stencil.whole`, row
  by row: row 0, row 16383, the rows between. `RefRun`: the program is the allocation followed by a straight line of
  27 operations; from any memory with zero counters every weakly fair execution terminates with every buffer at the
  fold of the 27 operations' results over the launch contents with the allocated buffer at SOME contents, and the
  result buffer's term there is the composed scatter above, whatever those contents are.
-/
import proofs.«900820_g7700000000000821_dist_halo_stencil_i_m512_n512_v7x_i32_bf16_1_alg».proof.Proof.Gen.ReferenceIdeal
import proofs.«900820_g7700000000000821_dist_halo_stencil_i_m512_n512_v7x_i32_bf16_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## A fold of steps read at one index -/

section Fold
variable {κ ι α : Type}

/-- If every step keeps the value `c` at `i` once it is there, a fold started at `c` ends at `c`. -/
theorem foldl_keep (step : (ι → α) → κ → (ι → α)) (i : ι) (c : α) :
    ∀ (L : List κ) (x : ι → α), (∀ n ∈ L, ∀ r : ι → α, r i = c → step r n i = c) → x i = c → L.foldl step x i = c
  | [], _, _, hx => hx
  | a :: L, x, hk, hx => by
    rw [List.foldl_cons]
    exact foldl_keep step i c L (step x a) (fun n hn => hk n (List.mem_cons_of_mem _ hn)) (hk a List.mem_cons_self x hx)

/-- If moreover some step of the list puts `c` at `i` whatever was there, the fold ends at `c`. -/
theorem foldl_hit (step : (ι → α) → κ → (ι → α)) (i : ι) (c : α) :
    ∀ (L : List κ) (x : ι → α), (∀ n ∈ L, ∀ r : ι → α, r i = c → step r n i = c) →
      (∃ n ∈ L, ∀ r : ι → α, step r n i = c) → L.foldl step x i = c
  | [], _, _, hex => by obtain ⟨n, hn, _⟩ := hex; exact absurd hn List.not_mem_nil
  | a :: L, x, hk, hex => by
    rw [List.foldl_cons]
    have hkL : ∀ n ∈ L, ∀ r : ι → α, r i = c → step r n i = c := fun n hn => hk n (List.mem_cons_of_mem _ hn)
    obtain ⟨n, hn, hset⟩ := hex
    rcases List.mem_cons.mp hn with rfl | hnL
    · exact foldl_keep step i c L _ hkL (hset x)
    · exact foldl_hit step i c L _ hkL ⟨n, hnL, hset⟩

/-- If no step of the list changes the value at `i`, the fold leaves it. -/
theorem foldl_miss (step : (ι → α) → κ → (ι → α)) (i : ι) :
    ∀ (L : List κ) (x : ι → α), (∀ n ∈ L, ∀ r : ι → α, step r n i = r i) → L.foldl step x i = x i
  | [], _, _ => rfl
  | a :: L, x, hm => by
    rw [List.foldl_cons, foldl_miss step i L _ fun n hn => hm n (List.mem_cons_of_mem _ hn)]
    exact hm a List.mem_cons_self x

end Fold

/-! ## An overwriting scatter read at one index -/

section Scatter
variable {s si u : Shape} {w : Nat} {α : Type}

/-- An overwriting scatter at an index some update lands on, all updates landing there being equal: that update. -/
theorem scatter_set_hit (d : ScatterDims s si u) (x : s.Idx → α) (idx : IVec si w) (upd : u.Idx → α) (i : s.Idx) (j₀ : u.Idx)
    (h₀ : d.resultIdx? j₀ idx = some i) (hu : ∀ j : u.Idx, d.resultIdx? j idx = some i → upd j = upd j₀) :
    Host.scatter d (fun _ b => b) x idx upd i = upd j₀ := by
  unfold Host.scatter
  refine foldl_hit _ i (upd j₀) _ x (fun n _ r hr => ?_) ⟨u.rowMajor j₀, List.mem_finRange _, fun r => ?_⟩
  · show (match d.resultIdx? (u.rowMajor.symm n) idx with
        | some i₀ => fun i' => if i' = i₀ then upd (u.rowMajor.symm n) else r i'
        | none => r) i = upd j₀
    cases hres : d.resultIdx? (u.rowMajor.symm n) idx with
    | none => exact hr
    | some i₀ =>
      show (if i = i₀ then upd (u.rowMajor.symm n) else r i) = upd j₀
      by_cases hi : i = i₀
      · rw [if_pos hi]; exact hu _ (by rw [hres, hi])
      · rw [if_neg hi]; exact hr
  · show (match d.resultIdx? (u.rowMajor.symm (u.rowMajor j₀)) idx with
        | some i₀ => fun i' => if i' = i₀ then upd (u.rowMajor.symm (u.rowMajor j₀)) else r i'
        | none => r) i = upd j₀
    rw [Equiv.symm_apply_apply, h₀]
    exact if_pos rfl

/-- An overwriting scatter at an index no update lands on: the operand. -/
theorem scatter_set_miss (d : ScatterDims s si u) (x : s.Idx → α) (idx : IVec si w) (upd : u.Idx → α) (i : s.Idx)
    (hm : ∀ j : u.Idx, d.resultIdx? j idx ≠ some i) :
    Host.scatter d (fun _ b => b) x idx upd i = x i := by
  unfold Host.scatter
  refine foldl_miss _ i _ x fun n _ r => ?_
  show (match d.resultIdx? (u.rowMajor.symm n) idx with
      | some i₀ => fun i' => if i' = i₀ then upd (u.rowMajor.symm n) else r i'
      | none => r) i = r i
  cases hres : d.resultIdx? (u.rowMajor.symm n) idx with
  | none => rfl
  | some i₀ =>
    show (if i = i₀ then upd (u.rowMajor.symm n) else r i) = r i
    rw [if_neg fun hi => hm _ (by rw [hres, hi])]

end Scatter

/-- The dimension numbers of the two one-row scatters and of the interior rows' scatter. -/
abbrev d1 : ScatterDims S16384x512 S1 S512 := scatter_S16384x512_S1_S512_0_0_0_0
abbrev d2 : ScatterDims S16384x512 S1 S16382x512 := scatter_S16384x512_S1_S16382x512_01_n_0_0

theorem d1_sd0 : (0 : Fin 2) ∈ d1.scatterDimsToOperandDims := by decide
theorem d1_sd1 : (1 : Fin 2) ∉ d1.scatterDimsToOperandDims := by decide
theorem d1_sk0 : (0 : Fin 2) ∉ d1.sKept := by decide
theorem d1_sk1 : (1 : Fin 2) ∈ d1.sKept := by decide
theorem d2_sd0 : (0 : Fin 2) ∈ d2.scatterDimsToOperandDims := by decide
theorem d2_sd1 : (1 : Fin 2) ∉ d2.scatterDimsToOperandDims := by decide
theorem d2_sk0 : (0 : Fin 2) ∈ d2.sKept := by decide
theorem d2_sk1 : (1 : Fin 2) ∈ d2.sKept := by decide

section D1
variable (idx : IVec S1 32) (k : Fin 16384) (l : Fin 512)

theorem d1_start0 (hidx : ∀ i, (idx i).toInt = (k.val : Int)) (h : 0 < 2) : d1.start (ix1 l) idx ⟨0, h⟩ = (k.val : Int) := by
  unfold ScatterDims.start
  rw [dif_pos (show (⟨0, h⟩ : Fin 2) ∈ d1.scatterDimsToOperandDims from d1_sd0)]
  exact hidx _
theorem d1_start1 (h : 1 < 2) : d1.start (ix1 l) idx ⟨1, h⟩ = 0 := by
  unfold ScatterDims.start
  rw [dif_neg (show (⟨1, h⟩ : Fin 2) ∉ d1.scatterDimsToOperandDims from d1_sd1)]
theorem d1_window0 (h : 0 < 2) : d1.window (ix1 l) ⟨0, h⟩ = 0 := by
  unfold ScatterDims.window
  rw [dif_neg (show (⟨0, h⟩ : Fin 2) ∉ d1.sKept from d1_sk0)]
theorem d1_window1 (h : 1 < 2) : d1.window (ix1 l) ⟨1, h⟩ = l.val := by
  unfold ScatterDims.window
  rw [dif_pos (show (⟨1, h⟩ : Fin 2) ∈ d1.sKept from d1_sk1)]
  rfl

/-- Update element `l` of a one-row scatter at start row `k` lands on row `k`, column `l`. -/
theorem d1_resultIdx (hidx : ∀ i, (idx i).toInt = (k.val : Int)) : d1.resultIdx? (ix1 l) idx = some (ix2 k l) := by
  unfold ScatterDims.resultIdx?
  rw [dif_pos (fun a => by
    match a with
    | ⟨0, h⟩ =>
      rw [d1_start0 idx k l hidx h, d1_window0 l h]
      refine ⟨by omega, ?_⟩
      show (k.val : Int) + ((0 : Nat) : Int) < ((16384 : Nat) : Int)
      have := k.isLt; omega
    | ⟨1, h⟩ =>
      rw [d1_start1 idx l h, d1_window1 l h]
      refine ⟨by omega, ?_⟩
      show (0 : Int) + (l.val : Int) < ((512 : Nat) : Int)
      have := l.isLt; omega)]
  refine congrArg some (funext fun a => ?_)
  match a with
  | ⟨0, h⟩ =>
    refine Fin.ext ?_
    show (d1.start (ix1 l) idx ⟨0, h⟩ + (d1.window (ix1 l) ⟨0, h⟩ : Int)).toNat = k.val
    rw [d1_start0 idx k l hidx h, d1_window0 l h]; omega
  | ⟨1, h⟩ =>
    refine Fin.ext ?_
    show (d1.start (ix1 l) idx ⟨1, h⟩ + (d1.window (ix1 l) ⟨1, h⟩ : Int)).toNat = l.val
    rw [d1_start1 idx l h, d1_window1 l h]; omega

end D1

section D2
variable (idx : IVec S1 32) (o : Nat) (r : Fin 16382) (l : Fin 512)

theorem d2_start0 (hidx : ∀ i, (idx i).toInt = (o : Int)) (h : 0 < 2) : d2.start (ix2 r l) idx ⟨0, h⟩ = (o : Int) := by
  unfold ScatterDims.start
  rw [dif_pos (show (⟨0, h⟩ : Fin 2) ∈ d2.scatterDimsToOperandDims from d2_sd0)]
  exact hidx _
theorem d2_start1 (h : 1 < 2) : d2.start (ix2 r l) idx ⟨1, h⟩ = 0 := by
  unfold ScatterDims.start
  rw [dif_neg (show (⟨1, h⟩ : Fin 2) ∉ d2.scatterDimsToOperandDims from d2_sd1)]
theorem d2_window0 (h : 0 < 2) : d2.window (ix2 r l) ⟨0, h⟩ = r.val := by
  unfold ScatterDims.window
  rw [dif_pos (show (⟨0, h⟩ : Fin 2) ∈ d2.sKept from d2_sk0)]
  rfl
theorem d2_window1 (h : 1 < 2) : d2.window (ix2 r l) ⟨1, h⟩ = l.val := by
  unfold ScatterDims.window
  rw [dif_pos (show (⟨1, h⟩ : Fin 2) ∈ d2.sKept from d2_sk1)]
  rfl

/-- Update element `(r, l)` of the interior rows' scatter at start row `o` lands on row `o + r`, column `l`. -/
theorem d2_resultIdx (ho : o + 16382 ≤ 16384) (hidx : ∀ i, (idx i).toInt = (o : Int)) :
    d2.resultIdx? (ix2 r l) idx = some (ix2 (⟨o + r.val, by have := r.isLt; omega⟩ : Fin 16384) l) := by
  unfold ScatterDims.resultIdx?
  rw [dif_pos (fun a => by
    match a with
    | ⟨0, h⟩ =>
      rw [d2_start0 idx o r l hidx h, d2_window0 r l h]
      refine ⟨by omega, ?_⟩
      show (o : Int) + (r.val : Int) < ((16384 : Nat) : Int)
      have := r.isLt; omega
    | ⟨1, h⟩ =>
      rw [d2_start1 idx r l h, d2_window1 r l h]
      refine ⟨by omega, ?_⟩
      show (0 : Int) + (l.val : Int) < ((512 : Nat) : Int)
      have := l.isLt; omega)]
  refine congrArg some (funext fun a => ?_)
  match a with
  | ⟨0, h⟩ =>
    refine Fin.ext ?_
    show (d2.start (ix2 r l) idx ⟨0, h⟩ + (d2.window (ix2 r l) ⟨0, h⟩ : Int)).toNat = o + r.val
    rw [d2_start0 idx o r l hidx h, d2_window0 r l h]; omega
  | ⟨1, h⟩ =>
    refine Fin.ext ?_
    show (d2.start (ix2 r l) idx ⟨1, h⟩ + (d2.window (ix2 r l) ⟨1, h⟩ : Int)).toNat = l.val
    rw [d2_start1 idx r l h, d2_window1 r l h]; omega

end D2

/-- Two rank-2 indices given by coordinates are equal only if the coordinates are. -/
theorem ix2_inj {n0 n1 : Nat} {a a' : Fin n0} {b b' : Fin n1} (h : ix2 a b = ix2 a' b') : a = a' ∧ b = b' := by
  have h0 := congrFun h (⟨0, Nat.zero_lt_two⟩ : Fin 2)
  have h1 := congrFun h (⟨1, Nat.one_lt_two⟩ : Fin 2)
  exact ⟨h0, h1⟩

/-! ## The two scatters read at a row and a column -/

section Reads
variable {α : Type}

/-- A one-row scatter at start row `k`: row `k` is the update, every other row the operand's. -/
theorem scatter1_apply (x : S16384x512.Idx → α) (idx : IVec S1 32) (k : Fin 16384) (hidx : ∀ i, (idx i).toInt = (k.val : Int))
    (upd : S512.Idx → α) (g : Fin 16384) (l : Fin 512) :
    Host.scatter d1 (fun _ b => b) x idx upd (ix2 g l) = if g = k then upd (ix1 l) else x (ix2 g l) := by
  by_cases hg : g = k
  · rw [if_pos hg]
    refine scatter_set_hit d1 x idx upd (ix2 g l) (ix1 l) (by rw [hg]; exact d1_resultIdx idx k l hidx) fun j hj => ?_
    obtain ⟨l', rfl⟩ : ∃ l' : Fin 512, j = ix1 l' := ⟨j 0, eq_ix1 j⟩
    rw [d1_resultIdx idx k l' hidx] at hj
    have h1 : l' = l := (ix2_inj (Option.some.inj hj)).2
    rw [h1]
  · rw [if_neg hg]
    refine scatter_set_miss d1 x idx upd (ix2 g l) fun j hj => ?_
    obtain ⟨l', rfl⟩ : ∃ l' : Fin 512, j = ix1 l' := ⟨j 0, eq_ix1 j⟩
    rw [d1_resultIdx idx k l' hidx] at hj
    have h0 : k = g := (ix2_inj (Option.some.inj hj)).1
    exact hg h0.symm

/-- The interior rows' scatter at start row `o`: rows `o … o + 16381` are the update's rows, the others the operand's. -/
theorem scatter2_apply (x : S16384x512.Idx → α) (idx : IVec S1 32) (o : Nat) (ho : o + 16382 ≤ 16384)
    (hidx : ∀ i, (idx i).toInt = (o : Int)) (upd : S16382x512.Idx → α) (g : Fin 16384) (l : Fin 512) :
    Host.scatter d2 (fun _ b => b) x idx upd (ix2 g l)
      = if h : o ≤ g.val ∧ g.val < o + 16382 then upd (ix2 (⟨g.val - o, by omega⟩ : Fin 16382) l) else x (ix2 g l) := by
  by_cases hg : o ≤ g.val ∧ g.val < o + 16382
  · rw [dif_pos hg]
    have hland : d2.resultIdx? (ix2 (⟨g.val - o, by omega⟩ : Fin 16382) l) idx = some (ix2 g l) := by
      rw [d2_resultIdx idx o _ l ho hidx]
      refine congrArg some (congrArg (fun a : Fin 16384 => ix2 a l) (Fin.ext ?_))
      show o + (g.val - o) = g.val
      omega
    refine scatter_set_hit d2 x idx upd (ix2 g l) _ hland fun j hj => ?_
    obtain ⟨r', l', rfl⟩ : ∃ (r' : Fin 16382) (l' : Fin 512), j = ix2 r' l' := ⟨j 0, j 1, eq_ix2 j⟩
    rw [d2_resultIdx idx o r' l' ho hidx] at hj
    have h0 : (⟨o + r'.val, by have := r'.isLt; omega⟩ : Fin 16384) = g := (ix2_inj (Option.some.inj hj)).1
    have h1 : l' = l := (ix2_inj (Option.some.inj hj)).2
    have hr : r' = (⟨g.val - o, by omega⟩ : Fin 16382) := Fin.ext (by
      have := congrArg Fin.val h0
      show r'.val = g.val - o
      simp only at this
      omega)
    rw [hr, h1]
  · rw [dif_neg hg]
    refine scatter_set_miss d2 x idx upd (ix2 g l) fun j hj => ?_
    obtain ⟨r', l', rfl⟩ : ∃ (r' : Fin 16382) (l' : Fin 512), j = ix2 r' l' := ⟨j 0, j 1, eq_ix2 j⟩
    rw [d2_resultIdx idx o r' l' ho hidx] at hj
    have h0 : (⟨o + r'.val, by have := r'.isLt; omega⟩ : Fin 16384) = g := (ix2_inj (Option.some.inj hj)).1
    have := congrArg Fin.val h0
    have hr := r'.isLt
    simp only at this
    omega

end Reads

/-! ## The reference's composed term is the stencil of the whole array -/

/-- The three scatter-index arrays: the one-element arrays `[0]`, `[16383]`, `[1]`. -/
abbrev idxAt (w : BitVec 32) : IVec S1 32 := broadcastInDim S1 ![] bcast_S_S1 (constantI S_ 32 w)

/-- Row `k` of the whole array as a vector: the one-row slice, its unit axis dropped. -/
abbrev rowOf (X : S16384x512.Idx → EReal) (k : Nat) (h : S16384x512.Slices ![k, 0] S1x512) : S512.Idx → EReal :=
  shapeCast S512 (extractStridedSlice S1x512 ![k, 0] X h) shapeCasts_S1x512_S512

/-- The interior rows' weighted sums, row `r` being row `r + 1` of the result. -/
abbrev interior (X : S16384x512.Idx → EReal) : S16382x512.Idx → EReal :=
  addf (F := Ideal) (φ := .f32)
    (addf (F := Ideal) (φ := .f32)
      (mulf (F := Ideal) (φ := .f32) (broadcastInDim S16382x512 ![] bcast_S_S16382x512 (constant (F := Ideal) S_ .f32 0x3E800000#32))
        (extractStridedSlice S16382x512 ![0, 0] X slices_S16384x512_S16382x512_0_0))
      (mulf (F := Ideal) (φ := .f32) (broadcastInDim S16382x512 ![] bcast_S_S16382x512 (constant (F := Ideal) S_ .f32 0x3F000000#32))
        (extractStridedSlice S16382x512 ![1, 0] X slices_S16384x512_S16382x512_1_0)))
    (mulf (F := Ideal) (φ := .f32) (broadcastInDim S16382x512 ![] bcast_S_S16382x512 (constant (F := Ideal) S_ .f32 0x3E800000#32))
      (extractStridedSlice S16382x512 ![2, 0] X slices_S16384x512_S16382x512_2_0))

/-- A row vector read at a column is the whole array at that row and column. -/
theorem rowOf_apply (X : S16384x512.Idx → EReal) (k : Fin 16384) (h : S16384x512.Slices ![k.val, 0] S1x512) (l : Fin 512) :
    rowOf X k.val h (ix1 l) = X (ix2 k l) := by
  refine (shapeCast_1a_a_apply _ shapeCasts_S1x512_S512 l).trans ?_
  exact slice2_axis0_apply k.val X h (0 : Fin 1) l k (by show k.val = k.val + 0; omega)

/-- The interior sum that lands on row `g` (its row `g − 1`) read at column `l`: the weighted average of rows `g − 1`, `g`,
    `g + 1` of the whole array. -/
theorem interior_at (X : S16384x512.Idx → EReal) (g : Fin 16384) (l : Fin 512) (hg : 1 ≤ g.val ∧ g.val < 16383)
    (hr : g.val - 1 < 16382) :
    interior X (ix2 (⟨g.val - 1, hr⟩ : Fin 16382) l)
      = Cert.Stencil.avg (X (ix2 (⟨g.val - 1, by omega⟩ : Fin 16384) l)) (X (ix2 g l))
          (X (ix2 (⟨g.val + 1, by omega⟩ : Fin 16384) l)) := by
  have e0 := slice2_axis0_apply 0 X slices_S16384x512_S16382x512_0_0 (⟨g.val - 1, hr⟩ : Fin 16382) l (⟨g.val - 1, by omega⟩ : Fin 16384)
    (by show g.val - 1 = 0 + (g.val - 1); omega)
  have e1 := slice2_axis0_apply 1 X slices_S16384x512_S16382x512_1_0 (⟨g.val - 1, hr⟩ : Fin 16382) l g
    (by show g.val = 1 + (g.val - 1); omega)
  have e2 := slice2_axis0_apply 2 X slices_S16384x512_S16382x512_2_0 (⟨g.val - 1, hr⟩ : Fin 16382) l (⟨g.val + 1, by omega⟩ : Fin 16384)
    (by show g.val + 1 = 2 + (g.val - 1); omega)
  show (Ideal.ofBits .f32 0x3E800000#32 * extractStridedSlice S16382x512 ![0, 0] X slices_S16384x512_S16382x512_0_0 (ix2 (⟨g.val - 1, hr⟩ : Fin 16382) l)
        + Ideal.ofBits .f32 0x3F000000#32 * extractStridedSlice S16382x512 ![1, 0] X slices_S16384x512_S16382x512_1_0 (ix2 (⟨g.val - 1, hr⟩ : Fin 16382) l))
      + Ideal.ofBits .f32 0x3E800000#32 * extractStridedSlice S16382x512 ![2, 0] X slices_S16384x512_S16382x512_2_0 (ix2 (⟨g.val - 1, hr⟩ : Fin 16382) l) = _
  rw [e0, e1, e2]
  rfl

/-- The stencil of the whole array at a row strictly between the first and the last. -/
theorem whole_interior (X : S16384x512.Idx → EReal) (g : Fin 16384) (l : Fin 512) (hg : 0 < g.val ∧ g.val < 16383) :
    Cert.Stencil.whole X (ix2 g l)
      = Cert.Stencil.avg (X (ix2 (⟨g.val - 1, by omega⟩ : Fin 16384) l)) (X (ix2 g l)) (X (ix2 (⟨g.val + 1, by omega⟩ : Fin 16384) l)) := by
  exact dif_pos hg

/-- The stencil of the whole array at the first or the last row. -/
theorem whole_edge (X : S16384x512.Idx → EReal) (g : Fin 16384) (l : Fin 512) (hg : ¬(0 < g.val ∧ g.val < 16383)) :
    Cert.Stencil.whole X (ix2 g l) = X (ix2 g l) := by
  exact dif_neg hg

/-- THE VALUE: whatever the allocated buffer `A` held, the three scatters over it leave the stencil of the whole array:
    rows 0 and 16383 copied, every row between the weighted average of itself and its two neighbours. -/
theorem value_eq (A X : S16384x512.Idx → EReal) :
    Host.scatter d2 (fun _ b => b)
      (Host.scatter d1 (fun _ b => b)
        (Host.scatter d1 (fun _ b => b) A (idxAt 0#32) (rowOf X 0 slices_S16384x512_S1x512_0_0))
        (idxAt 16383#32) (rowOf X 16383 slices_S16384x512_S1x512_16383_0))
      (idxAt 1#32) (interior X)
    = Cert.Stencil.whole X := by
  funext i
  obtain ⟨g, l, rfl⟩ : ∃ (g : Fin 16384) (l : Fin 512), i = ix2 g l := ⟨i 0, i 1, eq_ix2 i⟩
  rw [scatter2_apply _ (idxAt 1#32) 1 (by omega) (fun _ => rfl)]
  by_cases hg : 1 ≤ g.val ∧ g.val < 1 + 16382
  · rw [dif_pos hg]
    exact (interior_at X g l ⟨hg.1, by omega⟩ (by omega)).trans (whole_interior X g l ⟨by omega, by omega⟩).symm
  · rw [dif_neg hg, whole_edge X g l (by omega),
      scatter1_apply _ (idxAt 16383#32) (⟨16383, by decide⟩ : Fin 16384) (fun _ => rfl)]
    by_cases h2 : g = (⟨16383, by decide⟩ : Fin 16384)
    · rw [if_pos h2, h2]
      exact rowOf_apply X (⟨16383, by decide⟩ : Fin 16384) slices_S16384x512_S1x512_16383_0 l
    · rw [if_neg h2, scatter1_apply _ (idxAt 0#32) (⟨0, by decide⟩ : Fin 16384) (fun _ => rfl)]
      have h0 : g = (⟨0, by decide⟩ : Fin 16384) := Fin.ext (by
        have : g.val ≠ 16383 := fun h => h2 (Fin.ext h)
        show g.val = 0
        omega)
      rw [if_pos h0, h0]
      exact rowOf_apply X (⟨0, by decide⟩ : Fin 16384) slices_S16384x512_S1x512_0_0 l

end Cert.ReferenceIdeal.RefValue

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first operation: the result buffer allocated, at contents nothing determines. -/
abbrev alloc : HloOp τ sig (Elt F) := allocateBuffer main_v0

/-- The operations after it, in order. -/
abbrev ops : List (HloOp τ sig (Elt F)) :=
  [ unary main_arg0 main_v1 ((extractStridedSlice S1x512 ![0, 0] · slices_S16384x512_S1x512_0_0) : (⟨S16384x512, .f32⟩ : BufTy).Contents (Elt F) → (⟨S1x512, .f32⟩ : BufTy).Contents (Elt F)),
    reshape main_v1 main_v2 rfl shapeCasts_S1x512_S512,
    nullary main_c (constantI S_ 32 0#32),
    unary main_c main_v3 (broadcastInDim S1 ![] bcast_S_S1 : (⟨S_, .i32⟩ : BufTy).Contents (Elt F) → (⟨S1, .i32⟩ : BufTy).Contents (Elt F)),
    ternary main_v0 main_v3 main_v2 main_v4 ((fun x i u => Host.scatter scatter_S16384x512_S1_S512_0_0_0_0 (fun _ b => b) x i u) : (⟨S16384x512, .f32⟩ : BufTy).Contents (Elt F) → (⟨S1, .i32⟩ : BufTy).Contents (Elt F) → (⟨S512, .f32⟩ : BufTy).Contents (Elt F) → (⟨S16384x512, .f32⟩ : BufTy).Contents (Elt F)),
    unary main_arg0 main_v5 ((extractStridedSlice S1x512 ![16383, 0] · slices_S16384x512_S1x512_16383_0) : (⟨S16384x512, .f32⟩ : BufTy).Contents (Elt F) → (⟨S1x512, .f32⟩ : BufTy).Contents (Elt F)),
    reshape main_v5 main_v6 rfl shapeCasts_S1x512_S512,
    nullary main_c_0 (constantI S_ 32 16383#32),
    unary main_c_0 main_v7 (broadcastInDim S1 ![] bcast_S_S1 : (⟨S_, .i32⟩ : BufTy).Contents (Elt F) → (⟨S1, .i32⟩ : BufTy).Contents (Elt F)),
    ternary main_v4 main_v7 main_v6 main_v8 ((fun x i u => Host.scatter scatter_S16384x512_S1_S512_0_0_0_0 (fun _ b => b) x i u) : (⟨S16384x512, .f32⟩ : BufTy).Contents (Elt F) → (⟨S1, .i32⟩ : BufTy).Contents (Elt F) → (⟨S512, .f32⟩ : BufTy).Contents (Elt F) → (⟨S16384x512, .f32⟩ : BufTy).Contents (Elt F)),
    unary main_arg0 main_v9 ((extractStridedSlice S16382x512 ![0, 0] · slices_S16384x512_S16382x512_0_0) : (⟨S16384x512, .f32⟩ : BufTy).Contents (Elt F) → (⟨S16382x512, .f32⟩ : BufTy).Contents (Elt F)),
    nullary main_cst (constant S_ .f32 0x3E800000#32),
    unary main_cst main_v10 (broadcastInDim S16382x512 ![] bcast_S_S16382x512 : (⟨S_, .f32⟩ : BufTy).Contents (Elt F) → (⟨S16382x512, .f32⟩ : BufTy).Contents (Elt F)),
    binary main_v10 main_v9 main_v11 (mulf : (⟨S16382x512, .f32⟩ : BufTy).Contents (Elt F) → (⟨S16382x512, .f32⟩ : BufTy).Contents (Elt F) → (⟨S16382x512, .f32⟩ : BufTy).Contents (Elt F)),
    unary main_arg0 main_v12 ((extractStridedSlice S16382x512 ![1, 0] · slices_S16384x512_S16382x512_1_0) : (⟨S16384x512, .f32⟩ : BufTy).Contents (Elt F) → (⟨S16382x512, .f32⟩ : BufTy).Contents (Elt F)),
    nullary main_cst_1 (constant S_ .f32 0x3F000000#32),
    unary main_cst_1 main_v13 (broadcastInDim S16382x512 ![] bcast_S_S16382x512 : (⟨S_, .f32⟩ : BufTy).Contents (Elt F) → (⟨S16382x512, .f32⟩ : BufTy).Contents (Elt F)),
    binary main_v13 main_v12 main_v14 (mulf : (⟨S16382x512, .f32⟩ : BufTy).Contents (Elt F) → (⟨S16382x512, .f32⟩ : BufTy).Contents (Elt F) → (⟨S16382x512, .f32⟩ : BufTy).Contents (Elt F)),
    binary main_v11 main_v14 main_v15 (addf : (⟨S16382x512, .f32⟩ : BufTy).Contents (Elt F) → (⟨S16382x512, .f32⟩ : BufTy).Contents (Elt F) → (⟨S16382x512, .f32⟩ : BufTy).Contents (Elt F)),
    unary main_arg0 main_v16 ((extractStridedSlice S16382x512 ![2, 0] · slices_S16384x512_S16382x512_2_0) : (⟨S16384x512, .f32⟩ : BufTy).Contents (Elt F) → (⟨S16382x512, .f32⟩ : BufTy).Contents (Elt F)),
    nullary main_cst_2 (constant S_ .f32 0x3E800000#32),
    unary main_cst_2 main_v17 (broadcastInDim S16382x512 ![] bcast_S_S16382x512 : (⟨S_, .f32⟩ : BufTy).Contents (Elt F) → (⟨S16382x512, .f32⟩ : BufTy).Contents (Elt F)),
    binary main_v17 main_v16 main_v18 (mulf : (⟨S16382x512, .f32⟩ : BufTy).Contents (Elt F) → (⟨S16382x512, .f32⟩ : BufTy).Contents (Elt F) → (⟨S16382x512, .f32⟩ : BufTy).Contents (Elt F)),
    binary main_v15 main_v18 main_v19 (addf : (⟨S16382x512, .f32⟩ : BufTy).Contents (Elt F) → (⟨S16382x512, .f32⟩ : BufTy).Contents (Elt F) → (⟨S16382x512, .f32⟩ : BufTy).Contents (Elt F)),
    nullary main_c_3 (constantI S_ 32 1#32),
    unary main_c_3 main_v20 (broadcastInDim S1 ![] bcast_S_S1 : (⟨S_, .i32⟩ : BufTy).Contents (Elt F) → (⟨S1, .i32⟩ : BufTy).Contents (Elt F)),
    ternary main_v8 main_v20 main_v19 main_v21 ((fun x i u => Host.scatter scatter_S16384x512_S1_S16382x512_01_n_0_0 (fun _ b => b) x i u) : (⟨S16384x512, .f32⟩ : BufTy).Contents (Elt F) → (⟨S1, .i32⟩ : BufTy).Contents (Elt F) → (⟨S16382x512, .f32⟩ : BufTy).Contents (Elt F) → (⟨S16384x512, .f32⟩ : BufTy).Contents (Elt F)) ]

theorem main_eq (c : Dev nD) : main (F := F) c = seq (alloc :: ops) := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., nullary_bufs_sub .., unary_bufs_sub .., ternary_bufs_sub .., unary_bufs_sub .., reshape_bufs_sub .., nullary_bufs_sub .., unary_bufs_sub .., ternary_bufs_sub .., unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., ternary_bufs_sub ..⟩

/-! ## The run -/

section Run

open Idealize.SL
open Idealize.SL.BI (sProp bigSep)
open scoped Idealize.SL.BI
open Idealize.SL.BI.BIBase Idealize.SL.BI.Laws Idealize.SL.ProofMode
open Idealize.SL.RA

local notation "𝕄" => MT nD τ sig Unit (Elt F) ℕ (Option PUnit) Unit

/-- The buffers outside an operation's keep their contents through it, whatever its fresh buffers receive. -/
theorem held_sdiff_resultω (c : Thread nD τ) (op : HloOp τ sig (Elt F)) (S : Finset (DevRef τ sig)) (V ω : Valuation τ sig (Elt F)) :
    (held c (S \ op.bufs) (op.resultω V ω) : sProp 𝕄) = held c (S \ op.bufs) V :=
  BI.bigSep_congr fun b hb => by
    rw [op.resultω_of_not_mem V ω fun hw => (Finset.mem_sdiff.mp hb).2 (op.writes_sub hw)]

/-- An operation's buffers after it and the rest as before make the whole set after it. -/
theorem held_resultω_intro (c : Thread nD τ) (op : HloOp τ sig (Elt F)) {S : Finset (DevRef τ sig)} (hS : op.bufs ⊆ S)
    (V ω : Valuation τ sig (Elt F)) :
    iprop((bigSep op.bufs fun b => (c.1, b) ↦{fullShare} op.resultω V ω b) ∗ (bigSep (S \ op.bufs) fun b => (c.1, b) ↦{fullShare} V b))
      ⊢ (held c S (op.resultω V ω) : sProp 𝕄) := by
  rw [held_split c hS (op.resultω V ω), held_sdiff_resultω]
  unfold held
  exact .rfl

/-- What each core ends holding: every buffer at the fold of the operations after the allocation over the launch
    contents with the allocated buffer at SOME contents. -/
def Φ (m : (ℓ : Loc nD τ sig) → Buf (Elt F) ℓ) (d : Dev nD) : sProp 𝕄 :=
  iprop(∃ ω : Valuation τ sig (Elt F),
    held (d.tc : Thread nD τ) (tcRefs τ sig) (after ops ((alloc (F := F)).resultω (launchContents m d) ω)))

set_option backward.isDefEq.respectTransparency.types false in
/-- Each core's run of @main from what the launch deals it. -/
theorem step (m : (ℓ : Loc nD τ sig) → Buf (Elt F) ℓ) (ρ : Dev nD → PrngReg) (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE (defs (F := F)) Variants.none (d.tc : Thread nD τ) none) Set.univ (main (F := F) d)
          (fun _ => post (liftTc (Φ m) BI.emp) (d.tc : Thread nD τ) : PUnit → sProp 𝕄) := by
  have hheld : (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
    unfold held tcRefs; rw [BI.bigSep_map]; rfl
  have hb : (opIdle (d.tc : Thread nD τ) : sProp 𝕄) ⊢ boundary (d.tc : Thread nD τ) :=
    boundary_of_opIdle (d.tc : Thread nD τ) (by rw [scopedRefs_tc, scopedRefs_eq, Finset.map_empty])
      (by rw [show (d.tc : Thread nD τ) = (d, .tc) from rfl, scopedCells_tc, scopedSems_eq, Finset.map_empty])
  have hsub : (alloc (F := F)).bufs ⊆ tcRefs τ sig := Finset.singleton_subset_iff.mpr (devRef_mem_tcRefs main_v0)
  rw [hheld, main_eq, seq, wp_bind, held_split (d.tc : Thread nD τ) hsub (launchContents m d)]
  unfold held
  iintro ⟨Hsplit, HO, -, Hidle⟩
  icases Hsplit with ⟨Hop, Hrest⟩
  ihave Hb := hb $$ Hidle
  iapply (wp_hlo_fresh Variants.none (d.tc : Thread nD τ) none Set.univ (op := alloc) (q := fun _ => fullShare)
      (F := launchContents m d) (fun _ _ => rfl)) $$ [Hb Hop]
  · isplitl [Hb]; · iexact Hb
    iexact Hop
  iintro %ω ⟨Hb, Hop⟩
  rw [wp_ret]; imodintro
  ihave Hall := (held_resultω_intro (d.tc : Thread nD τ) (alloc (F := F)) hsub (launchContents m d) ω) $$ [Hop Hrest]
  · isplitl [Hop]; · iexact Hop
    iexact Hrest
  rw [show seq (Λ := Pipeline.Sig Λ₀ (Fin 0) fun p => (pcfgs (F := F) p).Adm) (nD := nD) (ops (F := F))
      = (seq ops >>= fun u => Pure.pure u) from (bind_pure _).symm]
  iapply (wp_seq Variants.none none Set.univ d (tcRefs τ sig) (fun u => Pure.pure u) ops
      (List.forall_iff_forall_mem.1 ops_sub)
      (by intro _ h; (repeat (cases h with | head => rfl | tail _ h => ?_)); exact nomatch h)
      ((alloc (F := F)).resultω (launchContents m d) ω)) $$ [Hb Hall]
  · isplitl [Hb]; · iexact Hb
    iexact Hall
  iintro ⟨-, Hheld⟩
  rw [wp_pure]; imodintro
  unfold post Φ; simp only [liftTc_tc]
  isplitl [Hheld]
  · iexists ω; iexact Hheld
  iexists ∅; iexact HO

/-- That post against the state interpretation: every buffer's physical contents. -/
theorem post_reads (m : (ℓ : Loc nD τ sig) → Buf (Elt F) ℓ) (d : Dev nD) (s' : Phys nD τ sig (Elt F)) :
    iprop(Φ m d ∗ SI s')
      ⊢ (⌜∃ ω : Valuation τ sig (Elt F), ∀ b : Ref sig .tc,
            s'.mem.mem ((d.tc : Thread nD τ).loc b) = after ops ((alloc (F := F)).resultω (launchContents m d) ω) (Proc.devRef .tc b)⌝ : sProp 𝕄) := by
  unfold Φ held
  iintro ⟨HΦ, HSI⟩
  icases HΦ with ⟨%ω, H⟩
  ihave %h := (SI_pointsTo_bufs_agree (qs := fun _ => fullShare) (tcRefs τ sig)) $$ [HSI H]
  · isplitl [HSI]; · iexact HSI
    iexact H
  ipureintro
  exact ⟨ω, fun b => h _ (devRef_mem_tcRefs b)⟩

/-- From any memory with zero counters: every weakly fair execution of @main terminates, and every buffer ends at the
    fold of the operations after the allocation over the launch contents with the allocated buffer at some contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ d : Dev nD, ∃ ω : Valuation τ sig (Elt F), ∀ b : Ref sig .tc,
        r.2.mem ((d.tc : Thread nD τ).loc b) = after ops ((alloc (F := F)).resultω (launchContents m d) ω) (Proc.devRef .tc b) :=
  adequate_tpu defs _ _ _ (reflect_intro_silent_tc (Ix := Unit) (Name := ℕ) (U := Option PUnit) (Lvl := Unit)
    Variants.none none (Φ m)
    (fun d mem => ∃ ω : Valuation τ sig (Elt F), ∀ b : Ref sig .tc,
      mem.mem ((d.tc : Thread nD τ).loc b) = after ops ((alloc (F := F)).resultω (launchContents m d) ω) (Proc.devRef .tc b))
    (step m ρ) (post_reads m) (fun _ h d => h d))

end Run

/-! ## The reference's run and value -/

/-- The allocation leaves the argument buffer alone. -/
theorem alloc_arg0 (V ω : Valuation τ sig (Elt F)) :
    (alloc (F := F)).resultω V ω (Proc.devRef .tc main_arg0) = V (Proc.devRef .tc main_arg0) :=
  (alloc (F := F)).resultω_of_not_mem V ω (by
    show (Proc.devRef (τ := τ) .tc main_arg0) ∉ ({Proc.devRef .tc main_v0} : Finset (DevRef τ sig))
    exact Finset.notMem_singleton.mpr (devRef_ne_of_ne (by decide)))

/-- From any memory with zero counters, at the ideal instance: every weakly fair execution of the reference terminates,
    its result buffer holding the stencil of the whole argument array and the argument unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v21)
          = Cert.Stencil.whole (m (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)) :=
  (θ_run defs _ _).mono (fun _ h => by
      obtain ⟨ω, hω⟩ := h 0
      refine ⟨(hω main_v21).trans ?_, (hω main_arg0).trans ?_⟩
      · after_results_simp
        rw [alloc_arg0]
        exact Cert.ReferenceIdeal.RefValue.value_eq _ _
      · after_results_simp
        exact alloc_arg0 _ _)
    (run_after m ρ)

end Cert.ReferenceIdeal.RefRun

end
-- ==== Proof.Assembly.lean ====
/-
  The two claims that rest on the reference's run.

  The reference's frame claim is its run with the value dropped: the reference runs on one device, so "every device" is
  device 0.

  The equivalence claim, given the kernel's run (every device ends with its result block as the body writes it and its
  argument unchanged): the value the reference's result holds is the stencil of its whole argument array; each device's
  argument buffer holds its block of that array, so the block a device's staging buffer holds, and those of the devices
  before and after it, are blocks of the reference's array; the kernel's result block is the stencil's per-device form
  of these three blocks, and the per-device form of a device's block and its neighbours' blocks is that device's block of
  the stencil of the whole array. No property of the entries is used: the only algebra is that addition of extended
  reals is commutative and associative.
-/
import proofs.«900820_g7700000000000821_dist_halo_stencil_i_m512_n512_v7x_i32_bf16_1_alg».proof.Defs
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.ReferenceIdeal
import proofs.«900820_g7700000000000821_dist_halo_stencil_i_m512_n512_v7x_i32_bf16_1_alg».proof.Proof.Gen.Pre_finite_inputs_Kernel
import proofs.«900820_g7700000000000821_dist_halo_stencil_i_m512_n512_v7x_i32_bf16_1_alg».proof.Proof.Gen.Pre_finite_inputs_ReferenceIdeal
import proofs.«900820_g7700000000000821_dist_halo_stencil_i_m512_n512_v7x_i32_bf16_1_alg».proof.Proof.KerValue
import proofs.«900820_g7700000000000821_dist_halo_stencil_i_m512_n512_v7x_i32_bf16_1_alg».proof.Proof.RefRun

noncomputable section

namespace Cert.Proof.Assembly

open Idealize.ShloMosaic Idealize.SL.Sem

/-- The reference runs and leaves its argument unchanged. -/
theorem frame_ri : Cert.frame_ReferenceIdeal := fun m ρ _ =>
  (θ_run _ _ _).mono (fun _ h c => by
      obtain rfl : c = 0 := Subsingleton.elim _ _
      exact h.2)
    (Cert.ReferenceIdeal.RefRun.run m ρ)

/-- The kernel on 32 devices and the reference on one compute the same array, each device holding its block of it,
    given the kernel's run. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Halo.outAt m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' _ hagree
  refine ⟨Cert.Stencil.whole (m' (((0 : Dev Cert.ReferenceIdeal.nD).tc : Thread Cert.ReferenceIdeal.nD Cert.ReferenceIdeal.τ).loc Cert.ReferenceIdeal.main_arg0)),
    ?_, Cert.ReferenceIdeal.RefRun.run m' g'⟩
  refine (θ_run _ _ _).mono (fun _ h c => ?_) (hrun m g)
  obtain ⟨hv, ha⟩ := h c
  refine ⟨hv.trans ?_, ha⟩
  rw [Cert.KernelIdeal.Halo.outAt_eq, Cert.KernelIdeal.Halo.xstg_eq m c, Cert.KernelIdeal.Halo.xstg_eq m (Cert.KernelIdeal.Halo.lft c),
    Cert.KernelIdeal.Halo.xstg_eq m (Cert.KernelIdeal.Halo.rgt c), hagree c, hagree (Cert.KernelIdeal.Halo.lft c),
    hagree (Cert.KernelIdeal.Halo.rgt c), ← Cert.KernelIdeal.Halo.before_eq c, ← Cert.KernelIdeal.Halo.after_eq c]
  exact Cert.Stencil.block_whole c _

end Cert.Proof.Assembly

end
-- ==== Proof.lean ====
/-
  The three-point stencil along the rows of a 16384 × 512 array, computed on 32 devices that each hold 512 rows and
  exchange one boundary row with each neighbour on the line, equals the stencil computed on one device over the whole
  array: at the ideal instance each device ends holding its block of the one-device result, and every program runs to
  its end with its arguments unchanged. The kernel's run (the schedule of the exchange, the body, the launch) is in
  Proof/Launch.lean and, for the program as printed, Proof/Bits/Launch.lean; the reference's run and value in
  Proof/RefRun.lean; the kernel's result block as the stencil's per-device form in Proof/KerValue.lean; the per-device
  form as a block of the whole stencil in Proof/Spec.lean; the two claims over the reference in Proof/Assembly.lean.
-/
import proofs.«900820_g7700000000000821_dist_halo_stencil_i_m512_n512_v7x_i32_bf16_1_alg».proof.Defs
import proofs.«900820_g7700000000000821_dist_halo_stencil_i_m512_n512_v7x_i32_bf16_1_alg».proof.Proof.Gen.Kernel
import proofs.«900820_g7700000000000821_dist_halo_stencil_i_m512_n512_v7x_i32_bf16_1_alg».proof.Proof.Gen.Kernel.Skeleton
import proofs.«900820_g7700000000000821_dist_halo_stencil_i_m512_n512_v7x_i32_bf16_1_alg».proof.Proof.Gen.Kernel.Launch
import proofs.«900820_g7700000000000821_dist_halo_stencil_i_m512_n512_v7x_i32_bf16_1_alg».proof.Proof.Gen.Kernel.Points
import proofs.«900820_g7700000000000821_dist_halo_stencil_i_m512_n512_v7x_i32_bf16_1_alg».proof.Proof.Gen.Kernel.Frame
import proofs.«900820_g7700000000000821_dist_halo_stencil_i_m512_n512_v7x_i32_bf16_1_alg».proof.Proof.Gen.KernelIdeal
import proofs.«900820_g7700000000000821_dist_halo_stencil_i_m512_n512_v7x_i32_bf16_1_alg».proof.Proof.Gen.KernelIdeal.Skeleton
import proofs.«900820_g7700000000000821_dist_halo_stencil_i_m512_n512_v7x_i32_bf16_1_alg».proof.Proof.Gen.KernelIdeal.Launch
import proofs.«900820_g7700000000000821_dist_halo_stencil_i_m512_n512_v7x_i32_bf16_1_alg».proof.Proof.Gen.KernelIdeal.Points
import proofs.«900820_g7700000000000821_dist_halo_stencil_i_m512_n512_v7x_i32_bf16_1_alg».proof.Proof.Gen.KernelIdeal.Frame
import proofs.«900820_g7700000000000821_dist_halo_stencil_i_m512_n512_v7x_i32_bf16_1_alg».proof.Proof.Gen.ReferenceIdeal
import proofs.«900820_g7700000000000821_dist_halo_stencil_i_m512_n512_v7x_i32_bf16_1_alg».proof.Proof.Gen.Pre_finite_inputs_Kernel
import proofs.«900820_g7700000000000821_dist_halo_stencil_i_m512_n512_v7x_i32_bf16_1_alg».proof.Proof.Gen.Pre_finite_inputs_ReferenceIdeal
import proofs.«900820_g7700000000000821_dist_halo_stencil_i_m512_n512_v7x_i32_bf16_1_alg».proof.Proof.Launch
import proofs.«900820_g7700000000000821_dist_halo_stencil_i_m512_n512_v7x_i32_bf16_1_alg».proof.Proof.Bits.Launch
import proofs.«900820_g7700000000000821_dist_halo_stencil_i_m512_n512_v7x_i32_bf16_1_alg».proof.Proof.Assembly
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the kernel as printed runs and leaves its argument blocks unchanged
  fun m ρ _ => (θ_run _ _ _).mono (fun _ h c => (h c).2) (Cert.Kernel.Halo.run_main (F := Bits) m ρ),
  -- so does its idealization
  fun m ρ _ => (θ_run _ _ _).mono (fun _ h c => (h c).2) (Cert.KernelIdeal.Halo.run_main (F := Ideal) m ρ),
  -- and the reference
  Cert.Proof.Assembly.frame_ri,
  -- the idealization rewrote no operation
  trivial,
  -- each device's result block is its block of the reference's result
  Cert.Proof.Assembly.algebraic_of (fun m ρ => Cert.KernelIdeal.Halo.run_main (F := Ideal) m ρ)⟩

end Cert.Proof

end
